-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x2 .f32) (main_arg15 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x2 .f32 := Host.absf main_arg14
  let main_cst_22 : FVec F S_ .f32 := constant S_ .f32 0x7F800000#32
  let main_v60 : FVec F S128x2 .f32 := broadcastInDim S128x2 ![] bcast_S_S128x2 main_cst_22
  let main_v61 : IVec S128x2 1 := cmpf .olt main_v59 main_v60
  let main_c_23 : IVec S_ 1 := constantI S_ 1 1#1
  let main_v62 : IVec S_ 1 := (fun x v => Host.reduce IntOp.andi x v reducesTo_S128x2_S_d0_1 h_S_) main_v61 main_c_23
  let main_v63 : IVec S_ 1 := andi main_v58 main_v62
  let main_v64 : FVec F S2 .f32 := Host.absf main_arg15
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128 .f32) (main_arg14 : FVec F S128x2 .f32) (main_arg15 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_arg13 : FVec F S128 .f32) (main_arg14 : FVec F S128x2 .f32) (main_arg15 : FVec F S2 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x64 .f32) (main_arg1 : IVec S2x1600000 32) (main_arg2 : IVec S100000 32) (main_arg3 : FVec F S64x128 .f32) (main_arg4 : FVec F S128 .f32) (main_arg5 : FVec F S64x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_arg13 : FVec F S128 .f32) (main_arg14 : FVec F S128x2 .f32) (main_arg15 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S100000x128 : Shape := ⟨2, ![100000, 128]⟩
abbrev S1600000x128 : Shape := ⟨2, ![1600000, 128]⟩
abbrev S512x2 : Shape := ⟨2, ![512, 2]⟩
abbrev S4000x64 : Shape := ⟨2, ![4000, 64]⟩
abbrev S4000x1 : Shape := ⟨2, ![4000, 1]⟩
abbrev S4000x128 : Shape := ⟨2, ![4000, 128]⟩
abbrev S1x128 : Shape := ⟨2, ![1, 128]⟩
abbrev S512x128 : Shape := ⟨2, ![512, 128]⟩
abbrev S4000x512 : Shape := ⟨2, ![4000, 512]⟩
abbrev S512 : Shape := ⟨1, ![512]⟩
abbrev S512x1 : Shape := ⟨2, ![512, 1]⟩
abbrev S1x2 : Shape := ⟨2, ![1, 2]⟩

abbrev nBuf : Space → Nat
  | .hbm => 77
  | .vmem => 43
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128x2, .f32⟩
  | .hbm, ⟨15, _⟩ => ⟨S2, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x128, .f32⟩
  | .hbm, ⟨75, _⟩ => ⟨S100000x1, .i32⟩
  | .hbm, ⟨76, _⟩ => ⟨S512x2, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x128, .f32⟩
  | .local _ .vmem, ⟨5, _⟩ => ⟨S128, .f32⟩
  | .local _ .vmem, ⟨6, _⟩ => ⟨S64x128, .f32⟩
  | .local _ .vmem, ⟨7, _⟩ => ⟨S4000x1, .f32⟩
  | .local _ .vmem, ⟨8, _⟩ => ⟨S4000x1, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S128x128, .f32⟩
  | .local _ .vmem, ⟨16, _⟩ => ⟨S128, .f32⟩
  | .local _ .vmem, ⟨17, _⟩ => ⟨S128x128, .f32⟩
  | .local _ .vmem, ⟨18, _⟩ => ⟨S4000x1, .f32⟩
  | .local _ .vmem, ⟨19, _⟩ => ⟨S4000x1, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S128x128, .f32⟩
  | .local _ .vmem, ⟨27, _⟩ => ⟨S128, .f32⟩
  | .local _ .vmem, ⟨28, _⟩ => ⟨S128x128, .f32⟩
  | .local _ .vmem, ⟨29, _⟩ => ⟨S4000x1, .f32⟩
  | .local _ .vmem, ⟨30, _⟩ => ⟨S4000x1, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x1, .i32⟩
  | .local _ .vmem, ⟨36, _⟩ => ⟨S4000x1, .i32⟩
  | .local _ .vmem, ⟨37, _⟩ => ⟨S128x2, .f32⟩
  | .local _ .vmem, ⟨38, _⟩ => ⟨S2, .f32⟩
  | .local _ .vmem, ⟨39, _⟩ => ⟨S128, .f32⟩
  | .local _ .vmem, ⟨40, _⟩ => ⟨S128, .f32⟩
  | .local _ .vmem, ⟨41, _⟩ => ⟨S512x2, .f32⟩
  | .local _ .vmem, ⟨42, _⟩ => ⟨S512x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_cst : Ref sig .tc := ⟨.hbm, 20, rfl⟩
abbrev main_call0_v4 : Ref sig .tc := ⟨.hbm, 21, rfl⟩
abbrev main_call0_cst_0 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_v9 : Ref sig .tc := ⟨.hbm, 28, rfl⟩
abbrev main_call0_cst_2 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_c : Ref sig .tc := ⟨.hbm, 33, rfl⟩
abbrev main_call0_v13 : Ref sig .tc := ⟨.hbm, 34, rfl⟩
abbrev main_call0_v14 : Ref sig .tc := ⟨.hbm, 35, rfl⟩
abbrev main_call0_c_3 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_v19 : Ref sig .tc := ⟨.hbm, 41, rfl⟩
abbrev main_call0_cst_4 : Ref sig .tc := ⟨.hbm, 42, rfl⟩
abbrev main_call0_v20 : Ref sig .tc := ⟨.hbm, 43, rfl⟩
abbrev main_call0_v21 : Ref sig .tc := ⟨.hbm, 44, rfl⟩
abbrev main_call0_v22 : Ref sig .tc := ⟨.hbm, 45, rfl⟩
abbrev main_call0_v23 : Ref sig .tc := ⟨.hbm, 46, rfl⟩
abbrev main_call0_c_5 : Ref sig .tc := ⟨.hbm, 47, rfl⟩
abbrev main_call0_v24 : Ref sig .tc := ⟨.hbm, 48, rfl⟩
abbrev main_call0_v25 : Ref sig .tc := ⟨.hbm, 49, rfl⟩
abbrev main_call0_c_6 : Ref sig .tc := ⟨.hbm, 50, rfl⟩
abbrev main_call0_v26 : Ref sig .tc := ⟨.hbm, 51, rfl⟩
abbrev main_call0_v27 : Ref sig .tc := ⟨.hbm, 52, rfl⟩
abbrev main_call0_v28 : Ref sig .tc := ⟨.hbm, 53, rfl⟩
abbrev main_call0_v29 : Ref sig .tc := ⟨.hbm, 54, rfl⟩
abbrev main_call0_v30 : Ref sig .tc := ⟨.hbm, 55, rfl⟩
abbrev main_call0_cst_7 : Ref sig .tc := ⟨.hbm, 56, rfl⟩
abbrev main_call0_v31 : Ref sig .tc := ⟨.hbm, 57, rfl⟩
abbrev main_call0_v32 : Ref sig .tc := ⟨.hbm, 58, rfl⟩
abbrev main_call0_v33 : Ref sig .tc := ⟨.hbm, 59, rfl⟩
abbrev main_call0_v34 : Ref sig .tc := ⟨.hbm, 60, rfl⟩
abbrev main_call0_c_8 : Ref sig .tc := ⟨.hbm, 61, rfl⟩
abbrev main_call0_v35 : Ref sig .tc := ⟨.hbm, 62, rfl⟩
abbrev main_call0_v36 : Ref sig .tc := ⟨.hbm, 63, rfl⟩
abbrev main_call0_c_9 : Ref sig .tc := ⟨.hbm, 64, rfl⟩
abbrev main_call0_v37 : Ref sig .tc := ⟨.hbm, 65, rfl⟩
abbrev main_call0_v38 : Ref sig .tc := ⟨.hbm, 66, rfl⟩
abbrev main_call0_v39 : Ref sig .tc := ⟨.hbm, 67, rfl⟩
abbrev main_call0_v40 : Ref sig .tc := ⟨.hbm, 68, rfl⟩
abbrev main_call0_v41 : Ref sig .tc := ⟨.hbm, 69, rfl⟩
abbrev main_call0_cst_10 : Ref sig .tc := ⟨.hbm, 70, rfl⟩
abbrev main_call0_v42 : Ref sig .tc := ⟨.hbm, 71, rfl⟩
abbrev main_call0_v43 : Ref sig .tc := ⟨.hbm, 72, rfl⟩
abbrev main_call0_v44 : Ref sig .tc := ⟨.hbm, 73, rfl⟩
abbrev main_call0_v45 : Ref sig .tc := ⟨.hbm, 74, rfl⟩
abbrev main_call0_v46 : Ref sig .tc := ⟨.hbm, 75, rfl⟩
abbrev main_v0 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_scratch0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v21 : BitVec 1 := Scalar.cmpi .eq arg0 c24_i32
  let v22 : BitVec 32 := Scalar.extui v21
  let c0_i32_10 : BitVec 32 := 0#32
  let v23 : BitVec 1 := Scalar.cmpi .ne v22 c0_i32_10
  v23

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  bcast_S_S100000x128 : S_.BroadcastsInDim S100000x128 (![] : Fin 0 → Fin S100000x128.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S4000x512_d1_w32 : S4000x512.Iotas .tc 32 [1]
  broadcasts_S4000x1_S4000x512 : S4000x1.Broadcasts S4000x512
  reduces_S512x128_S512 : S512x128.Reduces [1] S512
  shapeCasts_S512_S512x1 : S512.ShapeCasts S512x1
  broadcasts_S512x1_S512x128 : S512x1.Broadcasts S512x128
  broadcasts_S1x128_S512x128 : S1x128.Broadcasts S512x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  dot_S4000x512_S4000x128_S512x128_0_0_1_1_n_n_wf : DotDims.WF S4000x512 S4000x128 S512x128 [0] [0] [1] [1] [] []
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x1.size a ≤ S100000x1.size a
  hwx0_5 : ∀ i : grid0.Coords, EltTy.bits .f32 = 32 ∨ (Rect.block (s := S100000x1) S4000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x1.size a ≤ S100000x1.size a
  hwx1_5 : ∀ i : grid1.Coords, EltTy.bits .f32 = 32 ∨ (Rect.block (s := S100000x1) S4000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x1.size a ≤ S100000x1.size a
  hwx2_5 : ∀ i : grid2.Coords, EltTy.bits .f32 = 32 ∨ (Rect.block (s := S100000x1) S4000x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .i32 = 32 ∨ (Rect.block (s := S100000x1) S4000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x2.size a ≤ S128x2.size a
  hwx3_2 : ∀ i : grid3.Coords, EltTy.bits .f32 = 32 ∨ (Rect.block (s := S128x2) S128x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2.size a ≤ S2.size a
  hwx3_3 : ∀ i : grid3.Coords, EltTy.bits .f32 = 32 ∨ (Rect.block (s := S2) S2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S512x2.size a ≤ S512x2.size a
  hwx3_6 : ∀ i : grid3.Coords, EltTy.bits .f32 = 32 ∨ (Rect.block (s := S512x2) S512x2.size (cc3_transform_6 i) (hinb3_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x512_S4000x128_S512x128_0_0_1_1_n_n : DotDims S4000x512 S4000x128 S512x128 where
  lhsContracting := [0]
  rhsContracting := [0]
  lhsNonContracting := [1]
  rhsNonContracting := [1]
  lhsBatch := []
  rhsBatch := []
  wf := dot_S4000x512_S4000x128_S512x128_0_0_1_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_call0_v22) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v12) S4000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v23) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v33) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v23) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v12) S4000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_call0_v34) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_call0_v44) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v34) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v12) S4000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_call0_v45) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_call0_v45) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v46) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S128x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v0) S512x2.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S512x128 : Shape := ⟨2, ![512, 128]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 159
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S64x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128x2, .f32⟩
  | 15 => ⟨S2, .f32⟩
  | 16 => ⟨S1x1600000, .i32⟩
  | 17 => ⟨S1600000, .i32⟩
  | 18 => ⟨S1x1600000, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x64, .f32⟩
  | 29 => ⟨S_, .f32⟩
  | 30 => ⟨S100000x64, .f32⟩
  | 31 => ⟨S1600000x1, .i32⟩
  | 32 => ⟨S100000x64, .f32⟩
  | 33 => ⟨S_, .f32⟩
  | 34 => ⟨S1600000, .f32⟩
  | 35 => ⟨S_, .f32⟩
  | 36 => ⟨S100000, .f32⟩
  | 37 => ⟨S1600000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x64, .f32⟩
  | 44 => ⟨S100000x64, .f32⟩
  | 45 => ⟨S100000x128, .f32⟩
  | 46 => ⟨S1x128, .f32⟩
  | 47 => ⟨S100000x128, .f32⟩
  | 48 => ⟨S100000x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S_, .f32⟩
  | 68 => ⟨S1600000, .f32⟩
  | 69 => ⟨S_, .f32⟩
  | 70 => ⟨S100000, .f32⟩
  | 71 => ⟨S1600000x1, .i32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x128, .f32⟩
  | 97 => ⟨S_, .f32⟩
  | 98 => ⟨S100000x128, .f32⟩
  | 99 => ⟨S1600000x1, .i32⟩
  | 100 => ⟨S100000x128, .f32⟩
  | 101 => ⟨S_, .f32⟩
  | 102 => ⟨S1600000, .f32⟩
  | 103 => ⟨S_, .f32⟩
  | 104 => ⟨S100000, .f32⟩
  | 105 => ⟨S1600000x1, .i32⟩
  | 106 => ⟨S100000, .f32⟩
  | 107 => ⟨S_, .f32⟩
  | 108 => ⟨S100000, .f32⟩
  | 109 => ⟨S100000, .f32⟩
  | 110 => ⟨S100000x1, .f32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S_, .f32⟩
  | 123 => ⟨S512x128, .f32⟩
  | 124 => ⟨S100000x1, .i32⟩
  | 125 => ⟨S512x128, .f32⟩
  | 126 => ⟨S_, .f32⟩
  | 127 => ⟨S512, .f32⟩
  | _ => ⟨S100000x64, .f32⟩

abbrev hbmTy0_1 (i : Nat) : BufTy := match i % 128 with
  | 0 => ⟨S512x1, .f32⟩
  | 1 => ⟨S_, .f32⟩
  | 2 => ⟨S512x1, .f32⟩
  | 3 => ⟨S512x1, .f32⟩
  | 4 => ⟨S512x128, .f32⟩
  | 5 => ⟨S512x128, .f32⟩
  | 6 => ⟨S512x128, .f32⟩
  | 7 => ⟨S_, .f32⟩
  | 8 => ⟨S512, .f32⟩
  | 9 => ⟨S512x1, .f32⟩
  | 10 => ⟨S_, .f32⟩
  | 11 => ⟨S512x1, .f32⟩
  | 12 => ⟨S512x1, .f32⟩
  | 13 => ⟨S512x128, .f32⟩
  | 14 => ⟨S512x128, .f32⟩
  | 15 => ⟨S_, .f32⟩
  | 16 => ⟨S512x1, .f32⟩
  | 17 => ⟨S512x1, .f32⟩
  | 18 => ⟨S512x1, .f32⟩
  | 19 => ⟨S512x128, .f32⟩
  | 20 => ⟨S512x128, .f32⟩
  | 21 => ⟨S1x128, .f32⟩
  | 22 => ⟨S512x128, .f32⟩
  | 23 => ⟨S512x128, .f32⟩
  | 24 => ⟨S1x128, .f32⟩
  | 25 => ⟨S512x128, .f32⟩
  | 26 => ⟨S512x128, .f32⟩
  | 27 => ⟨S512x2, .f32⟩
  | 28 => ⟨S1x2, .f32⟩
  | 29 => ⟨S512x2, .f32⟩
  | 30 => ⟨S512x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call0_cst : Ref sig .tc := ⟨.hbm, 51, rfl⟩
abbrev main_call0_v0 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call1_cst : Ref sig .tc := ⟨.hbm, 85, rfl⟩
abbrev main_call1_v0 : Ref sig .tc := ⟨.hbm, 86, rfl⟩
abbrev main_v55 : Ref sig .tc := ⟨.hbm, 87, rfl⟩
abbrev main_c_10 : Ref sig .tc := ⟨.hbm, 88, rfl⟩
abbrev main_v56 : Ref sig .tc := ⟨.hbm, 89, rfl⟩
abbrev main_v57 : Ref sig .tc := ⟨.hbm, 90, rfl⟩
abbrev main_c_11 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_cst_14 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_15 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_call2_cst : Ref sig .tc := ⟨.hbm, 119, rfl⟩
abbrev main_call2_v0 : Ref sig .tc := ⟨.hbm, 120, rfl⟩
abbrev main_v81 : Ref sig .tc := ⟨.hbm, 121, rfl⟩
abbrev main_cst_16 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_17 : Ref sig .tc := ⟨.hbm, 126, rfl⟩
abbrev main_v85 : Ref sig .tc := ⟨.hbm, 127, rfl⟩
abbrev main_v86 : Ref sig .tc := ⟨.hbm, 128, rfl⟩
abbrev main_cst_18 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_19 : Ref sig .tc := ⟨.hbm, 135, rfl⟩
abbrev main_v92 : Ref sig .tc := ⟨.hbm, 136, rfl⟩
abbrev main_v93 : Ref sig .tc := ⟨.hbm, 137, rfl⟩
abbrev main_cst_20 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_21 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S512x128 : S_.BroadcastsInDim S512x128 (![] : Fin 0 → Fin S512x128.rank)
  reducesTo_S512x128_S512_d1 : S512x128.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x128_S128x2_S512x2_1_0_0_1_n_n_wf : DotDims.WF S512x128 S128x2 S512x2 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.K.Reg0.lean ====
import proofs.«426697_j79577154060299_2_alg».proof.Proof.KernelLaunch
import proofs.«426697_j79577154060299_2_alg».proof.Proof.Gen.Kernel.Skeleton
import proofs.«426697_j79577154060299_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: one SAGE layer's dense step, `relu((s · inv) · Wl + x · Wr + bl)`, on a block of 4000 rows

The seven windows are, in order: the neighbour sums `s`, the features `x`, the weights `Wl`, the bias `bl`, the weights
`Wr`, the reciprocal neighbour counts `inv` (one column) and the result. Everything here is stated at a parameter `V`:
what the TensorCore's buffers hold when the region is entered. -/

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (a window fetched only at
    the first point keeps its block index, so the block it holds later is still that point's block). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (a window fetched only at
    the first point keeps its block index, so the block it holds later is still that point's block). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (a window fetched only at
    the first point keeps its block index, so the block it holds later is still that point's block). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not (a window fetched only at
    the first point keeps its block index, so the block it holds later is still that point's block). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not (a window fetched only at
    the first point keeps its block index, so the block it holds later is still that point's block). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not (a window fetched only at
    the first point keeps its block index, so the block it holds later is still that point's block). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

/-- The whole-block rectangles the body loads and stores through. -/
abbrev r0_in : Rect S4000x64 := Rect.unit (s := S4000x64) ![0, 0] S4000x64.size inb_S4000x64_S4000x64_0_0
abbrev r0_w : Rect S64x128 := Rect.unit (s := S64x128) ![0, 0] S64x128.size inb_S64x128_S64x128_0_0
abbrev r0_b : Rect S128 := Rect.unit (s := S128) ![0] S128.size inb_S128_S128_0
abbrev r0_inv : Rect S4000x1 := Rect.unit (s := S4000x1) ![0, 0] S4000x1.size inb_S4000x1_S4000x1_0_0
abbrev r0_out : Rect S4000x128 := Rect.unit (s := S4000x128) ![0, 0] S4000x128.size inb_S4000x128_S4000x128_0_0

/-- The result window's staging buffer after the body, from the six input blocks: the body's one store, of the
    payload `relu((s · inv) · Wl + x · Wr + bl)` of the blocks. -/
def out0_6 (x0 : Vec F S4000x64 .f32) (x1 : Vec F S4000x64 .f32) (x2 : Vec F S64x128 .f32) (x3 : Vec F S128 .f32) (x4 : Vec F S64x128 .f32) (x5 : Vec F S4000x1 .f32) : Vec F S4000x128 .f32 :=
  View.canon [⟨r0_out, k0_pay1 (View.ld x5 r0_inv) (View.ld x0 r0_in) (View.ld x1 r0_in) (View.ld x2 r0_w) (View.ld x4 r0_w) (View.ld x3 r0_b)⟩]

/-- The one store covers the buffer. -/
theorem cover0_6 (p0 : Vec F S4000x128 .f32) (y : S4000x128.Idx) :
    ∃ pc ∈ ([⟨r0_out, p0⟩] : List (View.Piece (Elt F) S4000x128 .f32)), y ∈ pc.1.set :=
  View.cover_of_tiled [⟨r0_out, p0⟩] S4000x128.size (by rfl) y

/-! ## The body's triple -/

set_option maxHeartbeats 1000000 in
/-- The kernel body on whole staging memrefs, the inputs' at read contents `xW` and the result's at anything, runs to the
    continuation holding the inputs' as they were and the result's at `out0_6` of the inputs'. -/
theorem sound_kernel0 (c : Dev nD) (E : Set ℕ) (i : grid0.Coords)
    (arg1 : Memref sig .tc .vmem S4000x64 .f32) (harg1 : arg1.IsWhole) (arg2 : Memref sig .tc .vmem S4000x64 .f32) (harg2 : arg2.IsWhole)
    (arg3 : Memref sig .tc .vmem S64x128 .f32) (harg3 : arg3.IsWhole) (arg4 : Memref sig .tc .vmem S128 .f32) (harg4 : arg4.IsWhole)
    (arg5 : Memref sig .tc .vmem S64x128 .f32) (harg5 : arg5.IsWhole) (arg6 : Memref sig .tc .vmem S4000x1 .f32) (harg6 : arg6.IsWhole)
    (arg7 : Memref sig .tc .vmem S4000x128 .f32) (harg7 : arg7.IsWhole)
    (x0 : Vec F S4000x64 .f32) (x1 : Vec F S4000x64 .f32) (x2 : Vec F S64x128 .f32) (x3 : Vec F S128 .f32) (x4 : Vec F S64x128 .f32) (x5 : Vec F S4000x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__combine_kernel i arg1 harg1 arg2 harg2 arg3 harg3 arg4 harg4 arg5 harg5 arg6 harg6 arg7 harg7) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The proof data -/

/-- The proof data of this region on core `c`: the arrays as the region finds them; after the body at point `t` each
    input's buffer still at its block and the result's at `out0_6` of the input blocks; between points only the
    buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Body

end
-- ==== Proof.K.Reg1.lean ====
import proofs.«426697_j79577154060299_2_alg».proof.Proof.KernelLaunch
import proofs.«426697_j79577154060299_2_alg».proof.Proof.Gen.Kernel.Skeleton
import proofs.«426697_j79577154060299_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: one SAGE layer's dense step, `relu((s · inv) · Wl + x · Wr + bl)`, on a block of 4000 rows

The seven windows are, in order: the neighbour sums `s`, the features `x`, the weights `Wl`, the bias `bl`, the weights
`Wr`, the reciprocal neighbour counts `inv` (one column) and the result. Everything here is stated at a parameter `V`:
what the TensorCore's buffers hold when the region is entered. -/

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (a window fetched only at
    the first point keeps its block index, so the block it holds later is still that point's block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (a window fetched only at
    the first point keeps its block index, so the block it holds later is still that point's block). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (a window fetched only at
    the first point keeps its block index, so the block it holds later is still that point's block). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (a window fetched only at
    the first point keeps its block index, so the block it holds later is still that point's block). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not (a window fetched only at
    the first point keeps its block index, so the block it holds later is still that point's block). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not (a window fetched only at
    the first point keeps its block index, so the block it holds later is still that point's block). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the body stores -/

/-- The whole-block rectangles the body loads and stores through. -/
abbrev r1_in : Rect S4000x128 := Rect.unit (s := S4000x128) ![0, 0] S4000x128.size inb_S4000x128_S4000x128_0_0
abbrev r1_w : Rect S128x128 := Rect.unit (s := S128x128) ![0, 0] S128x128.size inb_S128x128_S128x128_0_0
abbrev r1_b : Rect S128 := Rect.unit (s := S128) ![0] S128.size inb_S128_S128_0
abbrev r1_inv : Rect S4000x1 := Rect.unit (s := S4000x1) ![0, 0] S4000x1.size inb_S4000x1_S4000x1_0_0
abbrev r1_out : Rect S4000x128 := Rect.unit (s := S4000x128) ![0, 0] S4000x128.size inb_S4000x128_S4000x128_0_0

/-- The result window's staging buffer after the body, from the six input blocks: the body's one store, of the
    payload `relu((s · inv) · Wl + x · Wr + bl)` of the blocks. -/
def out1_6 (x0 : Vec F S4000x128 .f32) (x1 : Vec F S4000x128 .f32) (x2 : Vec F S128x128 .f32) (x3 : Vec F S128 .f32) (x4 : Vec F S128x128 .f32) (x5 : Vec F S4000x1 .f32) : Vec F S4000x128 .f32 :=
  View.canon [⟨r1_out, k1_pay1 (View.ld x5 r1_inv) (View.ld x0 r1_in) (View.ld x1 r1_in) (View.ld x2 r1_w) (View.ld x4 r1_w) (View.ld x3 r1_b)⟩]

/-- The one store covers the buffer. -/
theorem cover1_6 (p0 : Vec F S4000x128 .f32) (y : S4000x128.Idx) :
    ∃ pc ∈ ([⟨r1_out, p0⟩] : List (View.Piece (Elt F) S4000x128 .f32)), y ∈ pc.1.set :=
  View.cover_of_tiled [⟨r1_out, p0⟩] S4000x128.size (by rfl) y

/-! ## The body's triple -/

set_option maxHeartbeats 1000000 in
/-- The kernel body on whole staging memrefs, the inputs' at read contents `xW` and the result's at anything, runs to the
    continuation holding the inputs' as they were and the result's at `out1_6` of the inputs'. -/
theorem sound_kernel1 (c : Dev nD) (E : Set ℕ) (i : grid1.Coords)
    (arg1 : Memref sig .tc .vmem S4000x128 .f32) (harg1 : arg1.IsWhole) (arg2 : Memref sig .tc .vmem S4000x128 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S128x128 .f32) (harg5 : arg5.IsWhole) (arg6 : Memref sig .tc .vmem S4000x1 .f32) (harg6 : arg6.IsWhole)
    (arg7 : Memref sig .tc .vmem S4000x128 .f32) (harg7 : arg7.IsWhole)
    (x0 : Vec F S4000x128 .f32) (x1 : Vec F S4000x128 .f32) (x2 : Vec F S128x128 .f32) (x3 : Vec F S128 .f32) (x4 : Vec F S128x128 .f32) (x5 : Vec F S4000x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__combine_kernel i arg1 harg1 arg2 harg2 arg3 harg3 arg4 harg4 arg5 harg5 arg6 harg6 arg7 harg7) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The proof data -/

/-- The proof data of this region on core `c`: the arrays as the region finds them; after the body at point `t` each
    input's buffer still at its block and the result's at `out1_6` of the input blocks; between points only the
    buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Body

end
-- ==== Proof.K.Reg2.lean ====
import proofs.«426697_j79577154060299_2_alg».proof.Proof.KernelLaunch
import proofs.«426697_j79577154060299_2_alg».proof.Proof.Gen.Kernel.Skeleton
import proofs.«426697_j79577154060299_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: one SAGE layer's dense step, `relu((s · inv) · Wl + x · Wr + bl)`, on a block of 4000 rows

The seven windows are, in order: the neighbour sums `s`, the features `x`, the weights `Wl`, the bias `bl`, the weights
`Wr`, the reciprocal neighbour counts `inv` (one column) and the result. Everything here is stated at a parameter `V`:
what the TensorCore's buffers hold when the region is entered. -/

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (a window fetched only at
    the first point keeps its block index, so the block it holds later is still that point's block). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (a window fetched only at
    the first point keeps its block index, so the block it holds later is still that point's block). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (a window fetched only at
    the first point keeps its block index, so the block it holds later is still that point's block). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (a window fetched only at
    the first point keeps its block index, so the block it holds later is still that point's block). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not (a window fetched only at
    the first point keeps its block index, so the block it holds later is still that point's block). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, fetched there or not (a window fetched only at
    the first point keeps its block index, so the block it holds later is still that point's block). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the body stores -/

/-- The whole-block rectangles the body loads and stores through. -/
abbrev r2_in : Rect S4000x128 := Rect.unit (s := S4000x128) ![0, 0] S4000x128.size inb_S4000x128_S4000x128_0_0
abbrev r2_w : Rect S128x128 := Rect.unit (s := S128x128) ![0, 0] S128x128.size inb_S128x128_S128x128_0_0
abbrev r2_b : Rect S128 := Rect.unit (s := S128) ![0] S128.size inb_S128_S128_0
abbrev r2_inv : Rect S4000x1 := Rect.unit (s := S4000x1) ![0, 0] S4000x1.size inb_S4000x1_S4000x1_0_0
abbrev r2_out : Rect S4000x128 := Rect.unit (s := S4000x128) ![0, 0] S4000x128.size inb_S4000x128_S4000x128_0_0

/-- The result window's staging buffer after the body, from the six input blocks: the body's one store, of the
    payload `relu((s · inv) · Wl + x · Wr + bl)` of the blocks. -/
def out2_6 (x0 : Vec F S4000x128 .f32) (x1 : Vec F S4000x128 .f32) (x2 : Vec F S128x128 .f32) (x3 : Vec F S128 .f32) (x4 : Vec F S128x128 .f32) (x5 : Vec F S4000x1 .f32) : Vec F S4000x128 .f32 :=
  View.canon [⟨r2_out, k2_pay1 (View.ld x5 r2_inv) (View.ld x0 r2_in) (View.ld x1 r2_in) (View.ld x2 r2_w) (View.ld x4 r2_w) (View.ld x3 r2_b)⟩]

/-- The one store covers the buffer. -/
theorem cover2_6 (p0 : Vec F S4000x128 .f32) (y : S4000x128.Idx) :
    ∃ pc ∈ ([⟨r2_out, p0⟩] : List (View.Piece (Elt F) S4000x128 .f32)), y ∈ pc.1.set :=
  View.cover_of_tiled [⟨r2_out, p0⟩] S4000x128.size (by rfl) y

/-! ## The body's triple -/

set_option maxHeartbeats 1000000 in
/-- The kernel body on whole staging memrefs, the inputs' at read contents `xW` and the result's at anything, runs to the
    continuation holding the inputs' as they were and the result's at `out2_6` of the inputs'. -/
theorem sound_kernel2 (c : Dev nD) (E : Set ℕ) (i : grid2.Coords)
    (arg1 : Memref sig .tc .vmem S4000x128 .f32) (harg1 : arg1.IsWhole) (arg2 : Memref sig .tc .vmem S4000x128 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S128x128 .f32) (harg5 : arg5.IsWhole) (arg6 : Memref sig .tc .vmem S4000x1 .f32) (harg6 : arg6.IsWhole)
    (arg7 : Memref sig .tc .vmem S4000x128 .f32) (harg7 : arg7.IsWhole)
    (x0 : Vec F S4000x128 .f32) (x1 : Vec F S4000x128 .f32) (x2 : Vec F S128x128 .f32) (x3 : Vec F S128 .f32) (x4 : Vec F S128x128 .f32) (x5 : Vec F S4000x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__combine_kernel i arg1 harg1 arg2 harg2 arg3 harg3 arg4 harg4 arg5 harg5 arg6 harg6 arg7 harg7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The proof data -/

/-- The proof data of this region on core `c`: the arrays as the region finds them; after the body at point `t` each
    input's buffer still at its block and the result's at `out2_6` of the input blocks; between points only the
    buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Body

end
-- ==== Proof.K.Reg3.lean ====
import proofs.«426697_j79577154060299_2_alg».proof.Proof.KernelLaunch
import proofs.«426697_j79577154060299_2_alg».proof.Proof.Gen.Kernel.Skeleton
import proofs.«426697_j79577154060299_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: pooling by graph, then layer normalisation and the last linear map

The seven windows are, in order: the node features `h` (a block of 4000 rows), the nodes' graph numbers `batch` (one
column), the weights `Wd`, the bias `bd`, the scale `ln_g`, the shift `ln_b`, and the result (512 × 2, one block,
written back after the last point). The scratch holds the pooled sums (512 × 128) from one grid point to the next: it is
zeroed at the first point, every point adds its block's contribution, and the last point reads it to form the result.
Everything here is stated at a parameter `V`: what the TensorCore's buffers hold when the region is entered. -/

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The pooled sums the scratch holds after the first `n` grid points: zero, then per point the payload that adds the
    point's block contribution to what the scratch held. -/
def acc3 (c : Dev nD) : ℕ → Vec F S512x128 .f32
  | 0 => k3_pay1
  | n + 1 => if h : n < cfg3.N then k3_pay2 (iblk3 V c 0 ⟨n, h⟩) (iblk3 V c 1 ⟨n, h⟩) (acc3 c n) else acc3 c n

theorem acc3_zero (c : Dev nD) : acc3 V c 0 = k3_pay1 := by rw [acc3]

theorem acc3_succ (c : Dev nD) (t : Fin cfg3.N) :
    acc3 V c (t.val + 1) = k3_pay2 (iblk3 V c 0 t) (iblk3 V c 1 t) (acc3 V c t.val) := by
  rw [acc3]; exact dif_pos t.isLt

/-- The result window's staging buffer after the body at the last point: the payload (layer normalisation of the pooled
    sums `g`, then the linear map) stored whole. -/
def out3_6 (g : Vec F S512x128 .f32) (x2 : Vec F S128x2 .f32) (x3 : Vec F S2 .f32) (x4 : Vec F S128 .f32) (x5 : Vec F S128 .f32) : Vec F S512x2 .f32 :=
  k3_pay3 g x4 x5 x2 x3

/-- The invariant between grid points: the scratch at the pooled sums so far (at anything before the first point), the
    other buffers no window stages, and the generator register. -/
def Φ3 (c : Dev nD) (t : Fin (cfg3.N + 1)) : sProp 𝕄 :=
  iprop((∃ f : Buf (Elt F) ((c : Thread nD τ).loc cc3_scratch0),
        ⌜t.val ≠ 0 → (Memref.whole cc3_scratch0 : Memref sig .tc .vmem S512x128 .f32).view.read (Elt F) f = acc3 V c t.val⌝
        ∗ ((c : Thread nD τ).loc cc3_scratch0) ↦{fullShare} f)
    ∗ Pipeline.scopedRestBut (Ix := Unit) (Name := ℕ) (U := UR sig nD τ) (Lvl := ℕ) (Val := Elt F) spec3 c [cc3_scratch0]
    ∗ ∃ r, prngReg c r)

/-- The proof data of this region on core `c`. The result window's `after` is consulted at the last point only (the
    window is idle elsewhere and keeps what it held). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (acc3 V c cfg3.N) (iblk3 V c 2 t) (iblk3 V c 3 t) (iblk3 V c 4 t) (iblk3 V c 5 t)
  Φ := Φ3 V c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t
    = out3_6 (acc3 V c cfg3.N) (iblk3 V c 2 t) (iblk3 V c 3 t) (iblk3 V c 4 t) (iblk3 V c 5 t) := by dsimp only [dat3]

/-! ## The body's runs, by the point

The body branches twice on the grid coordinate: at the first point it zeroes the scratch before adding to it; at the
last point, after adding, it reads the scratch back and stores the result. So there are three runs: the first point,
a point strictly between, the last point. Every load and store goes through the whole-buffer rectangle of its memref. -/

/-- The condition of the first conditional, from the grid coordinate: whether the coordinate is zero. -/
abbrev cond3_1 (i : grid3.Coords) : Prop := (Scalar.cmpi .ne (Scalar.extui (Scalar.cmpi .eq (BitVec.ofNat 32 (i 0).val) 0#32)) 0#32) = 1#1

/-- The whole-buffer rectangles' offsets are zero. -/
theorem off3_2 : (![0, 0] : Fin 2 → ℕ) = fun _ => 0 := funext fun a => by fin_cases a <;> rfl
theorem off3_1 : (![0] : Fin 1 → ℕ) = fun _ => 0 := funext fun a => by fin_cases a <;> rfl

/-- A list of stores whose last goes through the whole-buffer rectangle covers the scratch. -/
theorem cover3_s (w : Vec F S512x128 .f32) (L : List (View.Piece (Elt F) S512x128 .f32)) (y : S512x128.Idx) :
    ∃ pc ∈ ((⟨Rect.unit ![0, 0] S512x128.size inb_S512x128_S512x128_0_0, w⟩ : View.Piece (Elt F) S512x128 .f32) :: L), y ∈ pc.1.set :=
  ⟨_, List.mem_cons_self, View.mem_set_unit_zero off3_2 inb_S512x128_S512x128_0_0 y⟩

/-- The one store through the whole-buffer rectangle covers the result's buffer. -/
theorem cover3_o (w : Vec F S512x2 .f32) (y : S512x2.Idx) :
    ∃ pc ∈ ([⟨Rect.unit ![0, 0] S512x2.size inb_S512x2_S512x2_0_0, w⟩] : List (View.Piece (Elt F) S512x2 .f32)), y ∈ pc.1.set :=
  ⟨_, List.mem_cons_self, View.mem_set_unit_zero off3_2 inb_S512x2_S512x2_0_0 y⟩

set_option maxHeartbeats 1000000 in
/-- At the first point: the scratch found at anything is zeroed, then the block's contribution added; the result's
    buffer is not touched. -/
theorem sound_kernel3_first (c : Dev nD) (E : Set ℕ) (i : grid3.Coords)
    (arg1 : Memref sig .tc .vmem S4000x128 .f32) (harg1 : arg1.IsWhole) (arg2 : Memref sig .tc .vmem S4000x1 .i32) (harg2 : arg2.IsWhole)
    (arg3 : Memref sig .tc .vmem S128x2 .f32) (harg3 : arg3.IsWhole) (arg4 : Memref sig .tc .vmem S2 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S512x2 .f32) (harg7 : arg7.IsWhole) (arg8 : Memref sig .tc .vmem S512x128 .f32) (harg8 : arg8.IsWhole)
    (hc1 : cond3_1 i) (hc2 : ¬ k3_cond2 i = 1#1)
    (x0 : Vec F S4000x128 .f32) (x1 : Vec F S4000x1 .i32) (x2 : Vec F S128x2 .f32) (x3 : Vec F S2 .f32) (x4 : Vec F S128 .f32) (x5 : Vec F S128 .f32)
    (y : Vec F S512x2 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare y ∗ (∃ g, owns (c : Thread nD τ) arg8 fullShare g)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare y ∗ owns (c : Thread nD τ) arg8 fullShare (k3_pay2 x0 x1 k3_pay1)) -∗ K ⟨⟩))
      ⊢ wp frame (wpE (defs₀ (F := F)) Variants.none c none) E (cc3__decode_kernel i arg1 harg1 arg2 harg2 arg3 harg3 arg4 harg4 arg5 harg5 arg6 harg6 arg7 harg7 arg8 harg8) K := by
  simp only [cc3__decode_kernel_eq_skeleton]; unfold cc3__decode_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g, %f7, -, H7⟩, Hk⟩
  subst hf0 hf1 hf2 hf3 hf4 hf5 hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  unfold sound_kernel3_first.sl.v16 sound_kernel3_first.sl.H7_1
  rw [View.read_writes_eq_canon _ _ _ (cover3_s _ _), View.canon_cons_unit_zero off3_2, View.readCov_unit_zero _ off3_2]
  simp only [View.readAt_eq_ld, View.ld_unit_zero (S := S4000x128) off3_2, View.ld_unit_zero (S := S4000x1) off3_2]

set_option maxHeartbeats 1000000 in
/-- At a point strictly between the first and the last: the block's contribution is added to the scratch; the result's
    buffer is not touched. -/
theorem sound_kernel3_mid (c : Dev nD) (E : Set ℕ) (i : grid3.Coords)
    (arg1 : Memref sig .tc .vmem S4000x128 .f32) (harg1 : arg1.IsWhole) (arg2 : Memref sig .tc .vmem S4000x1 .i32) (harg2 : arg2.IsWhole)
    (arg3 : Memref sig .tc .vmem S128x2 .f32) (harg3 : arg3.IsWhole) (arg4 : Memref sig .tc .vmem S2 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S512x2 .f32) (harg7 : arg7.IsWhole) (arg8 : Memref sig .tc .vmem S512x128 .f32) (harg8 : arg8.IsWhole)
    (hc1 : ¬ cond3_1 i) (hc2 : ¬ k3_cond2 i = 1#1)
    (x0 : Vec F S4000x128 .f32) (x1 : Vec F S4000x1 .i32) (x2 : Vec F S128x2 .f32) (x3 : Vec F S2 .f32) (x4 : Vec F S128 .f32) (x5 : Vec F S128 .f32)
    (y : Vec F S512x2 .f32) (g : Vec F S512x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare y ∗ owns (c : Thread nD τ) arg8 fullShare g
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare y ∗ owns (c : Thread nD τ) arg8 fullShare (k3_pay2 x0 x1 g)) -∗ K ⟨⟩))
      ⊢ wp frame (wpE (defs₀ (F := F)) Variants.none c none) E (cc3__decode_kernel i arg1 harg1 arg2 harg2 arg3 harg3 arg4 harg4 arg5 harg5 arg6 harg6 arg7 harg7 arg8 harg8) K := by
  simp only [cc3__decode_kernel_eq_skeleton]; unfold cc3__decode_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover3_s _ _), View.canon_unit_zero off3_2]
  simp only [View.readAt_eq_ld, View.ld_unit_zero (S := S4000x128) off3_2, View.ld_unit_zero (S := S4000x1) off3_2,
    View.ld_unit_zero (S := S512x128) off3_2]

set_option maxHeartbeats 1000000 in
/-- At the last point: the block's contribution is added to the scratch, which is then read back, normalised and mapped
    into the result's buffer, found at anything. -/
theorem sound_kernel3_last (c : Dev nD) (E : Set ℕ) (i : grid3.Coords)
    (arg1 : Memref sig .tc .vmem S4000x128 .f32) (harg1 : arg1.IsWhole) (arg2 : Memref sig .tc .vmem S4000x1 .i32) (harg2 : arg2.IsWhole)
    (arg3 : Memref sig .tc .vmem S128x2 .f32) (harg3 : arg3.IsWhole) (arg4 : Memref sig .tc .vmem S2 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S512x2 .f32) (harg7 : arg7.IsWhole) (arg8 : Memref sig .tc .vmem S512x128 .f32) (harg8 : arg8.IsWhole)
    (hc1 : ¬ cond3_1 i) (hc2 : k3_cond2 i = 1#1)
    (x0 : Vec F S4000x128 .f32) (x1 : Vec F S4000x1 .i32) (x2 : Vec F S128x2 .f32) (x3 : Vec F S2 .f32) (x4 : Vec F S128 .f32) (x5 : Vec F S128 .f32)
    (g : Vec F S512x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ y, owns (c : Thread nD τ) arg7 fullShare y) ∗ owns (c : Thread nD τ) arg8 fullShare g
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k3_pay3 (k3_pay2 x0 x1 g) x4 x5 x2 x3) ∗ owns (c : Thread nD τ) arg8 fullShare (k3_pay2 x0 x1 g)) -∗ K ⟨⟩))
      ⊢ wp frame (wpE (defs₀ (F := F)) Variants.none c none) E (cc3__decode_kernel i arg1 harg1 arg2 harg2 arg3 harg3 arg4 harg4 arg5 harg5 arg6 harg6 arg7 harg7 arg8 harg8) K := by
  simp only [cc3__decode_kernel_eq_skeleton]; unfold cc3__decode_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%y, %f6, -, H6⟩, ⟨%f7, %hf7, H7⟩, Hk⟩
  subst hf0 hf1 hf2 hf3 hf4 hf5 hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    unfold sound_kernel3_last.sl.v24 sound_kernel3_last.sl.H7_1
    rw [View.read_writes_eq_canon _ _ _ (cover3_o _), View.canon_unit_zero off3_2, View.readCov_unit_zero _ off3_2]
    simp only [View.readAt_eq_ld, View.ld_unit_zero (S := S4000x128) off3_2, View.ld_unit_zero (S := S4000x1) off3_2,
      View.ld_unit_zero (S := S512x128) off3_2, View.ld_unit_zero (S := S128x2) off3_2, View.ld_unit_zero (S := S128) off3_1,
      View.ld_unit_zero (S := S2) off3_1]
  iexists _; isplitr
  swap; · iexact H7
  ipureintro
  unfold sound_kernel3_last.sl.H7_1
  rw [View.read_writes_eq_canon _ _ _ (cover3_s _ _), View.canon_unit_zero off3_2]
  simp only [View.readAt_eq_ld, View.ld_unit_zero (S := S4000x128) off3_2, View.ld_unit_zero (S := S4000x1) off3_2,
    View.ld_unit_zero (S := S512x128) off3_2]

/-! ## What the input windows hold when the body runs -/

/-- An input window's staging buffer holds its block at every point, fetched there or not (a window fetched only at the
    first point keeps its block index, so the block it holds later is still that point's block). -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)

/-! ## The conditions over the grid -/

/-- The first conditional is taken at the first point only, the second at the last only; the result's window is idle
    everywhere but at the last point — each decided over the grid. -/
theorem hcond3_1 : ∀ t : Fin cfg3.N, cond3_1 (grid3.coords t) ↔ t.val = 0 :=
  (by decide +kernel : ∀ t : Fin grid3.N, cond3_1 (grid3.coords t) ↔ t.val = 0)
theorem hcond3_2 : ∀ t : Fin cfg3.N, k3_cond2 (grid3.coords t) = 1#1 ↔ t.val = 24 :=
  (by decide +kernel : ∀ t : Fin grid3.N, k3_cond2 (grid3.coords t) = 1#1 ↔ t.val = 24)
theorem hidle3_6 : ∀ t : Fin cfg3.N, cfg3.idle (6 : Fin 7) (cfg3.grid.coords t) = true ↔ t.val ≠ 24 :=
  (by decide +kernel : ∀ t : Fin grid3.N, idle3 (6 : Fin 7) (grid3.coords t) = true ↔ t.val ≠ 24)

theorem val_lt3 (t : Fin cfg3.N) : t.val < 25 := Nat.lt_of_lt_of_eq t.isLt N_3

/-! ## The scratch, as the invariant holds it and as the body names it -/

/-- Owning the scratch's whole memref at read contents `g` is holding the scratch buffer at contents that read `g`. -/
theorem owns_scr3_eq (c : Dev nD) (g : Vec F S512x128 .f32) :
    (owns (c : Thread nD τ) (Memref.whole cc3_scratch0 : Memref sig .tc .vmem S512x128 .f32) fullShare g : sProp 𝕄)
      = iprop(∃ f : Buf (Elt F) ((c : Thread nD τ).loc cc3_scratch0),
          ⌜(Memref.whole cc3_scratch0 : Memref sig .tc .vmem S512x128 .f32).view.read (Elt F) f = g⌝
          ∗ ((c : Thread nD τ).loc cc3_scratch0) ↦{fullShare} f) := by
  unfold owns
  simp only [Memref.view_whole, View.set_whole]

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- what it returns at a point other than the last (the result's buffer as it was handed), -/
def bodyPostIdle3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ (∃ d, owns (c : Thread nD τ) (st3_6 t) fullShare ((dat3 V c).before 6 t d)))

/-- and what it returns at the last point. -/
def bodyPostLast3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at the first point: the scratch, found at anything, leaves at the first block's contribution over zero. -/
theorem sound_body3_first (c : Dev nD) (t : Fin cfg3.N) (h0 : t.val = 0) :
    bodyPre3 V c t ⊢ wp frame (wpE (defs₀ (F := F)) Variants.none c none) Set.univ (bodyAt3 t) (fun _ => bodyPostIdle3 V c t) := by
  have hc1 : cond3_1 (grid3.coords t) := (hcond3_1 t).2 h0
  have hc2 : ¬ k3_cond2 (grid3.coords t) = 1#1 := fun h => by have := (hcond3_2 t).1 h; omega
  unfold bodyPre3 bodyPostIdle3
  unfold bodyAt3
  simp only [before3_0, before3_1, before3_2, before3_3, before3_4, before3_5]
  rw [show (dat3 V c).owesAt () t.succ = (dat3 V c).owesAt () t.castSucc from rfl,
    after3_0, after3_1, after3_2, after3_3, after3_4, after3_5,
    show (dat3 V c).Φ t.castSucc = Φ3 V c t.castSucc from rfl, show (dat3 V c).Φ t.succ = Φ3 V c t.succ from rfl]
  unfold Φ3
  iintro ⟨⟨⟨%f, -, HS⟩, HB, HR⟩, Ho, ⟨%d0, H0⟩, ⟨%d1, H1⟩, ⟨%d2, H2⟩, ⟨%d3, H3⟩, ⟨%d4, H4⟩, ⟨%d5, H5⟩, ⟨%d6, H6⟩⟩
  iapply (sound_kernel3_first c Set.univ _ _ _ _ _ _ _ _ _ _ _ _ _ _ _ _ _ hc1 hc2 (iblk3 V c 0 t) (iblk3 V c 1 t) (iblk3 V c 2 t) (iblk3 V c 3 t) (iblk3 V c 4 t) (iblk3 V c 5 t) ((dat3 V c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]
  · iexists _; rw [owns_scr3_eq]; iexists f; isplitr; · ipureintro; rfl
    iexact HS
  rw [owns_scr3_eq]
  iintro ⟨H0, H1, H2, H3, H4, H5, H6, ⟨%f', %hf', HS⟩⟩
  isplitl [HS HB HR]
  · isplitl [HS]
    · iexists f'; isplitr
      · ipureintro; intro _
        rw [hf', Fin.val_succ, acc3_succ, h0, acc3_zero]
      iexact HS
    isplitl [HB]; · iexact HB
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

/-- The body at a point strictly between: the scratch goes from the pooled sums so far to those with this block's. -/
theorem sound_body3_mid (c : Dev nD) (t : Fin cfg3.N) (h0 : t.val ≠ 0) (h24 : t.val ≠ 24) :
    bodyPre3 V c t ⊢ wp frame (wpE (defs₀ (F := F)) Variants.none c none) Set.univ (bodyAt3 t) (fun _ => bodyPostIdle3 V c t) := by
  have hc1 : ¬ cond3_1 (grid3.coords t) := fun h => h0 ((hcond3_1 t).1 h)
  have hc2 : ¬ k3_cond2 (grid3.coords t) = 1#1 := fun h => h24 ((hcond3_2 t).1 h)
  unfold bodyPre3 bodyPostIdle3
  unfold bodyAt3
  simp only [before3_0, before3_1, before3_2, before3_3, before3_4, before3_5]
  rw [show (dat3 V c).owesAt () t.succ = (dat3 V c).owesAt () t.castSucc from rfl,
    after3_0, after3_1, after3_2, after3_3, after3_4, after3_5,
    show (dat3 V c).Φ t.castSucc = Φ3 V c t.castSucc from rfl, show (dat3 V c).Φ t.succ = Φ3 V c t.succ from rfl]
  unfold Φ3
  iintro ⟨⟨⟨%f, %hf, HS⟩, HB, HR⟩, Ho, ⟨%d0, H0⟩, ⟨%d1, H1⟩, ⟨%d2, H2⟩, ⟨%d3, H3⟩, ⟨%d4, H4⟩, ⟨%d5, H5⟩, ⟨%d6, H6⟩⟩
  iapply (sound_kernel3_mid c Set.univ _ _ _ _ _ _ _ _ _ _ _ _ _ _ _ _ _ hc1 hc2 (iblk3 V c 0 t) (iblk3 V c 1 t) (iblk3 V c 2 t) (iblk3 V c 3 t) (iblk3 V c 4 t) (iblk3 V c 5 t) ((dat3 V c).before 6 t d6) (acc3 V c t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]
  · rw [owns_scr3_eq]; iexists f; isplitr; · ipureintro; exact hf h0
    iexact HS
  rw [owns_scr3_eq]
  iintro ⟨H0, H1, H2, H3, H4, H5, H6, ⟨%f', %hf', HS⟩⟩
  isplitl [HS HB HR]
  · isplitl [HS]
    · iexists f'; isplitr
      · ipureintro; intro _
        rw [hf', Fin.val_succ, acc3_succ]
      iexact HS
    isplitl [HB]; · iexact HB
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

/-- The body at the last point: the scratch reaches the pooled sums of every block, and the result's buffer, found at
    anything, leaves at their normalisation mapped through the weights. -/
theorem sound_body3_last (c : Dev nD) (t : Fin cfg3.N) (h24 : t.val = 24) :
    bodyPre3 V c t ⊢ wp frame (wpE (defs₀ (F := F)) Variants.none c none) Set.univ (bodyAt3 t) (fun _ => bodyPostLast3 V c t) := by
  have h0 : t.val ≠ 0 := by omega
  have hc1 : ¬ cond3_1 (grid3.coords t) := fun h => h0 ((hcond3_1 t).1 h)
  have hc2 : k3_cond2 (grid3.coords t) = 1#1 := (hcond3_2 t).2 h24
  have hall : acc3 V c cfg3.N = k3_pay2 (iblk3 V c 0 t) (iblk3 V c 1 t) (acc3 V c t.val) := by
    have e : ∀ n, n = t.val + 1 → acc3 V c n = k3_pay2 (iblk3 V c 0 t) (iblk3 V c 1 t) (acc3 V c t.val) := by
      rintro _ rfl; exact acc3_succ V c t
    exact e _ (N_3.trans (by rw [h24]))
  unfold bodyPre3 bodyPostLast3
  unfold bodyAt3
  simp only [before3_0, before3_1, before3_2, before3_3, before3_4, before3_5]
  rw [show (dat3 V c).owesAt () t.succ = (dat3 V c).owesAt () t.castSucc from rfl,
    after3_0, after3_1, after3_2, after3_3, after3_4, after3_5,
    show (dat3 V c).Φ t.castSucc = Φ3 V c t.castSucc from rfl, show (dat3 V c).Φ t.succ = Φ3 V c t.succ from rfl]
  unfold Φ3
  rw [after3_6]; unfold out3_6; rw [hall]
  iintro ⟨⟨⟨%f, %hf, HS⟩, HB, HR⟩, Ho, ⟨%d0, H0⟩, ⟨%d1, H1⟩, ⟨%d2, H2⟩, ⟨%d3, H3⟩, ⟨%d4, H4⟩, ⟨%d5, H5⟩, ⟨%d6, H6⟩⟩
  iapply (sound_kernel3_last c Set.univ _ _ _ _ _ _ _ _ _ _ _ _ _ _ _ _ _ hc1 hc2 (iblk3 V c 0 t) (iblk3 V c 1 t) (iblk3 V c 2 t) (iblk3 V c 3 t) (iblk3 V c 4 t) (iblk3 V c 5 t) (acc3 V c t.val) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]
  · rw [owns_scr3_eq]; iexists f; isplitr; · ipureintro; exact hf h0
    iexact HS
  rw [owns_scr3_eq]
  iintro ⟨H0, H1, H2, H3, H4, H5, H6, ⟨%f', %hf', HS⟩⟩
  isplitl [HS HB HR]
  · isplitl [HS]
    · iexists f'; isplitr
      · ipureintro; intro _
        rw [hf', Fin.val_succ, acc3_succ]
      iexact HS
    isplitl [HB]; · iexact HB
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The invariant at the first point, from the generator register and the buffers no window stages. -/
theorem Φ3_in (c : Dev nD) :
    iprop((∃ r, prngReg c r) ∗ Pipeline.scopedRest (Ix := Unit) (Name := ℕ) (U := UR sig nD τ) (Lvl := ℕ) (Val := Elt F) spec3 c)
      ⊢ (Φ3 V c 0 : sProp 𝕄) := by
  unfold Φ3
  rw [scopedRest3_split]
  iintro ⟨HR, ⟨%f, HS⟩, HB⟩
  isplitl [HS]
  · iexists f; isplitr
    · ipureintro; intro h; exact absurd rfl h
    iexact HS
  isplitl [HB]; · iexact HB
  iexact HR

/-- The invariant after the last point gives them back. -/
theorem Φ3_out (c : Dev nD) :
    (Φ3 V c (Fin.last cfg3.N) : sProp 𝕄)
      ⊢ iprop((∃ r, prngReg c r) ∗ Pipeline.scopedRest (Ix := Unit) (Name := ℕ) (U := UR sig nD τ) (Lvl := ℕ) (Val := Elt F) spec3 c) := by
  unfold Φ3
  rw [scopedRest3_split]
  iintro ⟨⟨%f, -, HS⟩, HB, HR⟩
  isplitl [HR]; · iexact HR
  isplitl [HS]; · iexists f; iexact HS
  iexact HB

/-- The body obligation, at every point. -/
theorem body_obligation3 (c : Dev nD) : BodyObligation (dat3 (F := F) V c) (defs₀ (F := F)) Variants.none () Set.univ := fun t => by
  rw [bigSep_W3, bigSep_W3]
  by_cases h24 : t.val = 24
  · have hi : cfg3.idle (6 : Fin 7) (cfg3.grid.coords t) = false := by
      cases h : cfg3.idle (6 : Fin 7) (cfg3.grid.coords t) with
      | false => rfl
      | true => exact absurd h24 ((hidle3_6 t).1 h)
    rw [hi]
    exact sound_body3_last V c t h24
  · have hi : cfg3.idle (6 : Fin 7) (cfg3.grid.coords t) = true := (hidle3_6 t).2 h24
    have hf : (cfg3.win (6 : Fin 7)).flush t = false := by
      cases h : (cfg3.win (6 : Fin 7)).flush t with
      | false => rfl
      | true => exact absurd ((flush3_6 t).1 h) (by have := val_lt3 t; omega)
    rw [hi, hf]
    by_cases h0 : t.val = 0
    · exact sound_body3_first V c t h0
    · exact sound_body3_mid V c t h0 h24

end Cert.Kernel.Body

end
-- ==== Proof.K.Run.lean ====
import proofs.«426697_j79577154060299_2_alg».proof.Proof.KernelRegions
import proofs.«426697_j79577154060299_2_alg».proof.Proof.K.Reg0
import proofs.«426697_j79577154060299_2_alg».proof.Proof.K.Reg1
import proofs.«426697_j79577154060299_2_alg».proof.Proof.K.Reg2
import proofs.«426697_j79577154060299_2_alg».proof.Proof.K.Reg3
import Idealize.ShloMosaic.Lib.Pipeline.RegionsLoop
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: four kernel regions among four stretches of host operations

From the launch memory `m` the TensorCore's unscoped buffers pass through nine valuations `X0 … X8`: a host stretch
takes `X` to `StableHlo.after` of its operations at `X`; a kernel region changes exactly one buffer, its result window's
array, which it leaves at the fold of its write-backs over the grid (`o2`, `o4`, `o6`, `o8`), every other buffer as
entered. No item writes an argument of @main, so the sixteen arguments end as launched, and `main_v0` ends at `o8`. -/

variable (m : (ℓ : Loc nD τ sig) → Buf (Elt F) ℓ)

/-! ## The buffers' contents between items -/

/-- Core `c`'s unscoped buffers at launch. -/
abbrev X0 (c : Dev nD) : Valuation τ sig (Elt F) := fun b => m (c, b)
/-- After the first host stretch: what region 0 is entered from. -/
abbrev X1 (c : Dev nD) : Valuation τ sig (Elt F) := StableHlo.after hostOps0 (X0 m c)
/-- What region 0 leaves in its result array `main_call0_v23`: the write-backs of its 25 grid points folded. -/
def o2 (c : Dev nD) : Buf (Elt F) ((c : Thread nD τ).loc main_call0_v23) := (dat0 (fun c b => X1 m c b) c).arrAt 6 cfg0.N
/-- After region 0: only its result array has changed. -/
abbrev X2 (c : Dev nD) : Valuation τ sig (Elt F) := Function.update (X1 m c) main_call0_v23 (o2 m c)
/-- After the second host stretch: what region 1 is entered from. -/
abbrev X3 (c : Dev nD) : Valuation τ sig (Elt F) := StableHlo.after hostOps1 (X2 m c)
/-- What region 1 leaves in its result array `main_call0_v34`. -/
def o4 (c : Dev nD) : Buf (Elt F) ((c : Thread nD τ).loc main_call0_v34) := (dat1 (fun c b => X3 m c b) c).arrAt 6 cfg1.N
/-- After region 1: only its result array has changed. -/
abbrev X4 (c : Dev nD) : Valuation τ sig (Elt F) := Function.update (X3 m c) main_call0_v34 (o4 m c)
/-- After the third host stretch: what region 2 is entered from. -/
abbrev X5 (c : Dev nD) : Valuation τ sig (Elt F) := StableHlo.after hostOps2 (X4 m c)
/-- What region 2 leaves in its result array `main_call0_v45`. -/
def o6 (c : Dev nD) : Buf (Elt F) ((c : Thread nD τ).loc main_call0_v45) := (dat2 (fun c b => X5 m c b) c).arrAt 6 cfg2.N
/-- After region 2: only its result array has changed. -/
abbrev X6 (c : Dev nD) : Valuation τ sig (Elt F) := Function.update (X5 m c) main_call0_v45 (o6 m c)
/-- After the fourth host stretch: what region 3 is entered from. -/
abbrev X7 (c : Dev nD) : Valuation τ sig (Elt F) := StableHlo.after hostOps3 (X6 m c)
/-- What region 3 leaves in its result array `main_v0`, the program's result. -/
def o8 (c : Dev nD) : Buf (Elt F) ((c : Thread nD τ).loc main_v0) := (dat3 (fun c b => X7 m c b) c).arrAt 6 cfg3.N
/-- After region 3, at the return: only `main_v0` has changed. -/
abbrev X8 (c : Dev nD) : Valuation τ sig (Elt F) := Function.update (X7 m c) main_v0 (o8 m c)

namespace Run

/-! ## What each item leaves unchanged

A host stretch leaves every buffer none of its operations writes; a region leaves every buffer but its result array,
where it puts the fold. -/

theorem X1_of (c : Dev nD) (r : Ref sig .tc) (h : r ∉ hostOps0_W) : X1 m c r = X0 m c r :=
  StableHlo.after_of_writes_sub hostOps0 _ hostOps0_writes h
theorem X2_of (c : Dev nD) (r : Ref sig .tc) (h : r ≠ main_call0_v23) : X2 m c r = X1 m c r :=
  Function.update_of_ne (StableHlo.devRef_ne_of_ne h) _ _
theorem X2_self (c : Dev nD) : X2 m c main_call0_v23 = o2 m c := Function.update_self _ _ _
theorem X3_of (c : Dev nD) (r : Ref sig .tc) (h : r ∉ hostOps1_W) : X3 m c r = X2 m c r :=
  StableHlo.after_of_writes_sub hostOps1 _ hostOps1_writes h
theorem X4_of (c : Dev nD) (r : Ref sig .tc) (h : r ≠ main_call0_v34) : X4 m c r = X3 m c r :=
  Function.update_of_ne (StableHlo.devRef_ne_of_ne h) _ _
theorem X4_self (c : Dev nD) : X4 m c main_call0_v34 = o4 m c := Function.update_self _ _ _
theorem X5_of (c : Dev nD) (r : Ref sig .tc) (h : r ∉ hostOps2_W) : X5 m c r = X4 m c r :=
  StableHlo.after_of_writes_sub hostOps2 _ hostOps2_writes h
theorem X6_of (c : Dev nD) (r : Ref sig .tc) (h : r ≠ main_call0_v45) : X6 m c r = X5 m c r :=
  Function.update_of_ne (StableHlo.devRef_ne_of_ne h) _ _
theorem X6_self (c : Dev nD) : X6 m c main_call0_v45 = o6 m c := Function.update_self _ _ _
theorem X7_of (c : Dev nD) (r : Ref sig .tc) (h : r ∉ hostOps3_W) : X7 m c r = X6 m c r :=
  StableHlo.after_of_writes_sub hostOps3 _ hostOps3_writes h
theorem X8_of (c : Dev nD) (r : Ref sig .tc) (h : r ≠ main_v0) : X8 m c r = X7 m c r :=
  Function.update_of_ne (StableHlo.devRef_ne_of_ne h) _ _
theorem X8_self (c : Dev nD) : X8 m c main_v0 = o8 m c := Function.update_self _ _ _

/-- A buffer that no host stretch writes and that is no region's result array reaches the return as launched. -/
theorem X8_launch (c : Dev nD) (r : Ref sig .tc) (h0 : r ∉ hostOps0_W) (h1 : r ∉ hostOps1_W) (h2 : r ∉ hostOps2_W) (h3 : r ∉ hostOps3_W)
    (g0 : r ≠ main_call0_v23) (g1 : r ≠ main_call0_v34) (g2 : r ≠ main_call0_v45) (g3 : r ≠ main_v0) :
    X8 m c r = m ((c : Thread nD τ).loc r) :=
  (X8_of m c r g3).trans <| (X7_of m c r h3).trans <| (X6_of m c r g2).trans <| (X5_of m c r h2).trans <|
    (X4_of m c r g1).trans <| (X3_of m c r h1).trans <| (X2_of m c r g0).trans <| (X1_of m c r h0).trans rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (fun c b => X1 m c b) c
  | ⟨1, _⟩ => fun c => dat1 (fun c b => X3 m c b) c
  | ⟨2, _⟩ => fun c => dat2 (fun c b => X5 m c b) c
  | ⟨3, _⟩ => fun c => dat3 (fun c b => X7 m c b) c

/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along; it leaves them at
    `StableHlo.after` of its operations at `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at `X8`, the generator register at some state. -/
abbrev Tₙ (c : Dev nD) : sProp 𝕄 := iprop(StableHlo.held (c : Thread nD τ) (Pipeline.ucRefs τ sig) (X8 m c) ∗ ∃ r, prngReg c r)

/-! ## The regions as segments -/

/-- At region 0's exit each of its arrays holds what the pipeline leaves: an input window's array is never written,
    so it is as entered, which is `X2` there; the result's is the fold `X2` was given. -/
theorem hF0 (c : Dev nD) : ∀ w : Fin cfg0.W, (dat0 (fun c b => X1 m c b) c).arrAt w cfg0.N = X2 m c (Pipeline.arrRef spec0 w)
  | ⟨0, _⟩ => ((dat0 (fun c b => X1 m c b) c).arrAt_in 0 rfl _).trans ((A_eq0 (fun c b => X1 m c b) c 0).trans (X2_of m c (Pipeline.arrRef spec0 0) (by decide)).symm)
  | ⟨1, _⟩ => ((dat0 (fun c b => X1 m c b) c).arrAt_in 1 rfl _).trans ((A_eq0 (fun c b => X1 m c b) c 1).trans (X2_of m c (Pipeline.arrRef spec0 1) (by decide)).symm)
  | ⟨2, _⟩ => ((dat0 (fun c b => X1 m c b) c).arrAt_in 2 rfl _).trans ((A_eq0 (fun c b => X1 m c b) c 2).trans (X2_of m c (Pipeline.arrRef spec0 2) (by decide)).symm)
  | ⟨3, _⟩ => ((dat0 (fun c b => X1 m c b) c).arrAt_in 3 rfl _).trans ((A_eq0 (fun c b => X1 m c b) c 3).trans (X2_of m c (Pipeline.arrRef spec0 3) (by decide)).symm)
  | ⟨4, _⟩ => ((dat0 (fun c b => X1 m c b) c).arrAt_in 4 rfl _).trans ((A_eq0 (fun c b => X1 m c b) c 4).trans (X2_of m c (Pipeline.arrRef spec0 4) (by decide)).symm)
  | ⟨5, _⟩ => ((dat0 (fun c b => X1 m c b) c).arrAt_in 5 rfl _).trans ((A_eq0 (fun c b => X1 m c b) c 5).trans (X2_of m c (Pipeline.arrRef spec0 5) (by decide)).symm)
  | ⟨6, _⟩ => (X2_self m c).symm
  | ⟨_ + 7, h⟩ => absurd h (Nat.not_lt.2 (Nat.le_add_left _ _))
/-- Every buffer that is none of region 0's arrays is at its exit what it was at its entry. -/
theorem hrest0 (c : Dev nD) (b : Ref sig .tc) (hb : b ∉ Finset.univ.image (Pipeline.arrRef spec0)) : X2 m c b = X1 m c b :=
  X2_of m c b fun h => hb (h ▸ Finset.mem_image.mpr ⟨6, Finset.mem_univ _, rfl⟩)

/-- At region 1's exit each of its arrays holds what the pipeline leaves: an input window's array is never written,
    so it is as entered, which is `X4` there; the result's is the fold `X4` was given. -/
theorem hF1 (c : Dev nD) : ∀ w : Fin cfg1.W, (dat1 (fun c b => X3 m c b) c).arrAt w cfg1.N = X4 m c (Pipeline.arrRef spec1 w)
  | ⟨0, _⟩ => ((dat1 (fun c b => X3 m c b) c).arrAt_in 0 rfl _).trans ((A_eq1 (fun c b => X3 m c b) c 0).trans (X4_of m c (Pipeline.arrRef spec1 0) (by decide)).symm)
  | ⟨1, _⟩ => ((dat1 (fun c b => X3 m c b) c).arrAt_in 1 rfl _).trans ((A_eq1 (fun c b => X3 m c b) c 1).trans (X4_of m c (Pipeline.arrRef spec1 1) (by decide)).symm)
  | ⟨2, _⟩ => ((dat1 (fun c b => X3 m c b) c).arrAt_in 2 rfl _).trans ((A_eq1 (fun c b => X3 m c b) c 2).trans (X4_of m c (Pipeline.arrRef spec1 2) (by decide)).symm)
  | ⟨3, _⟩ => ((dat1 (fun c b => X3 m c b) c).arrAt_in 3 rfl _).trans ((A_eq1 (fun c b => X3 m c b) c 3).trans (X4_of m c (Pipeline.arrRef spec1 3) (by decide)).symm)
  | ⟨4, _⟩ => ((dat1 (fun c b => X3 m c b) c).arrAt_in 4 rfl _).trans ((A_eq1 (fun c b => X3 m c b) c 4).trans (X4_of m c (Pipeline.arrRef spec1 4) (by decide)).symm)
  | ⟨5, _⟩ => ((dat1 (fun c b => X3 m c b) c).arrAt_in 5 rfl _).trans ((A_eq1 (fun c b => X3 m c b) c 5).trans (X4_of m c (Pipeline.arrRef spec1 5) (by decide)).symm)
  | ⟨6, _⟩ => (X4_self m c).symm
  | ⟨_ + 7, h⟩ => absurd h (Nat.not_lt.2 (Nat.le_add_left _ _))
/-- Every buffer that is none of region 1's arrays is at its exit what it was at its entry. -/
theorem hrest1 (c : Dev nD) (b : Ref sig .tc) (hb : b ∉ Finset.univ.image (Pipeline.arrRef spec1)) : X4 m c b = X3 m c b :=
  X4_of m c b fun h => hb (h ▸ Finset.mem_image.mpr ⟨6, Finset.mem_univ _, rfl⟩)

set_option maxHeartbeats 1000000 in
/-- At region 2's exit each of its arrays holds what the pipeline leaves: an input window's array is never written,
    so it is as entered, which is `X6` there; the result's is the fold `X6` was given. -/
theorem hF2 (c : Dev nD) : ∀ w : Fin cfg2.W, (dat2 (fun c b => X5 m c b) c).arrAt w cfg2.N = X6 m c (Pipeline.arrRef spec2 w)
  | ⟨0, _⟩ => ((dat2 (fun c b => X5 m c b) c).arrAt_in 0 rfl _).trans ((A_eq2 (fun c b => X5 m c b) c 0).trans (X6_of m c (Pipeline.arrRef spec2 0) (by decide)).symm)
  | ⟨1, _⟩ => ((dat2 (fun c b => X5 m c b) c).arrAt_in 1 rfl _).trans ((A_eq2 (fun c b => X5 m c b) c 1).trans (X6_of m c (Pipeline.arrRef spec2 1) (by decide)).symm)
  | ⟨2, _⟩ => ((dat2 (fun c b => X5 m c b) c).arrAt_in 2 rfl _).trans ((A_eq2 (fun c b => X5 m c b) c 2).trans (X6_of m c (Pipeline.arrRef spec2 2) (by decide)).symm)
  | ⟨3, _⟩ => ((dat2 (fun c b => X5 m c b) c).arrAt_in 3 rfl _).trans ((A_eq2 (fun c b => X5 m c b) c 3).trans (X6_of m c (Pipeline.arrRef spec2 3) (by decide)).symm)
  | ⟨4, _⟩ => ((dat2 (fun c b => X5 m c b) c).arrAt_in 4 rfl _).trans ((A_eq2 (fun c b => X5 m c b) c 4).trans (X6_of m c (Pipeline.arrRef spec2 4) (by decide)).symm)
  | ⟨5, _⟩ => ((dat2 (fun c b => X5 m c b) c).arrAt_in 5 rfl _).trans ((A_eq2 (fun c b => X5 m c b) c 5).trans (X6_of m c (Pipeline.arrRef spec2 5) (by decide)).symm)
  | ⟨6, _⟩ => (X6_self m c).symm
  | ⟨_ + 7, h⟩ => absurd h (Nat.not_lt.2 (Nat.le_add_left _ _))
/-- Every buffer that is none of region 2's arrays is at its exit what it was at its entry. -/
theorem hrest2 (c : Dev nD) (b : Ref sig .tc) (hb : b ∉ Finset.univ.image (Pipeline.arrRef spec2)) : X6 m c b = X5 m c b :=
  X6_of m c b fun h => hb (h ▸ Finset.mem_image.mpr ⟨6, Finset.mem_univ _, rfl⟩)

set_option maxHeartbeats 1000000 in
/-- At region 3's exit each of its arrays holds what the pipeline leaves: an input window's array is never written,
    so it is as entered, which is `X8` there; the result's is the fold `X8` was given. -/
theorem hF3 (c : Dev nD) : ∀ w : Fin cfg3.W, (dat3 (fun c b => X7 m c b) c).arrAt w cfg3.N = X8 m c (Pipeline.arrRef spec3 w)
  | ⟨0, _⟩ => ((dat3 (fun c b => X7 m c b) c).arrAt_in 0 rfl _).trans ((A_eq3 (fun c b => X7 m c b) c 0).trans (X8_of m c (Pipeline.arrRef spec3 0) (by decide)).symm)
  | ⟨1, _⟩ => ((dat3 (fun c b => X7 m c b) c).arrAt_in 1 rfl _).trans ((A_eq3 (fun c b => X7 m c b) c 1).trans (X8_of m c (Pipeline.arrRef spec3 1) (by decide)).symm)
  | ⟨2, _⟩ => ((dat3 (fun c b => X7 m c b) c).arrAt_in 2 rfl _).trans ((A_eq3 (fun c b => X7 m c b) c 2).trans (X8_of m c (Pipeline.arrRef spec3 2) (by decide)).symm)
  | ⟨3, _⟩ => ((dat3 (fun c b => X7 m c b) c).arrAt_in 3 rfl _).trans ((A_eq3 (fun c b => X7 m c b) c 3).trans (X8_of m c (Pipeline.arrRef spec3 3) (by decide)).symm)
  | ⟨4, _⟩ => ((dat3 (fun c b => X7 m c b) c).arrAt_in 4 rfl _).trans ((A_eq3 (fun c b => X7 m c b) c 4).trans (X8_of m c (Pipeline.arrRef spec3 4) (by decide)).symm)
  | ⟨5, _⟩ => ((dat3 (fun c b => X7 m c b) c).arrAt_in 5 rfl _).trans ((A_eq3 (fun c b => X7 m c b) c 5).trans (X8_of m c (Pipeline.arrRef spec3 5) (by decide)).symm)
  | ⟨6, _⟩ => (X8_self m c).symm
  | ⟨_ + 7, h⟩ => absurd h (Nat.not_lt.2 (Nat.le_add_left _ _))
/-- Every buffer that is none of region 3's arrays is at its exit what it was at its entry. -/
theorem hrest3 (c : Dev nD) (b : Ref sig .tc) (hb : b ∉ Finset.univ.image (Pipeline.arrRef spec3)) : X8 m c b = X7 m c b :=
  X8_of m c b fun h => hb (h ▸ Finset.mem_image.mpr ⟨6, Finset.mem_univ _, rfl⟩)

set_option maxHeartbeats 1000000 in
set_option backward.isDefEq.respectTransparency.types false in
/-- Region 0 as a segment: entered from every unscoped buffer at `X1`, left at `X2`. Its seven arrays are split
    out of the unscoped buffers and put back at the exit contents: the six inputs as entered, the result at what the
    write-backs leave; the generator register passes through the invariant untouched; nothing is owed; the kernel has no
    semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => X1 m c b) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (fun b => X1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => X1 m c b) fun _ => rfl
    rw [Pipeline.unscopedBufs_held c (X1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => X1 m c b) (fun b => X2 m c b) ((pdats m 0 c).arrAt · cfg0.N)
      (hF0 m c) (hrest0 m c)
    rw [Pipeline.unscopedBufs_held c (X2 m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1000000 in
set_option backward.isDefEq.respectTransparency.types false in
/-- Region 1 as a segment: entered from every unscoped buffer at `X3`, left at `X4`. Its seven arrays are split
    out of the unscoped buffers and put back at the exit contents: the six inputs as entered, the result at what the
    write-backs leave; the generator register passes through the invariant untouched; nothing is owed; the kernel has no
    semaphore of its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (fun c b => X3 m c b) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (fun b => X3 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => X3 m c b) fun _ => rfl
    rw [Pipeline.unscopedBufs_held c (X3 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => X3 m c b) (fun b => X4 m c b) ((pdats m 1 c).arrAt · cfg1.N)
      (hF1 m c) (hrest1 m c)
    rw [Pipeline.unscopedBufs_held c (X4 m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1000000 in
set_option backward.isDefEq.respectTransparency.types false in
/-- Region 2 as a segment: entered from every unscoped buffer at `X5`, left at `X6`. Its seven arrays are split
    out of the unscoped buffers and put back at the exit contents: the six inputs as entered, the result at what the
    write-backs leave; the generator register passes through the invariant untouched; nothing is owed; the kernel has no
    semaphore of its own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (fun c b => X5 m c b) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (fun b => X5 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => X5 m c b) fun _ => rfl
    rw [Pipeline.unscopedBufs_held c (X5 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => X5 m c b) (fun b => X6 m c b) ((pdats m 2 c).arrAt · cfg2.N)
      (hF2 m c) (hrest2 m c)
    rw [Pipeline.unscopedBufs_held c (X6 m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1000000 in
set_option backward.isDefEq.respectTransparency.types false in
/-- Region 3 as a segment: entered from every unscoped buffer at `X7`, left at `X8` (what the end of the run reads).
    Its seven arrays are split out of the unscoped buffers and put back at the exit contents; the generator register and
    the scoped buffers no window stages go into the region's invariant (the pooled sums live there between grid points)
    and come back out of it; nothing is owed; the kernel has no semaphore of its own. -/
def reg3 : Pipeline.RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (fun c b => X7 m c b) c).loose
  hwaits := Pipeline.hwaits_of_owed_zero _ _ _ _ L lv 3 fun _ _ => rfl
  pre c := iprop(StableHlo.held (c : Thread nD τ) (Pipeline.ucRefs τ sig) (X7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (fun b => X7 m c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => X7 m c b) fun _ => rfl
    rw [Pipeline.unscopedBufs_held c (X7 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Φ3 (fun c b => X7 m c b) c 0 from rfl]
    iintro ⟨Hp, -, Hr⟩
    iapply (Φ3_in (fun c b => X7 m c b) c)
    isplitl [Hp]; · iexact Hp
    iexact Hr
  hout c := by
    rw [Pipeline.ownSems0_none, show (pdats m 3 c).Φ (Fin.last _) = Φ3 (fun c b => X7 m c b) c (Fin.last cfg3.N) from rfl]
    iintro H
    ihave H' := (Φ3_out (fun c b => X7 m c b) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => X7 m c b) (fun b => X8 m c b) ((pdats m 3 c).arrAt · cfg3.N)
      (hF3 m c) (hrest3 m c)
    rw [Pipeline.unscopedBufs_held c (X8 m c)] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight items in order: a host segment per stretch from the contents before it, a region per pallas_call. -/
abbrev items : List (Pipeline.Seg (pcfgs (F := F)) adm (pdats m) () defs₀ Variants.none L lv) :=
  [ .host (hseg hostOps0 hostOps0_sub hostOps0_fresh (X0 m)),
    .region (reg0 m),
    .host (hseg hostOps1 hostOps1_sub hostOps1_fresh (X2 m)),
    .region (reg1 m),
    .host (hseg hostOps2 hostOps2_sub hostOps2_fresh (X4 m)),
    .region (reg2 m),
    .host (hseg hostOps3 hostOps3_sub hostOps3_fresh (X6 m)),
    .region (reg3 m) ]

end Run

open Run

set_option maxHeartbeats 1000000 in
set_option backward.isDefEq.respectTransparency.types false in
/-- THE RUN'S VALUE. From any memory `m` with zero counters and any generator registers, every weakly fair execution of
    @main on the TensorCores terminates, and in every final memory `main_v0` holds `o8` — region 3's fold over the
    contents the three earlier regions and the four host stretches built from `m` — and each of the sixteen arguments
    holds what it held at launch. The items chain: each is entered from exactly what the one before it left. -/
theorem run_value (ρ : Dev nD → PrngReg) : θ_run defs (onTc (τ := τ) (main (F := F))) ⟨m, fun _ => 0, ρ⟩ (fun r => ∀ c : Dev nD,
      r.2.mem ((c.tc : Thread nD τ).loc main_v0) = o8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine Pipeline.θ_run_regions_kit_dev (pcfgs (F := F)) adm (pdats m) () cellOf_inj emb₁ defs₀ Variants.none L lv m ρ main
    (fun _ => items m)
    (fun c Q => by
      rewrite [main_chain c, Pipeline.Seg.run_eq_chain,
        show (items m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (X0 m c) ∗ R c)) (Tₙ := Tₙ m)
    (hch := fun c => ⟨.rfl, .rfl, .rfl, .rfl, .rfl, .rfl, .rfl, .rfl, .rfl⟩)
    (hinit := ?_)
    (QY := fun c s => s.mem ((c.tc : Thread nD τ).loc main_v0) = o8 m c
        ∧ s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_arg2) = m ((c.tc : Thread nD τ).loc main_arg2)
        ∧ s.mem ((c.tc : Thread nD τ).loc main_arg3) = m ((c.tc : Thread nD τ).loc main_arg3)
        ∧ s.mem ((c.tc : Thread nD τ).loc main_arg4) = m ((c.tc : Thread nD τ).loc main_arg4)
        ∧ s.mem ((c.tc : Thread nD τ).loc main_arg5) = m ((c.tc : Thread nD τ).loc main_arg5)
        ∧ s.mem ((c.tc : Thread nD τ).loc main_arg6) = m ((c.tc : Thread nD τ).loc main_arg6)
        ∧ s.mem ((c.tc : Thread nD τ).loc main_arg7) = m ((c.tc : Thread nD τ).loc main_arg7)
        ∧ s.mem ((c.tc : Thread nD τ).loc main_arg8) = m ((c.tc : Thread nD τ).loc main_arg8)
        ∧ s.mem ((c.tc : Thread nD τ).loc main_arg9) = m ((c.tc : Thread nD τ).loc main_arg9)
        ∧ s.mem ((c.tc : Thread nD τ).loc main_arg10) = m ((c.tc : Thread nD τ).loc main_arg10)
        ∧ s.mem ((c.tc : Thread nD τ).loc main_arg11) = m ((c.tc : Thread nD τ).loc main_arg11)
        ∧ s.mem ((c.tc : Thread nD τ).loc main_arg12) = m ((c.tc : Thread nD τ).loc main_arg12)
        ∧ s.mem ((c.tc : Thread nD τ).loc main_arg13) = m ((c.tc : Thread nD τ).loc main_arg13)
        ∧ s.mem ((c.tc : Thread nD τ).loc main_arg14) = m ((c.tc : Thread nD τ).loc main_arg14)
        ∧ s.mem ((c.tc : Thread nD τ).loc main_arg15) = m ((c.tc : Thread nD τ).loc main_arg15))
    (hfin := fun c s' => ?_) (hQ := fun _ h => h)
  · -- the launch element is the pipelines' own; no other ghost resource is dealt
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: each core's unscoped buffers are held at `X0`, its register at the launch state, nothing owed
    refine Pipeline.initEach L lv fun c => ?_
    rw [show unscopedBufs c (fun b => m ((c : Thread nD τ).loc b)) = StableHlo.held (c : Thread nD τ) (Pipeline.ucRefs τ sig) (X0 m c)
      from Pipeline.unscopedBufs_held c (X0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation; `main_v0` is where region 3 put its fold, an argument
    -- is where no item wrote
    iintro ⟨⟨Hh, -⟩, HSI⟩
    unfold StableHlo.held
    ihave Hr := (pointsTo_read_all (Pipeline.ucRefs τ sig) (fun b => ((c : Thread nD τ).1, b)) (X8 m c) s') $$ [Hh HSI]
    · isplitl [Hh] <;> iassumption
    icases Hr with ⟨%h, HSI⟩
    imodintro
    isplitr
    · ipureintro
      exact ⟨(h (Proc.devRef .tc main_v0) (Finset.mem_filter.mpr ⟨StableHlo.devRef_mem_tcRefs main_v0, by decide⟩)).trans (X8_self m c),
        (h (Proc.devRef .tc main_arg0) (Finset.mem_filter.mpr ⟨StableHlo.devRef_mem_tcRefs main_arg0, by decide⟩)).trans
          (X8_launch m c main_arg0 (by decide) (by decide) (by decide) (by decide) (by decide) (by decide) (by decide) (by decide)),
        (h (Proc.devRef .tc main_arg1) (Finset.mem_filter.mpr ⟨StableHlo.devRef_mem_tcRefs main_arg1, by decide⟩)).trans
          (X8_launch m c main_arg1 (by decide) (by decide) (by decide) (by decide) (by decide) (by decide) (by decide) (by decide)),
        (h (Proc.devRef .tc main_arg2) (Finset.mem_filter.mpr ⟨StableHlo.devRef_mem_tcRefs main_arg2, by decide⟩)).trans
          (X8_launch m c main_arg2 (by decide) (by decide) (by decide) (by decide) (by decide) (by decide) (by decide) (by decide)),
        (h (Proc.devRef .tc main_arg3) (Finset.mem_filter.mpr ⟨StableHlo.devRef_mem_tcRefs main_arg3, by decide⟩)).trans
          (X8_launch m c main_arg3 (by decide) (by decide) (by decide) (by decide) (by decide) (by decide) (by decide) (by decide)),
        (h (Proc.devRef .tc main_arg4) (Finset.mem_filter.mpr ⟨StableHlo.devRef_mem_tcRefs main_arg4, by decide⟩)).trans
          (X8_launch m c main_arg4 (by decide) (by decide) (by decide) (by decide) (by decide) (by decide) (by decide) (by decide)),
        (h (Proc.devRef .tc main_arg5) (Finset.mem_filter.mpr ⟨StableHlo.devRef_mem_tcRefs main_arg5, by decide⟩)).trans
          (X8_launch m c main_arg5 (by decide) (by decide) (by decide) (by decide) (by decide) (by decide) (by decide) (by decide)),
        (h (Proc.devRef .tc main_arg6) (Finset.mem_filter.mpr ⟨StableHlo.devRef_mem_tcRefs main_arg6, by decide⟩)).trans
          (X8_launch m c main_arg6 (by decide) (by decide) (by decide) (by decide) (by decide) (by decide) (by decide) (by decide)),
        (h (Proc.devRef .tc main_arg7) (Finset.mem_filter.mpr ⟨StableHlo.devRef_mem_tcRefs main_arg7, by decide⟩)).trans
          (X8_launch m c main_arg7 (by decide) (by decide) (by decide) (by decide) (by decide) (by decide) (by decide) (by decide)),
        (h (Proc.devRef .tc main_arg8) (Finset.mem_filter.mpr ⟨StableHlo.devRef_mem_tcRefs main_arg8, by decide⟩)).trans
          (X8_launch m c main_arg8 (by decide) (by decide) (by decide) (by decide) (by decide) (by decide) (by decide) (by decide)),
        (h (Proc.devRef .tc main_arg9) (Finset.mem_filter.mpr ⟨StableHlo.devRef_mem_tcRefs main_arg9, by decide⟩)).trans
          (X8_launch m c main_arg9 (by decide) (by decide) (by decide) (by decide) (by decide) (by decide) (by decide) (by decide)),
        (h (Proc.devRef .tc main_arg10) (Finset.mem_filter.mpr ⟨StableHlo.devRef_mem_tcRefs main_arg10, by decide⟩)).trans
          (X8_launch m c main_arg10 (by decide) (by decide) (by decide) (by decide) (by decide) (by decide) (by decide) (by decide)),
        (h (Proc.devRef .tc main_arg11) (Finset.mem_filter.mpr ⟨StableHlo.devRef_mem_tcRefs main_arg11, by decide⟩)).trans
          (X8_launch m c main_arg11 (by decide) (by decide) (by decide) (by decide) (by decide) (by decide) (by decide) (by decide)),
        (h (Proc.devRef .tc main_arg12) (Finset.mem_filter.mpr ⟨StableHlo.devRef_mem_tcRefs main_arg12, by decide⟩)).trans
          (X8_launch m c main_arg12 (by decide) (by decide) (by decide) (by decide) (by decide) (by decide) (by decide) (by decide)),
        (h (Proc.devRef .tc main_arg13) (Finset.mem_filter.mpr ⟨StableHlo.devRef_mem_tcRefs main_arg13, by decide⟩)).trans
          (X8_launch m c main_arg13 (by decide) (by decide) (by decide) (by decide) (by decide) (by decide) (by decide) (by decide)),
        (h (Proc.devRef .tc main_arg14) (Finset.mem_filter.mpr ⟨StableHlo.devRef_mem_tcRefs main_arg14, by decide⟩)).trans
          (X8_launch m c main_arg14 (by decide) (by decide) (by decide) (by decide) (by decide) (by decide) (by decide) (by decide)),
        (h (Proc.devRef .tc main_arg15) (Finset.mem_filter.mpr ⟨StableHlo.devRef_mem_tcRefs main_arg15, by decide⟩)).trans
          (X8_launch m c main_arg15 (by decide) (by decide) (by decide) (by decide) (by decide) (by decide) (by decide) (by decide))⟩
    · iexact HSI

/-- THE FRAME: the run's value without its first conjunct — every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run_value m ρ)

end Cert.Kernel.Body

end
-- ==== Proof.KI.Reg0.lean ====
import proofs.«426697_j79577154060299_2_alg».proof.Proof.KernelIdealLaunch
import proofs.«426697_j79577154060299_2_alg».proof.Proof.Gen.KernelIdeal.Skeleton
import proofs.«426697_j79577154060299_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: one SAGE layer's dense step, `relu((s · inv) · Wl + x · Wr + bl)`, on a block of 4000 rows

The seven windows are, in order: the neighbour sums `s`, the features `x`, the weights `Wl`, the bias `bl`, the weights
`Wr`, the reciprocal neighbour counts `inv` (one column) and the result. Everything here is stated at a parameter `V`:
what the TensorCore's buffers hold when the region is entered. -/

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (a window fetched only at
    the first point keeps its block index, so the block it holds later is still that point's block). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (a window fetched only at
    the first point keeps its block index, so the block it holds later is still that point's block). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (a window fetched only at
    the first point keeps its block index, so the block it holds later is still that point's block). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not (a window fetched only at
    the first point keeps its block index, so the block it holds later is still that point's block). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not (a window fetched only at
    the first point keeps its block index, so the block it holds later is still that point's block). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not (a window fetched only at
    the first point keeps its block index, so the block it holds later is still that point's block). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

/-- The whole-block rectangles the body loads and stores through. -/
abbrev r0_in : Rect S4000x64 := Rect.unit (s := S4000x64) ![0, 0] S4000x64.size inb_S4000x64_S4000x64_0_0
abbrev r0_w : Rect S64x128 := Rect.unit (s := S64x128) ![0, 0] S64x128.size inb_S64x128_S64x128_0_0
abbrev r0_b : Rect S128 := Rect.unit (s := S128) ![0] S128.size inb_S128_S128_0
abbrev r0_inv : Rect S4000x1 := Rect.unit (s := S4000x1) ![0, 0] S4000x1.size inb_S4000x1_S4000x1_0_0
abbrev r0_out : Rect S4000x128 := Rect.unit (s := S4000x128) ![0, 0] S4000x128.size inb_S4000x128_S4000x128_0_0

/-- The result window's staging buffer after the body, from the six input blocks: the body's one store, of the
    payload `relu((s · inv) · Wl + x · Wr + bl)` of the blocks. -/
def out0_6 (x0 : Vec F S4000x64 .f32) (x1 : Vec F S4000x64 .f32) (x2 : Vec F S64x128 .f32) (x3 : Vec F S128 .f32) (x4 : Vec F S64x128 .f32) (x5 : Vec F S4000x1 .f32) : Vec F S4000x128 .f32 :=
  View.canon [⟨r0_out, k0_pay1 (View.ld x5 r0_inv) (View.ld x0 r0_in) (View.ld x1 r0_in) (View.ld x2 r0_w) (View.ld x4 r0_w) (View.ld x3 r0_b)⟩]

/-- The one store covers the buffer. -/
theorem cover0_6 (p0 : Vec F S4000x128 .f32) (y : S4000x128.Idx) :
    ∃ pc ∈ ([⟨r0_out, p0⟩] : List (View.Piece (Elt F) S4000x128 .f32)), y ∈ pc.1.set :=
  View.cover_of_tiled [⟨r0_out, p0⟩] S4000x128.size (by rfl) y

/-! ## The body's triple -/

set_option maxHeartbeats 1000000 in
/-- The kernel body on whole staging memrefs, the inputs' at read contents `xW` and the result's at anything, runs to the
    continuation holding the inputs' as they were and the result's at `out0_6` of the inputs'. -/
theorem sound_kernel0 (c : Dev nD) (E : Set ℕ) (i : grid0.Coords)
    (arg1 : Memref sig .tc .vmem S4000x64 .f32) (harg1 : arg1.IsWhole) (arg2 : Memref sig .tc .vmem S4000x64 .f32) (harg2 : arg2.IsWhole)
    (arg3 : Memref sig .tc .vmem S64x128 .f32) (harg3 : arg3.IsWhole) (arg4 : Memref sig .tc .vmem S128 .f32) (harg4 : arg4.IsWhole)
    (arg5 : Memref sig .tc .vmem S64x128 .f32) (harg5 : arg5.IsWhole) (arg6 : Memref sig .tc .vmem S4000x1 .f32) (harg6 : arg6.IsWhole)
    (arg7 : Memref sig .tc .vmem S4000x128 .f32) (harg7 : arg7.IsWhole)
    (x0 : Vec F S4000x64 .f32) (x1 : Vec F S4000x64 .f32) (x2 : Vec F S64x128 .f32) (x3 : Vec F S128 .f32) (x4 : Vec F S64x128 .f32) (x5 : Vec F S4000x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__combine_kernel i arg1 harg1 arg2 harg2 arg3 harg3 arg4 harg4 arg5 harg5 arg6 harg6 arg7 harg7) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The proof data -/

/-- The proof data of this region on core `c`: the arrays as the region finds them; after the body at point `t` each
    input's buffer still at its block and the result's at `out0_6` of the input blocks; between points only the
    buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Body

end
-- ==== Proof.KI.Reg1.lean ====
import proofs.«426697_j79577154060299_2_alg».proof.Proof.KernelIdealLaunch
import proofs.«426697_j79577154060299_2_alg».proof.Proof.Gen.KernelIdeal.Skeleton
import proofs.«426697_j79577154060299_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: one SAGE layer's dense step, `relu((s · inv) · Wl + x · Wr + bl)`, on a block of 4000 rows

The seven windows are, in order: the neighbour sums `s`, the features `x`, the weights `Wl`, the bias `bl`, the weights
`Wr`, the reciprocal neighbour counts `inv` (one column) and the result. Everything here is stated at a parameter `V`:
what the TensorCore's buffers hold when the region is entered. -/

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (a window fetched only at
    the first point keeps its block index, so the block it holds later is still that point's block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (a window fetched only at
    the first point keeps its block index, so the block it holds later is still that point's block). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (a window fetched only at
    the first point keeps its block index, so the block it holds later is still that point's block). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (a window fetched only at
    the first point keeps its block index, so the block it holds later is still that point's block). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not (a window fetched only at
    the first point keeps its block index, so the block it holds later is still that point's block). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not (a window fetched only at
    the first point keeps its block index, so the block it holds later is still that point's block). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the body stores -/

/-- The whole-block rectangles the body loads and stores through. -/
abbrev r1_in : Rect S4000x128 := Rect.unit (s := S4000x128) ![0, 0] S4000x128.size inb_S4000x128_S4000x128_0_0
abbrev r1_w : Rect S128x128 := Rect.unit (s := S128x128) ![0, 0] S128x128.size inb_S128x128_S128x128_0_0
abbrev r1_b : Rect S128 := Rect.unit (s := S128) ![0] S128.size inb_S128_S128_0
abbrev r1_inv : Rect S4000x1 := Rect.unit (s := S4000x1) ![0, 0] S4000x1.size inb_S4000x1_S4000x1_0_0
abbrev r1_out : Rect S4000x128 := Rect.unit (s := S4000x128) ![0, 0] S4000x128.size inb_S4000x128_S4000x128_0_0

/-- The result window's staging buffer after the body, from the six input blocks: the body's one store, of the
    payload `relu((s · inv) · Wl + x · Wr + bl)` of the blocks. -/
def out1_6 (x0 : Vec F S4000x128 .f32) (x1 : Vec F S4000x128 .f32) (x2 : Vec F S128x128 .f32) (x3 : Vec F S128 .f32) (x4 : Vec F S128x128 .f32) (x5 : Vec F S4000x1 .f32) : Vec F S4000x128 .f32 :=
  View.canon [⟨r1_out, k1_pay1 (View.ld x5 r1_inv) (View.ld x0 r1_in) (View.ld x1 r1_in) (View.ld x2 r1_w) (View.ld x4 r1_w) (View.ld x3 r1_b)⟩]

/-- The one store covers the buffer. -/
theorem cover1_6 (p0 : Vec F S4000x128 .f32) (y : S4000x128.Idx) :
    ∃ pc ∈ ([⟨r1_out, p0⟩] : List (View.Piece (Elt F) S4000x128 .f32)), y ∈ pc.1.set :=
  View.cover_of_tiled [⟨r1_out, p0⟩] S4000x128.size (by rfl) y

/-! ## The body's triple -/

set_option maxHeartbeats 1000000 in
/-- The kernel body on whole staging memrefs, the inputs' at read contents `xW` and the result's at anything, runs to the
    continuation holding the inputs' as they were and the result's at `out1_6` of the inputs'. -/
theorem sound_kernel1 (c : Dev nD) (E : Set ℕ) (i : grid1.Coords)
    (arg1 : Memref sig .tc .vmem S4000x128 .f32) (harg1 : arg1.IsWhole) (arg2 : Memref sig .tc .vmem S4000x128 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S128x128 .f32) (harg5 : arg5.IsWhole) (arg6 : Memref sig .tc .vmem S4000x1 .f32) (harg6 : arg6.IsWhole)
    (arg7 : Memref sig .tc .vmem S4000x128 .f32) (harg7 : arg7.IsWhole)
    (x0 : Vec F S4000x128 .f32) (x1 : Vec F S4000x128 .f32) (x2 : Vec F S128x128 .f32) (x3 : Vec F S128 .f32) (x4 : Vec F S128x128 .f32) (x5 : Vec F S4000x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__combine_kernel i arg1 harg1 arg2 harg2 arg3 harg3 arg4 harg4 arg5 harg5 arg6 harg6 arg7 harg7) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The proof data -/

/-- The proof data of this region on core `c`: the arrays as the region finds them; after the body at point `t` each
    input's buffer still at its block and the result's at `out1_6` of the input blocks; between points only the
    buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Body

end
-- ==== Proof.KI.Reg2.lean ====
import proofs.«426697_j79577154060299_2_alg».proof.Proof.KernelIdealLaunch
import proofs.«426697_j79577154060299_2_alg».proof.Proof.Gen.KernelIdeal.Skeleton
import proofs.«426697_j79577154060299_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: one SAGE layer's dense step, `relu((s · inv) · Wl + x · Wr + bl)`, on a block of 4000 rows

The seven windows are, in order: the neighbour sums `s`, the features `x`, the weights `Wl`, the bias `bl`, the weights
`Wr`, the reciprocal neighbour counts `inv` (one column) and the result. Everything here is stated at a parameter `V`:
what the TensorCore's buffers hold when the region is entered. -/

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (a window fetched only at
    the first point keeps its block index, so the block it holds later is still that point's block). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (a window fetched only at
    the first point keeps its block index, so the block it holds later is still that point's block). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (a window fetched only at
    the first point keeps its block index, so the block it holds later is still that point's block). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (a window fetched only at
    the first point keeps its block index, so the block it holds later is still that point's block). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not (a window fetched only at
    the first point keeps its block index, so the block it holds later is still that point's block). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, fetched there or not (a window fetched only at
    the first point keeps its block index, so the block it holds later is still that point's block). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the body stores -/

/-- The whole-block rectangles the body loads and stores through. -/
abbrev r2_in : Rect S4000x128 := Rect.unit (s := S4000x128) ![0, 0] S4000x128.size inb_S4000x128_S4000x128_0_0
abbrev r2_w : Rect S128x128 := Rect.unit (s := S128x128) ![0, 0] S128x128.size inb_S128x128_S128x128_0_0
abbrev r2_b : Rect S128 := Rect.unit (s := S128) ![0] S128.size inb_S128_S128_0
abbrev r2_inv : Rect S4000x1 := Rect.unit (s := S4000x1) ![0, 0] S4000x1.size inb_S4000x1_S4000x1_0_0
abbrev r2_out : Rect S4000x128 := Rect.unit (s := S4000x128) ![0, 0] S4000x128.size inb_S4000x128_S4000x128_0_0

/-- The result window's staging buffer after the body, from the six input blocks: the body's one store, of the
    payload `relu((s · inv) · Wl + x · Wr + bl)` of the blocks. -/
def out2_6 (x0 : Vec F S4000x128 .f32) (x1 : Vec F S4000x128 .f32) (x2 : Vec F S128x128 .f32) (x3 : Vec F S128 .f32) (x4 : Vec F S128x128 .f32) (x5 : Vec F S4000x1 .f32) : Vec F S4000x128 .f32 :=
  View.canon [⟨r2_out, k2_pay1 (View.ld x5 r2_inv) (View.ld x0 r2_in) (View.ld x1 r2_in) (View.ld x2 r2_w) (View.ld x4 r2_w) (View.ld x3 r2_b)⟩]

/-- The one store covers the buffer. -/
theorem cover2_6 (p0 : Vec F S4000x128 .f32) (y : S4000x128.Idx) :
    ∃ pc ∈ ([⟨r2_out, p0⟩] : List (View.Piece (Elt F) S4000x128 .f32)), y ∈ pc.1.set :=
  View.cover_of_tiled [⟨r2_out, p0⟩] S4000x128.size (by rfl) y

/-! ## The body's triple -/

set_option maxHeartbeats 1000000 in
/-- The kernel body on whole staging memrefs, the inputs' at read contents `xW` and the result's at anything, runs to the
    continuation holding the inputs' as they were and the result's at `out2_6` of the inputs'. -/
theorem sound_kernel2 (c : Dev nD) (E : Set ℕ) (i : grid2.Coords)
    (arg1 : Memref sig .tc .vmem S4000x128 .f32) (harg1 : arg1.IsWhole) (arg2 : Memref sig .tc .vmem S4000x128 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S128x128 .f32) (harg5 : arg5.IsWhole) (arg6 : Memref sig .tc .vmem S4000x1 .f32) (harg6 : arg6.IsWhole)
    (arg7 : Memref sig .tc .vmem S4000x128 .f32) (harg7 : arg7.IsWhole)
    (x0 : Vec F S4000x128 .f32) (x1 : Vec F S4000x128 .f32) (x2 : Vec F S128x128 .f32) (x3 : Vec F S128 .f32) (x4 : Vec F S128x128 .f32) (x5 : Vec F S4000x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__combine_kernel i arg1 harg1 arg2 harg2 arg3 harg3 arg4 harg4 arg5 harg5 arg6 harg6 arg7 harg7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The proof data -/

/-- The proof data of this region on core `c`: the arrays as the region finds them; after the body at point `t` each
    input's buffer still at its block and the result's at `out2_6` of the input blocks; between points only the
    buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Body

end
-- ==== Proof.KI.Reg3.lean ====
import proofs.«426697_j79577154060299_2_alg».proof.Proof.KernelIdealLaunch
import proofs.«426697_j79577154060299_2_alg».proof.Proof.Gen.KernelIdeal.Skeleton
import proofs.«426697_j79577154060299_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: pooling by graph, then layer normalisation and the last linear map

The seven windows are, in order: the node features `h` (a block of 4000 rows), the nodes' graph numbers `batch` (one
column), the weights `Wd`, the bias `bd`, the scale `ln_g`, the shift `ln_b`, and the result (512 × 2, one block,
written back after the last point). The scratch holds the pooled sums (512 × 128) from one grid point to the next: it is
zeroed at the first point, every point adds its block's contribution, and the last point reads it to form the result.
Everything here is stated at a parameter `V`: what the TensorCore's buffers hold when the region is entered. -/

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The pooled sums the scratch holds after the first `n` grid points: zero, then per point the payload that adds the
    point's block contribution to what the scratch held. -/
def acc3 (c : Dev nD) : ℕ → Vec F S512x128 .f32
  | 0 => k3_pay1
  | n + 1 => if h : n < cfg3.N then k3_pay2 (iblk3 V c 0 ⟨n, h⟩) (iblk3 V c 1 ⟨n, h⟩) (acc3 c n) else acc3 c n

theorem acc3_zero (c : Dev nD) : acc3 V c 0 = k3_pay1 := by rw [acc3]

theorem acc3_succ (c : Dev nD) (t : Fin cfg3.N) :
    acc3 V c (t.val + 1) = k3_pay2 (iblk3 V c 0 t) (iblk3 V c 1 t) (acc3 V c t.val) := by
  rw [acc3]; exact dif_pos t.isLt

/-- The result window's staging buffer after the body at the last point: the payload (layer normalisation of the pooled
    sums `g`, then the linear map) stored whole. -/
def out3_6 (g : Vec F S512x128 .f32) (x2 : Vec F S128x2 .f32) (x3 : Vec F S2 .f32) (x4 : Vec F S128 .f32) (x5 : Vec F S128 .f32) : Vec F S512x2 .f32 :=
  k3_pay3 g x4 x5 x2 x3

/-- The invariant between grid points: the scratch at the pooled sums so far (at anything before the first point), the
    other buffers no window stages, and the generator register. -/
def Φ3 (c : Dev nD) (t : Fin (cfg3.N + 1)) : sProp 𝕄 :=
  iprop((∃ f : Buf (Elt F) ((c : Thread nD τ).loc cc3_scratch0),
        ⌜t.val ≠ 0 → (Memref.whole cc3_scratch0 : Memref sig .tc .vmem S512x128 .f32).view.read (Elt F) f = acc3 V c t.val⌝
        ∗ ((c : Thread nD τ).loc cc3_scratch0) ↦{fullShare} f)
    ∗ Pipeline.scopedRestBut (Ix := Unit) (Name := ℕ) (U := UR sig nD τ) (Lvl := ℕ) (Val := Elt F) spec3 c [cc3_scratch0]
    ∗ ∃ r, prngReg c r)

/-- The proof data of this region on core `c`. The result window's `after` is consulted at the last point only (the
    window is idle elsewhere and keeps what it held). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (acc3 V c cfg3.N) (iblk3 V c 2 t) (iblk3 V c 3 t) (iblk3 V c 4 t) (iblk3 V c 5 t)
  Φ := Φ3 V c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t
    = out3_6 (acc3 V c cfg3.N) (iblk3 V c 2 t) (iblk3 V c 3 t) (iblk3 V c 4 t) (iblk3 V c 5 t) := by dsimp only [dat3]

/-! ## The body's runs, by the point

The body branches twice on the grid coordinate: at the first point it zeroes the scratch before adding to it; at the
last point, after adding, it reads the scratch back and stores the result. So there are three runs: the first point,
a point strictly between, the last point. Every load and store goes through the whole-buffer rectangle of its memref. -/

/-- The condition of the first conditional, from the grid coordinate: whether the coordinate is zero. -/
abbrev cond3_1 (i : grid3.Coords) : Prop := (Scalar.cmpi .ne (Scalar.extui (Scalar.cmpi .eq (BitVec.ofNat 32 (i 0).val) 0#32)) 0#32) = 1#1

/-- The whole-buffer rectangles' offsets are zero. -/
theorem off3_2 : (![0, 0] : Fin 2 → ℕ) = fun _ => 0 := funext fun a => by fin_cases a <;> rfl
theorem off3_1 : (![0] : Fin 1 → ℕ) = fun _ => 0 := funext fun a => by fin_cases a <;> rfl

/-- A list of stores whose last goes through the whole-buffer rectangle covers the scratch. -/
theorem cover3_s (w : Vec F S512x128 .f32) (L : List (View.Piece (Elt F) S512x128 .f32)) (y : S512x128.Idx) :
    ∃ pc ∈ ((⟨Rect.unit ![0, 0] S512x128.size inb_S512x128_S512x128_0_0, w⟩ : View.Piece (Elt F) S512x128 .f32) :: L), y ∈ pc.1.set :=
  ⟨_, List.mem_cons_self, View.mem_set_unit_zero off3_2 inb_S512x128_S512x128_0_0 y⟩

/-- The one store through the whole-buffer rectangle covers the result's buffer. -/
theorem cover3_o (w : Vec F S512x2 .f32) (y : S512x2.Idx) :
    ∃ pc ∈ ([⟨Rect.unit ![0, 0] S512x2.size inb_S512x2_S512x2_0_0, w⟩] : List (View.Piece (Elt F) S512x2 .f32)), y ∈ pc.1.set :=
  ⟨_, List.mem_cons_self, View.mem_set_unit_zero off3_2 inb_S512x2_S512x2_0_0 y⟩

set_option maxHeartbeats 1000000 in
/-- At the first point: the scratch found at anything is zeroed, then the block's contribution added; the result's
    buffer is not touched. -/
theorem sound_kernel3_first (c : Dev nD) (E : Set ℕ) (i : grid3.Coords)
    (arg1 : Memref sig .tc .vmem S4000x128 .f32) (harg1 : arg1.IsWhole) (arg2 : Memref sig .tc .vmem S4000x1 .i32) (harg2 : arg2.IsWhole)
    (arg3 : Memref sig .tc .vmem S128x2 .f32) (harg3 : arg3.IsWhole) (arg4 : Memref sig .tc .vmem S2 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S512x2 .f32) (harg7 : arg7.IsWhole) (arg8 : Memref sig .tc .vmem S512x128 .f32) (harg8 : arg8.IsWhole)
    (hc1 : cond3_1 i) (hc2 : ¬ k3_cond2 i = 1#1)
    (x0 : Vec F S4000x128 .f32) (x1 : Vec F S4000x1 .i32) (x2 : Vec F S128x2 .f32) (x3 : Vec F S2 .f32) (x4 : Vec F S128 .f32) (x5 : Vec F S128 .f32)
    (y : Vec F S512x2 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare y ∗ (∃ g, owns (c : Thread nD τ) arg8 fullShare g)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare y ∗ owns (c : Thread nD τ) arg8 fullShare (k3_pay2 x0 x1 k3_pay1)) -∗ K ⟨⟩))
      ⊢ wp frame (wpE (defs₀ (F := F)) Variants.none c none) E (cc3__decode_kernel i arg1 harg1 arg2 harg2 arg3 harg3 arg4 harg4 arg5 harg5 arg6 harg6 arg7 harg7 arg8 harg8) K := by
  simp only [cc3__decode_kernel_eq_skeleton]; unfold cc3__decode_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g, %f7, -, H7⟩, Hk⟩
  subst hf0 hf1 hf2 hf3 hf4 hf5 hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  unfold sound_kernel3_first.sl.v16 sound_kernel3_first.sl.H7_1
  rw [View.read_writes_eq_canon _ _ _ (cover3_s _ _), View.canon_cons_unit_zero off3_2, View.readCov_unit_zero _ off3_2]
  simp only [View.readAt_eq_ld, View.ld_unit_zero (S := S4000x128) off3_2, View.ld_unit_zero (S := S4000x1) off3_2]

set_option maxHeartbeats 1000000 in
/-- At a point strictly between the first and the last: the block's contribution is added to the scratch; the result's
    buffer is not touched. -/
theorem sound_kernel3_mid (c : Dev nD) (E : Set ℕ) (i : grid3.Coords)
    (arg1 : Memref sig .tc .vmem S4000x128 .f32) (harg1 : arg1.IsWhole) (arg2 : Memref sig .tc .vmem S4000x1 .i32) (harg2 : arg2.IsWhole)
    (arg3 : Memref sig .tc .vmem S128x2 .f32) (harg3 : arg3.IsWhole) (arg4 : Memref sig .tc .vmem S2 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S512x2 .f32) (harg7 : arg7.IsWhole) (arg8 : Memref sig .tc .vmem S512x128 .f32) (harg8 : arg8.IsWhole)
    (hc1 : ¬ cond3_1 i) (hc2 : ¬ k3_cond2 i = 1#1)
    (x0 : Vec F S4000x128 .f32) (x1 : Vec F S4000x1 .i32) (x2 : Vec F S128x2 .f32) (x3 : Vec F S2 .f32) (x4 : Vec F S128 .f32) (x5 : Vec F S128 .f32)
    (y : Vec F S512x2 .f32) (g : Vec F S512x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare y ∗ owns (c : Thread nD τ) arg8 fullShare g
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare y ∗ owns (c : Thread nD τ) arg8 fullShare (k3_pay2 x0 x1 g)) -∗ K ⟨⟩))
      ⊢ wp frame (wpE (defs₀ (F := F)) Variants.none c none) E (cc3__decode_kernel i arg1 harg1 arg2 harg2 arg3 harg3 arg4 harg4 arg5 harg5 arg6 harg6 arg7 harg7 arg8 harg8) K := by
  simp only [cc3__decode_kernel_eq_skeleton]; unfold cc3__decode_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover3_s _ _), View.canon_unit_zero off3_2]
  simp only [View.readAt_eq_ld, View.ld_unit_zero (S := S4000x128) off3_2, View.ld_unit_zero (S := S4000x1) off3_2,
    View.ld_unit_zero (S := S512x128) off3_2]

set_option maxHeartbeats 1000000 in
/-- At the last point: the block's contribution is added to the scratch, which is then read back, normalised and mapped
    into the result's buffer, found at anything. -/
theorem sound_kernel3_last (c : Dev nD) (E : Set ℕ) (i : grid3.Coords)
    (arg1 : Memref sig .tc .vmem S4000x128 .f32) (harg1 : arg1.IsWhole) (arg2 : Memref sig .tc .vmem S4000x1 .i32) (harg2 : arg2.IsWhole)
    (arg3 : Memref sig .tc .vmem S128x2 .f32) (harg3 : arg3.IsWhole) (arg4 : Memref sig .tc .vmem S2 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S512x2 .f32) (harg7 : arg7.IsWhole) (arg8 : Memref sig .tc .vmem S512x128 .f32) (harg8 : arg8.IsWhole)
    (hc1 : ¬ cond3_1 i) (hc2 : k3_cond2 i = 1#1)
    (x0 : Vec F S4000x128 .f32) (x1 : Vec F S4000x1 .i32) (x2 : Vec F S128x2 .f32) (x3 : Vec F S2 .f32) (x4 : Vec F S128 .f32) (x5 : Vec F S128 .f32)
    (g : Vec F S512x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ y, owns (c : Thread nD τ) arg7 fullShare y) ∗ owns (c : Thread nD τ) arg8 fullShare g
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k3_pay3 (k3_pay2 x0 x1 g) x4 x5 x2 x3) ∗ owns (c : Thread nD τ) arg8 fullShare (k3_pay2 x0 x1 g)) -∗ K ⟨⟩))
      ⊢ wp frame (wpE (defs₀ (F := F)) Variants.none c none) E (cc3__decode_kernel i arg1 harg1 arg2 harg2 arg3 harg3 arg4 harg4 arg5 harg5 arg6 harg6 arg7 harg7 arg8 harg8) K := by
  simp only [cc3__decode_kernel_eq_skeleton]; unfold cc3__decode_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%y, %f6, -, H6⟩, ⟨%f7, %hf7, H7⟩, Hk⟩
  subst hf0 hf1 hf2 hf3 hf4 hf5 hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    unfold sound_kernel3_last.sl.v24 sound_kernel3_last.sl.H7_1
    rw [View.read_writes_eq_canon _ _ _ (cover3_o _), View.canon_unit_zero off3_2, View.readCov_unit_zero _ off3_2]
    simp only [View.readAt_eq_ld, View.ld_unit_zero (S := S4000x128) off3_2, View.ld_unit_zero (S := S4000x1) off3_2,
      View.ld_unit_zero (S := S512x128) off3_2, View.ld_unit_zero (S := S128x2) off3_2, View.ld_unit_zero (S := S128) off3_1,
      View.ld_unit_zero (S := S2) off3_1]
  iexists _; isplitr
  swap; · iexact H7
  ipureintro
  unfold sound_kernel3_last.sl.H7_1
  rw [View.read_writes_eq_canon _ _ _ (cover3_s _ _), View.canon_unit_zero off3_2]
  simp only [View.readAt_eq_ld, View.ld_unit_zero (S := S4000x128) off3_2, View.ld_unit_zero (S := S4000x1) off3_2,
    View.ld_unit_zero (S := S512x128) off3_2]

/-! ## What the input windows hold when the body runs -/

/-- An input window's staging buffer holds its block at every point, fetched there or not (a window fetched only at the
    first point keeps its block index, so the block it holds later is still that point's block). -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)

/-! ## The conditions over the grid -/

/-- The first conditional is taken at the first point only, the second at the last only; the result's window is idle
    everywhere but at the last point — each decided over the grid. -/
theorem hcond3_1 : ∀ t : Fin cfg3.N, cond3_1 (grid3.coords t) ↔ t.val = 0 :=
  (by decide +kernel : ∀ t : Fin grid3.N, cond3_1 (grid3.coords t) ↔ t.val = 0)
theorem hcond3_2 : ∀ t : Fin cfg3.N, k3_cond2 (grid3.coords t) = 1#1 ↔ t.val = 24 :=
  (by decide +kernel : ∀ t : Fin grid3.N, k3_cond2 (grid3.coords t) = 1#1 ↔ t.val = 24)
theorem hidle3_6 : ∀ t : Fin cfg3.N, cfg3.idle (6 : Fin 7) (cfg3.grid.coords t) = true ↔ t.val ≠ 24 :=
  (by decide +kernel : ∀ t : Fin grid3.N, idle3 (6 : Fin 7) (grid3.coords t) = true ↔ t.val ≠ 24)

theorem val_lt3 (t : Fin cfg3.N) : t.val < 25 := Nat.lt_of_lt_of_eq t.isLt N_3

/-! ## The scratch, as the invariant holds it and as the body names it -/

/-- Owning the scratch's whole memref at read contents `g` is holding the scratch buffer at contents that read `g`. -/
theorem owns_scr3_eq (c : Dev nD) (g : Vec F S512x128 .f32) :
    (owns (c : Thread nD τ) (Memref.whole cc3_scratch0 : Memref sig .tc .vmem S512x128 .f32) fullShare g : sProp 𝕄)
      = iprop(∃ f : Buf (Elt F) ((c : Thread nD τ).loc cc3_scratch0),
          ⌜(Memref.whole cc3_scratch0 : Memref sig .tc .vmem S512x128 .f32).view.read (Elt F) f = g⌝
          ∗ ((c : Thread nD τ).loc cc3_scratch0) ↦{fullShare} f) := by
  unfold owns
  simp only [Memref.view_whole, View.set_whole]

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- what it returns at a point other than the last (the result's buffer as it was handed), -/
def bodyPostIdle3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ (∃ d, owns (c : Thread nD τ) (st3_6 t) fullShare ((dat3 V c).before 6 t d)))

/-- and what it returns at the last point. -/
def bodyPostLast3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at the first point: the scratch, found at anything, leaves at the first block's contribution over zero. -/
theorem sound_body3_first (c : Dev nD) (t : Fin cfg3.N) (h0 : t.val = 0) :
    bodyPre3 V c t ⊢ wp frame (wpE (defs₀ (F := F)) Variants.none c none) Set.univ (bodyAt3 t) (fun _ => bodyPostIdle3 V c t) := by
  have hc1 : cond3_1 (grid3.coords t) := (hcond3_1 t).2 h0
  have hc2 : ¬ k3_cond2 (grid3.coords t) = 1#1 := fun h => by have := (hcond3_2 t).1 h; omega
  unfold bodyPre3 bodyPostIdle3
  unfold bodyAt3
  simp only [before3_0, before3_1, before3_2, before3_3, before3_4, before3_5]
  rw [show (dat3 V c).owesAt () t.succ = (dat3 V c).owesAt () t.castSucc from rfl,
    after3_0, after3_1, after3_2, after3_3, after3_4, after3_5,
    show (dat3 V c).Φ t.castSucc = Φ3 V c t.castSucc from rfl, show (dat3 V c).Φ t.succ = Φ3 V c t.succ from rfl]
  unfold Φ3
  iintro ⟨⟨⟨%f, -, HS⟩, HB, HR⟩, Ho, ⟨%d0, H0⟩, ⟨%d1, H1⟩, ⟨%d2, H2⟩, ⟨%d3, H3⟩, ⟨%d4, H4⟩, ⟨%d5, H5⟩, ⟨%d6, H6⟩⟩
  iapply (sound_kernel3_first c Set.univ _ _ _ _ _ _ _ _ _ _ _ _ _ _ _ _ _ hc1 hc2 (iblk3 V c 0 t) (iblk3 V c 1 t) (iblk3 V c 2 t) (iblk3 V c 3 t) (iblk3 V c 4 t) (iblk3 V c 5 t) ((dat3 V c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]
  · iexists _; rw [owns_scr3_eq]; iexists f; isplitr; · ipureintro; rfl
    iexact HS
  rw [owns_scr3_eq]
  iintro ⟨H0, H1, H2, H3, H4, H5, H6, ⟨%f', %hf', HS⟩⟩
  isplitl [HS HB HR]
  · isplitl [HS]
    · iexists f'; isplitr
      · ipureintro; intro _
        rw [hf', Fin.val_succ, acc3_succ, h0, acc3_zero]
      iexact HS
    isplitl [HB]; · iexact HB
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

/-- The body at a point strictly between: the scratch goes from the pooled sums so far to those with this block's. -/
theorem sound_body3_mid (c : Dev nD) (t : Fin cfg3.N) (h0 : t.val ≠ 0) (h24 : t.val ≠ 24) :
    bodyPre3 V c t ⊢ wp frame (wpE (defs₀ (F := F)) Variants.none c none) Set.univ (bodyAt3 t) (fun _ => bodyPostIdle3 V c t) := by
  have hc1 : ¬ cond3_1 (grid3.coords t) := fun h => h0 ((hcond3_1 t).1 h)
  have hc2 : ¬ k3_cond2 (grid3.coords t) = 1#1 := fun h => h24 ((hcond3_2 t).1 h)
  unfold bodyPre3 bodyPostIdle3
  unfold bodyAt3
  simp only [before3_0, before3_1, before3_2, before3_3, before3_4, before3_5]
  rw [show (dat3 V c).owesAt () t.succ = (dat3 V c).owesAt () t.castSucc from rfl,
    after3_0, after3_1, after3_2, after3_3, after3_4, after3_5,
    show (dat3 V c).Φ t.castSucc = Φ3 V c t.castSucc from rfl, show (dat3 V c).Φ t.succ = Φ3 V c t.succ from rfl]
  unfold Φ3
  iintro ⟨⟨⟨%f, %hf, HS⟩, HB, HR⟩, Ho, ⟨%d0, H0⟩, ⟨%d1, H1⟩, ⟨%d2, H2⟩, ⟨%d3, H3⟩, ⟨%d4, H4⟩, ⟨%d5, H5⟩, ⟨%d6, H6⟩⟩
  iapply (sound_kernel3_mid c Set.univ _ _ _ _ _ _ _ _ _ _ _ _ _ _ _ _ _ hc1 hc2 (iblk3 V c 0 t) (iblk3 V c 1 t) (iblk3 V c 2 t) (iblk3 V c 3 t) (iblk3 V c 4 t) (iblk3 V c 5 t) ((dat3 V c).before 6 t d6) (acc3 V c t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]
  · rw [owns_scr3_eq]; iexists f; isplitr; · ipureintro; exact hf h0
    iexact HS
  rw [owns_scr3_eq]
  iintro ⟨H0, H1, H2, H3, H4, H5, H6, ⟨%f', %hf', HS⟩⟩
  isplitl [HS HB HR]
  · isplitl [HS]
    · iexists f'; isplitr
      · ipureintro; intro _
        rw [hf', Fin.val_succ, acc3_succ]
      iexact HS
    isplitl [HB]; · iexact HB
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

/-- The body at the last point: the scratch reaches the pooled sums of every block, and the result's buffer, found at
    anything, leaves at their normalisation mapped through the weights. -/
theorem sound_body3_last (c : Dev nD) (t : Fin cfg3.N) (h24 : t.val = 24) :
    bodyPre3 V c t ⊢ wp frame (wpE (defs₀ (F := F)) Variants.none c none) Set.univ (bodyAt3 t) (fun _ => bodyPostLast3 V c t) := by
  have h0 : t.val ≠ 0 := by omega
  have hc1 : ¬ cond3_1 (grid3.coords t) := fun h => h0 ((hcond3_1 t).1 h)
  have hc2 : k3_cond2 (grid3.coords t) = 1#1 := (hcond3_2 t).2 h24
  have hall : acc3 V c cfg3.N = k3_pay2 (iblk3 V c 0 t) (iblk3 V c 1 t) (acc3 V c t.val) := by
    have e : ∀ n, n = t.val + 1 → acc3 V c n = k3_pay2 (iblk3 V c 0 t) (iblk3 V c 1 t) (acc3 V c t.val) := by
      rintro _ rfl; exact acc3_succ V c t
    exact e _ (N_3.trans (by rw [h24]))
  unfold bodyPre3 bodyPostLast3
  unfold bodyAt3
  simp only [before3_0, before3_1, before3_2, before3_3, before3_4, before3_5]
  rw [show (dat3 V c).owesAt () t.succ = (dat3 V c).owesAt () t.castSucc from rfl,
    after3_0, after3_1, after3_2, after3_3, after3_4, after3_5,
    show (dat3 V c).Φ t.castSucc = Φ3 V c t.castSucc from rfl, show (dat3 V c).Φ t.succ = Φ3 V c t.succ from rfl]
  unfold Φ3
  rw [after3_6]; unfold out3_6; rw [hall]
  iintro ⟨⟨⟨%f, %hf, HS⟩, HB, HR⟩, Ho, ⟨%d0, H0⟩, ⟨%d1, H1⟩, ⟨%d2, H2⟩, ⟨%d3, H3⟩, ⟨%d4, H4⟩, ⟨%d5, H5⟩, ⟨%d6, H6⟩⟩
  iapply (sound_kernel3_last c Set.univ _ _ _ _ _ _ _ _ _ _ _ _ _ _ _ _ _ hc1 hc2 (iblk3 V c 0 t) (iblk3 V c 1 t) (iblk3 V c 2 t) (iblk3 V c 3 t) (iblk3 V c 4 t) (iblk3 V c 5 t) (acc3 V c t.val) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]
  · rw [owns_scr3_eq]; iexists f; isplitr; · ipureintro; exact hf h0
    iexact HS
  rw [owns_scr3_eq]
  iintro ⟨H0, H1, H2, H3, H4, H5, H6, ⟨%f', %hf', HS⟩⟩
  isplitl [HS HB HR]
  · isplitl [HS]
    · iexists f'; isplitr
      · ipureintro; intro _
        rw [hf', Fin.val_succ, acc3_succ]
      iexact HS
    isplitl [HB]; · iexact HB
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The invariant at the first point, from the generator register and the buffers no window stages. -/
theorem Φ3_in (c : Dev nD) :
    iprop((∃ r, prngReg c r) ∗ Pipeline.scopedRest (Ix := Unit) (Name := ℕ) (U := UR sig nD τ) (Lvl := ℕ) (Val := Elt F) spec3 c)
      ⊢ (Φ3 V c 0 : sProp 𝕄) := by
  unfold Φ3
  rw [scopedRest3_split]
  iintro ⟨HR, ⟨%f, HS⟩, HB⟩
  isplitl [HS]
  · iexists f; isplitr
    · ipureintro; intro h; exact absurd rfl h
    iexact HS
  isplitl [HB]; · iexact HB
  iexact HR

/-- The invariant after the last point gives them back. -/
theorem Φ3_out (c : Dev nD) :
    (Φ3 V c (Fin.last cfg3.N) : sProp 𝕄)
      ⊢ iprop((∃ r, prngReg c r) ∗ Pipeline.scopedRest (Ix := Unit) (Name := ℕ) (U := UR sig nD τ) (Lvl := ℕ) (Val := Elt F) spec3 c) := by
  unfold Φ3
  rw [scopedRest3_split]
  iintro ⟨⟨%f, -, HS⟩, HB, HR⟩
  isplitl [HR]; · iexact HR
  isplitl [HS]; · iexists f; iexact HS
  iexact HB

/-- The body obligation, at every point. -/
theorem body_obligation3 (c : Dev nD) : BodyObligation (dat3 (F := F) V c) (defs₀ (F := F)) Variants.none () Set.univ := fun t => by
  rw [bigSep_W3, bigSep_W3]
  by_cases h24 : t.val = 24
  · have hi : cfg3.idle (6 : Fin 7) (cfg3.grid.coords t) = false := by
      cases h : cfg3.idle (6 : Fin 7) (cfg3.grid.coords t) with
      | false => rfl
      | true => exact absurd h24 ((hidle3_6 t).1 h)
    rw [hi]
    exact sound_body3_last V c t h24
  · have hi : cfg3.idle (6 : Fin 7) (cfg3.grid.coords t) = true := (hidle3_6 t).2 h24
    have hf : (cfg3.win (6 : Fin 7)).flush t = false := by
      cases h : (cfg3.win (6 : Fin 7)).flush t with
      | false => rfl
      | true => exact absurd ((flush3_6 t).1 h) (by have := val_lt3 t; omega)
    rw [hi, hf]
    by_cases h0 : t.val = 0
    · exact sound_body3_first V c t h0
    · exact sound_body3_mid V c t h0 h24

end Cert.KernelIdeal.Body

end
-- ==== Proof.KI.Run.lean ====
import proofs.«426697_j79577154060299_2_alg».proof.Proof.KernelIdealRegions
import proofs.«426697_j79577154060299_2_alg».proof.Proof.KI.Reg0
import proofs.«426697_j79577154060299_2_alg».proof.Proof.KI.Reg1
import proofs.«426697_j79577154060299_2_alg».proof.Proof.KI.Reg2
import proofs.«426697_j79577154060299_2_alg».proof.Proof.KI.Reg3
import Idealize.ShloMosaic.Lib.Pipeline.RegionsLoop
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: four kernel regions among four stretches of host operations

From the launch memory `m` the TensorCore's unscoped buffers pass through nine valuations `X0 … X8`: a host stretch
takes `X` to `StableHlo.after` of its operations at `X`; a kernel region changes exactly one buffer, its result window's
array, which it leaves at the fold of its write-backs over the grid (`o2`, `o4`, `o6`, `o8`), every other buffer as
entered. No item writes an argument of @main, so the sixteen arguments end as launched, and `main_v0` ends at `o8`. -/

variable (m : (ℓ : Loc nD τ sig) → Buf (Elt F) ℓ)

/-! ## The buffers' contents between items -/

/-- Core `c`'s unscoped buffers at launch. -/
abbrev X0 (c : Dev nD) : Valuation τ sig (Elt F) := fun b => m (c, b)
/-- After the first host stretch: what region 0 is entered from. -/
abbrev X1 (c : Dev nD) : Valuation τ sig (Elt F) := StableHlo.after hostOps0 (X0 m c)
/-- What region 0 leaves in its result array `main_call0_v23`: the write-backs of its 25 grid points folded. -/
def o2 (c : Dev nD) : Buf (Elt F) ((c : Thread nD τ).loc main_call0_v23) := (dat0 (fun c b => X1 m c b) c).arrAt 6 cfg0.N
/-- After region 0: only its result array has changed. -/
abbrev X2 (c : Dev nD) : Valuation τ sig (Elt F) := Function.update (X1 m c) main_call0_v23 (o2 m c)
/-- After the second host stretch: what region 1 is entered from. -/
abbrev X3 (c : Dev nD) : Valuation τ sig (Elt F) := StableHlo.after hostOps1 (X2 m c)
/-- What region 1 leaves in its result array `main_call0_v34`. -/
def o4 (c : Dev nD) : Buf (Elt F) ((c : Thread nD τ).loc main_call0_v34) := (dat1 (fun c b => X3 m c b) c).arrAt 6 cfg1.N
/-- After region 1: only its result array has changed. -/
abbrev X4 (c : Dev nD) : Valuation τ sig (Elt F) := Function.update (X3 m c) main_call0_v34 (o4 m c)
/-- After the third host stretch: what region 2 is entered from. -/
abbrev X5 (c : Dev nD) : Valuation τ sig (Elt F) := StableHlo.after hostOps2 (X4 m c)
/-- What region 2 leaves in its result array `main_call0_v45`. -/
def o6 (c : Dev nD) : Buf (Elt F) ((c : Thread nD τ).loc main_call0_v45) := (dat2 (fun c b => X5 m c b) c).arrAt 6 cfg2.N
/-- After region 2: only its result array has changed. -/
abbrev X6 (c : Dev nD) : Valuation τ sig (Elt F) := Function.update (X5 m c) main_call0_v45 (o6 m c)
/-- After the fourth host stretch: what region 3 is entered from. -/
abbrev X7 (c : Dev nD) : Valuation τ sig (Elt F) := StableHlo.after hostOps3 (X6 m c)
/-- What region 3 leaves in its result array `main_v0`, the program's result. -/
def o8 (c : Dev nD) : Buf (Elt F) ((c : Thread nD τ).loc main_v0) := (dat3 (fun c b => X7 m c b) c).arrAt 6 cfg3.N
/-- After region 3, at the return: only `main_v0` has changed. -/
abbrev X8 (c : Dev nD) : Valuation τ sig (Elt F) := Function.update (X7 m c) main_v0 (o8 m c)

namespace Run

/-! ## What each item leaves unchanged

A host stretch leaves every buffer none of its operations writes; a region leaves every buffer but its result array,
where it puts the fold. -/

theorem X1_of (c : Dev nD) (r : Ref sig .tc) (h : r ∉ hostOps0_W) : X1 m c r = X0 m c r :=
  StableHlo.after_of_writes_sub hostOps0 _ hostOps0_writes h
theorem X2_of (c : Dev nD) (r : Ref sig .tc) (h : r ≠ main_call0_v23) : X2 m c r = X1 m c r :=
  Function.update_of_ne (StableHlo.devRef_ne_of_ne h) _ _
theorem X2_self (c : Dev nD) : X2 m c main_call0_v23 = o2 m c := Function.update_self _ _ _
theorem X3_of (c : Dev nD) (r : Ref sig .tc) (h : r ∉ hostOps1_W) : X3 m c r = X2 m c r :=
  StableHlo.after_of_writes_sub hostOps1 _ hostOps1_writes h
theorem X4_of (c : Dev nD) (r : Ref sig .tc) (h : r ≠ main_call0_v34) : X4 m c r = X3 m c r :=
  Function.update_of_ne (StableHlo.devRef_ne_of_ne h) _ _
theorem X4_self (c : Dev nD) : X4 m c main_call0_v34 = o4 m c := Function.update_self _ _ _
theorem X5_of (c : Dev nD) (r : Ref sig .tc) (h : r ∉ hostOps2_W) : X5 m c r = X4 m c r :=
  StableHlo.after_of_writes_sub hostOps2 _ hostOps2_writes h
theorem X6_of (c : Dev nD) (r : Ref sig .tc) (h : r ≠ main_call0_v45) : X6 m c r = X5 m c r :=
  Function.update_of_ne (StableHlo.devRef_ne_of_ne h) _ _
theorem X6_self (c : Dev nD) : X6 m c main_call0_v45 = o6 m c := Function.update_self _ _ _
theorem X7_of (c : Dev nD) (r : Ref sig .tc) (h : r ∉ hostOps3_W) : X7 m c r = X6 m c r :=
  StableHlo.after_of_writes_sub hostOps3 _ hostOps3_writes h
theorem X8_of (c : Dev nD) (r : Ref sig .tc) (h : r ≠ main_v0) : X8 m c r = X7 m c r :=
  Function.update_of_ne (StableHlo.devRef_ne_of_ne h) _ _
theorem X8_self (c : Dev nD) : X8 m c main_v0 = o8 m c := Function.update_self _ _ _

/-- A buffer that no host stretch writes and that is no region's result array reaches the return as launched. -/
theorem X8_launch (c : Dev nD) (r : Ref sig .tc) (h0 : r ∉ hostOps0_W) (h1 : r ∉ hostOps1_W) (h2 : r ∉ hostOps2_W) (h3 : r ∉ hostOps3_W)
    (g0 : r ≠ main_call0_v23) (g1 : r ≠ main_call0_v34) (g2 : r ≠ main_call0_v45) (g3 : r ≠ main_v0) :
    X8 m c r = m ((c : Thread nD τ).loc r) :=
  (X8_of m c r g3).trans <| (X7_of m c r h3).trans <| (X6_of m c r g2).trans <| (X5_of m c r h2).trans <|
    (X4_of m c r g1).trans <| (X3_of m c r h1).trans <| (X2_of m c r g0).trans <| (X1_of m c r h0).trans rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (fun c b => X1 m c b) c
  | ⟨1, _⟩ => fun c => dat1 (fun c b => X3 m c b) c
  | ⟨2, _⟩ => fun c => dat2 (fun c b => X5 m c b) c
  | ⟨3, _⟩ => fun c => dat3 (fun c b => X7 m c b) c

/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along; it leaves them at
    `StableHlo.after` of its operations at `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at `X8`, the generator register at some state. -/
abbrev Tₙ (c : Dev nD) : sProp 𝕄 := iprop(StableHlo.held (c : Thread nD τ) (Pipeline.ucRefs τ sig) (X8 m c) ∗ ∃ r, prngReg c r)

/-! ## The regions as segments -/

/-- At region 0's exit each of its arrays holds what the pipeline leaves: an input window's array is never written,
    so it is as entered, which is `X2` there; the result's is the fold `X2` was given. -/
theorem hF0 (c : Dev nD) : ∀ w : Fin cfg0.W, (dat0 (fun c b => X1 m c b) c).arrAt w cfg0.N = X2 m c (Pipeline.arrRef spec0 w)
  | ⟨0, _⟩ => ((dat0 (fun c b => X1 m c b) c).arrAt_in 0 rfl _).trans ((A_eq0 (fun c b => X1 m c b) c 0).trans (X2_of m c (Pipeline.arrRef spec0 0) (by decide)).symm)
  | ⟨1, _⟩ => ((dat0 (fun c b => X1 m c b) c).arrAt_in 1 rfl _).trans ((A_eq0 (fun c b => X1 m c b) c 1).trans (X2_of m c (Pipeline.arrRef spec0 1) (by decide)).symm)
  | ⟨2, _⟩ => ((dat0 (fun c b => X1 m c b) c).arrAt_in 2 rfl _).trans ((A_eq0 (fun c b => X1 m c b) c 2).trans (X2_of m c (Pipeline.arrRef spec0 2) (by decide)).symm)
  | ⟨3, _⟩ => ((dat0 (fun c b => X1 m c b) c).arrAt_in 3 rfl _).trans ((A_eq0 (fun c b => X1 m c b) c 3).trans (X2_of m c (Pipeline.arrRef spec0 3) (by decide)).symm)
  | ⟨4, _⟩ => ((dat0 (fun c b => X1 m c b) c).arrAt_in 4 rfl _).trans ((A_eq0 (fun c b => X1 m c b) c 4).trans (X2_of m c (Pipeline.arrRef spec0 4) (by decide)).symm)
  | ⟨5, _⟩ => ((dat0 (fun c b => X1 m c b) c).arrAt_in 5 rfl _).trans ((A_eq0 (fun c b => X1 m c b) c 5).trans (X2_of m c (Pipeline.arrRef spec0 5) (by decide)).symm)
  | ⟨6, _⟩ => (X2_self m c).symm
  | ⟨_ + 7, h⟩ => absurd h (Nat.not_lt.2 (Nat.le_add_left _ _))
/-- Every buffer that is none of region 0's arrays is at its exit what it was at its entry. -/
theorem hrest0 (c : Dev nD) (b : Ref sig .tc) (hb : b ∉ Finset.univ.image (Pipeline.arrRef spec0)) : X2 m c b = X1 m c b :=
  X2_of m c b fun h => hb (h ▸ Finset.mem_image.mpr ⟨6, Finset.mem_univ _, rfl⟩)

/-- At region 1's exit each of its arrays holds what the pipeline leaves: an input window's array is never written,
    so it is as entered, which is `X4` there; the result's is the fold `X4` was given. -/
theorem hF1 (c : Dev nD) : ∀ w : Fin cfg1.W, (dat1 (fun c b => X3 m c b) c).arrAt w cfg1.N = X4 m c (Pipeline.arrRef spec1 w)
  | ⟨0, _⟩ => ((dat1 (fun c b => X3 m c b) c).arrAt_in 0 rfl _).trans ((A_eq1 (fun c b => X3 m c b) c 0).trans (X4_of m c (Pipeline.arrRef spec1 0) (by decide)).symm)
  | ⟨1, _⟩ => ((dat1 (fun c b => X3 m c b) c).arrAt_in 1 rfl _).trans ((A_eq1 (fun c b => X3 m c b) c 1).trans (X4_of m c (Pipeline.arrRef spec1 1) (by decide)).symm)
  | ⟨2, _⟩ => ((dat1 (fun c b => X3 m c b) c).arrAt_in 2 rfl _).trans ((A_eq1 (fun c b => X3 m c b) c 2).trans (X4_of m c (Pipeline.arrRef spec1 2) (by decide)).symm)
  | ⟨3, _⟩ => ((dat1 (fun c b => X3 m c b) c).arrAt_in 3 rfl _).trans ((A_eq1 (fun c b => X3 m c b) c 3).trans (X4_of m c (Pipeline.arrRef spec1 3) (by decide)).symm)
  | ⟨4, _⟩ => ((dat1 (fun c b => X3 m c b) c).arrAt_in 4 rfl _).trans ((A_eq1 (fun c b => X3 m c b) c 4).trans (X4_of m c (Pipeline.arrRef spec1 4) (by decide)).symm)
  | ⟨5, _⟩ => ((dat1 (fun c b => X3 m c b) c).arrAt_in 5 rfl _).trans ((A_eq1 (fun c b => X3 m c b) c 5).trans (X4_of m c (Pipeline.arrRef spec1 5) (by decide)).symm)
  | ⟨6, _⟩ => (X4_self m c).symm
  | ⟨_ + 7, h⟩ => absurd h (Nat.not_lt.2 (Nat.le_add_left _ _))
/-- Every buffer that is none of region 1's arrays is at its exit what it was at its entry. -/
theorem hrest1 (c : Dev nD) (b : Ref sig .tc) (hb : b ∉ Finset.univ.image (Pipeline.arrRef spec1)) : X4 m c b = X3 m c b :=
  X4_of m c b fun h => hb (h ▸ Finset.mem_image.mpr ⟨6, Finset.mem_univ _, rfl⟩)

set_option maxHeartbeats 1000000 in
/-- At region 2's exit each of its arrays holds what the pipeline leaves: an input window's array is never written,
    so it is as entered, which is `X6` there; the result's is the fold `X6` was given. -/
theorem hF2 (c : Dev nD) : ∀ w : Fin cfg2.W, (dat2 (fun c b => X5 m c b) c).arrAt w cfg2.N = X6 m c (Pipeline.arrRef spec2 w)
  | ⟨0, _⟩ => ((dat2 (fun c b => X5 m c b) c).arrAt_in 0 rfl _).trans ((A_eq2 (fun c b => X5 m c b) c 0).trans (X6_of m c (Pipeline.arrRef spec2 0) (by decide)).symm)
  | ⟨1, _⟩ => ((dat2 (fun c b => X5 m c b) c).arrAt_in 1 rfl _).trans ((A_eq2 (fun c b => X5 m c b) c 1).trans (X6_of m c (Pipeline.arrRef spec2 1) (by decide)).symm)
  | ⟨2, _⟩ => ((dat2 (fun c b => X5 m c b) c).arrAt_in 2 rfl _).trans ((A_eq2 (fun c b => X5 m c b) c 2).trans (X6_of m c (Pipeline.arrRef spec2 2) (by decide)).symm)
  | ⟨3, _⟩ => ((dat2 (fun c b => X5 m c b) c).arrAt_in 3 rfl _).trans ((A_eq2 (fun c b => X5 m c b) c 3).trans (X6_of m c (Pipeline.arrRef spec2 3) (by decide)).symm)
  | ⟨4, _⟩ => ((dat2 (fun c b => X5 m c b) c).arrAt_in 4 rfl _).trans ((A_eq2 (fun c b => X5 m c b) c 4).trans (X6_of m c (Pipeline.arrRef spec2 4) (by decide)).symm)
  | ⟨5, _⟩ => ((dat2 (fun c b => X5 m c b) c).arrAt_in 5 rfl _).trans ((A_eq2 (fun c b => X5 m c b) c 5).trans (X6_of m c (Pipeline.arrRef spec2 5) (by decide)).symm)
  | ⟨6, _⟩ => (X6_self m c).symm
  | ⟨_ + 7, h⟩ => absurd h (Nat.not_lt.2 (Nat.le_add_left _ _))
/-- Every buffer that is none of region 2's arrays is at its exit what it was at its entry. -/
theorem hrest2 (c : Dev nD) (b : Ref sig .tc) (hb : b ∉ Finset.univ.image (Pipeline.arrRef spec2)) : X6 m c b = X5 m c b :=
  X6_of m c b fun h => hb (h ▸ Finset.mem_image.mpr ⟨6, Finset.mem_univ _, rfl⟩)

set_option maxHeartbeats 1000000 in
/-- At region 3's exit each of its arrays holds what the pipeline leaves: an input window's array is never written,
    so it is as entered, which is `X8` there; the result's is the fold `X8` was given. -/
theorem hF3 (c : Dev nD) : ∀ w : Fin cfg3.W, (dat3 (fun c b => X7 m c b) c).arrAt w cfg3.N = X8 m c (Pipeline.arrRef spec3 w)
  | ⟨0, _⟩ => ((dat3 (fun c b => X7 m c b) c).arrAt_in 0 rfl _).trans ((A_eq3 (fun c b => X7 m c b) c 0).trans (X8_of m c (Pipeline.arrRef spec3 0) (by decide)).symm)
  | ⟨1, _⟩ => ((dat3 (fun c b => X7 m c b) c).arrAt_in 1 rfl _).trans ((A_eq3 (fun c b => X7 m c b) c 1).trans (X8_of m c (Pipeline.arrRef spec3 1) (by decide)).symm)
  | ⟨2, _⟩ => ((dat3 (fun c b => X7 m c b) c).arrAt_in 2 rfl _).trans ((A_eq3 (fun c b => X7 m c b) c 2).trans (X8_of m c (Pipeline.arrRef spec3 2) (by decide)).symm)
  | ⟨3, _⟩ => ((dat3 (fun c b => X7 m c b) c).arrAt_in 3 rfl _).trans ((A_eq3 (fun c b => X7 m c b) c 3).trans (X8_of m c (Pipeline.arrRef spec3 3) (by decide)).symm)
  | ⟨4, _⟩ => ((dat3 (fun c b => X7 m c b) c).arrAt_in 4 rfl _).trans ((A_eq3 (fun c b => X7 m c b) c 4).trans (X8_of m c (Pipeline.arrRef spec3 4) (by decide)).symm)
  | ⟨5, _⟩ => ((dat3 (fun c b => X7 m c b) c).arrAt_in 5 rfl _).trans ((A_eq3 (fun c b => X7 m c b) c 5).trans (X8_of m c (Pipeline.arrRef spec3 5) (by decide)).symm)
  | ⟨6, _⟩ => (X8_self m c).symm
  | ⟨_ + 7, h⟩ => absurd h (Nat.not_lt.2 (Nat.le_add_left _ _))
/-- Every buffer that is none of region 3's arrays is at its exit what it was at its entry. -/
theorem hrest3 (c : Dev nD) (b : Ref sig .tc) (hb : b ∉ Finset.univ.image (Pipeline.arrRef spec3)) : X8 m c b = X7 m c b :=
  X8_of m c b fun h => hb (h ▸ Finset.mem_image.mpr ⟨6, Finset.mem_univ _, rfl⟩)

set_option maxHeartbeats 1000000 in
set_option backward.isDefEq.respectTransparency.types false in
/-- Region 0 as a segment: entered from every unscoped buffer at `X1`, left at `X2`. Its seven arrays are split
    out of the unscoped buffers and put back at the exit contents: the six inputs as entered, the result at what the
    write-backs leave; the generator register passes through the invariant untouched; nothing is owed; the kernel has no
    semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => X1 m c b) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (fun b => X1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => X1 m c b) fun _ => rfl
    rw [Pipeline.unscopedBufs_held c (X1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => X1 m c b) (fun b => X2 m c b) ((pdats m 0 c).arrAt · cfg0.N)
      (hF0 m c) (hrest0 m c)
    rw [Pipeline.unscopedBufs_held c (X2 m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1000000 in
set_option backward.isDefEq.respectTransparency.types false in
/-- Region 1 as a segment: entered from every unscoped buffer at `X3`, left at `X4`. Its seven arrays are split
    out of the unscoped buffers and put back at the exit contents: the six inputs as entered, the result at what the
    write-backs leave; the generator register passes through the invariant untouched; nothing is owed; the kernel has no
    semaphore of its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (fun c b => X3 m c b) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (fun b => X3 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => X3 m c b) fun _ => rfl
    rw [Pipeline.unscopedBufs_held c (X3 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => X3 m c b) (fun b => X4 m c b) ((pdats m 1 c).arrAt · cfg1.N)
      (hF1 m c) (hrest1 m c)
    rw [Pipeline.unscopedBufs_held c (X4 m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1000000 in
set_option backward.isDefEq.respectTransparency.types false in
/-- Region 2 as a segment: entered from every unscoped buffer at `X5`, left at `X6`. Its seven arrays are split
    out of the unscoped buffers and put back at the exit contents: the six inputs as entered, the result at what the
    write-backs leave; the generator register passes through the invariant untouched; nothing is owed; the kernel has no
    semaphore of its own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (fun c b => X5 m c b) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (fun b => X5 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => X5 m c b) fun _ => rfl
    rw [Pipeline.unscopedBufs_held c (X5 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => X5 m c b) (fun b => X6 m c b) ((pdats m 2 c).arrAt · cfg2.N)
      (hF2 m c) (hrest2 m c)
    rw [Pipeline.unscopedBufs_held c (X6 m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1000000 in
set_option backward.isDefEq.respectTransparency.types false in
/-- Region 3 as a segment: entered from every unscoped buffer at `X7`, left at `X8` (what the end of the run reads).
    Its seven arrays are split out of the unscoped buffers and put back at the exit contents; the generator register and
    the scoped buffers no window stages go into the region's invariant (the pooled sums live there between grid points)
    and come back out of it; nothing is owed; the kernel has no semaphore of its own. -/
def reg3 : Pipeline.RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (fun c b => X7 m c b) c).loose
  hwaits := Pipeline.hwaits_of_owed_zero _ _ _ _ L lv 3 fun _ _ => rfl
  pre c := iprop(StableHlo.held (c : Thread nD τ) (Pipeline.ucRefs τ sig) (X7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (fun b => X7 m c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => X7 m c b) fun _ => rfl
    rw [Pipeline.unscopedBufs_held c (X7 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Φ3 (fun c b => X7 m c b) c 0 from rfl]
    iintro ⟨Hp, -, Hr⟩
    iapply (Φ3_in (fun c b => X7 m c b) c)
    isplitl [Hp]; · iexact Hp
    iexact Hr
  hout c := by
    rw [Pipeline.ownSems0_none, show (pdats m 3 c).Φ (Fin.last _) = Φ3 (fun c b => X7 m c b) c (Fin.last cfg3.N) from rfl]
    iintro H
    ihave H' := (Φ3_out (fun c b => X7 m c b) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => X7 m c b) (fun b => X8 m c b) ((pdats m 3 c).arrAt · cfg3.N)
      (hF3 m c) (hrest3 m c)
    rw [Pipeline.unscopedBufs_held c (X8 m c)] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight items in order: a host segment per stretch from the contents before it, a region per pallas_call. -/
abbrev items : List (Pipeline.Seg (pcfgs (F := F)) adm (pdats m) () defs₀ Variants.none L lv) :=
  [ .host (hseg hostOps0 hostOps0_sub hostOps0_fresh (X0 m)),
    .region (reg0 m),
    .host (hseg hostOps1 hostOps1_sub hostOps1_fresh (X2 m)),
    .region (reg1 m),
    .host (hseg hostOps2 hostOps2_sub hostOps2_fresh (X4 m)),
    .region (reg2 m),
    .host (hseg hostOps3 hostOps3_sub hostOps3_fresh (X6 m)),
    .region (reg3 m) ]

end Run

open Run

set_option maxHeartbeats 1000000 in
set_option backward.isDefEq.respectTransparency.types false in
/-- THE RUN'S VALUE. From any memory `m` with zero counters and any generator registers, every weakly fair execution of
    @main on the TensorCores terminates, and in every final memory `main_v0` holds `o8` — region 3's fold over the
    contents the three earlier regions and the four host stretches built from `m` — and each of the sixteen arguments
    holds what it held at launch. The items chain: each is entered from exactly what the one before it left. -/
theorem run_value (ρ : Dev nD → PrngReg) : θ_run defs (onTc (τ := τ) (main (F := F))) ⟨m, fun _ => 0, ρ⟩ (fun r => ∀ c : Dev nD,
      r.2.mem ((c.tc : Thread nD τ).loc main_v0) = o8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine Pipeline.θ_run_regions_kit_dev (pcfgs (F := F)) adm (pdats m) () cellOf_inj emb₁ defs₀ Variants.none L lv m ρ main
    (fun _ => items m)
    (fun c Q => by
      rewrite [main_chain c, Pipeline.Seg.run_eq_chain,
        show (items m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (X0 m c) ∗ R c)) (Tₙ := Tₙ m)
    (hch := fun c => ⟨.rfl, .rfl, .rfl, .rfl, .rfl, .rfl, .rfl, .rfl, .rfl⟩)
    (hinit := ?_)
    (QY := fun c s => s.mem ((c.tc : Thread nD τ).loc main_v0) = o8 m c
        ∧ s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_arg2) = m ((c.tc : Thread nD τ).loc main_arg2)
        ∧ s.mem ((c.tc : Thread nD τ).loc main_arg3) = m ((c.tc : Thread nD τ).loc main_arg3)
        ∧ s.mem ((c.tc : Thread nD τ).loc main_arg4) = m ((c.tc : Thread nD τ).loc main_arg4)
        ∧ s.mem ((c.tc : Thread nD τ).loc main_arg5) = m ((c.tc : Thread nD τ).loc main_arg5)
        ∧ s.mem ((c.tc : Thread nD τ).loc main_arg6) = m ((c.tc : Thread nD τ).loc main_arg6)
        ∧ s.mem ((c.tc : Thread nD τ).loc main_arg7) = m ((c.tc : Thread nD τ).loc main_arg7)
        ∧ s.mem ((c.tc : Thread nD τ).loc main_arg8) = m ((c.tc : Thread nD τ).loc main_arg8)
        ∧ s.mem ((c.tc : Thread nD τ).loc main_arg9) = m ((c.tc : Thread nD τ).loc main_arg9)
        ∧ s.mem ((c.tc : Thread nD τ).loc main_arg10) = m ((c.tc : Thread nD τ).loc main_arg10)
        ∧ s.mem ((c.tc : Thread nD τ).loc main_arg11) = m ((c.tc : Thread nD τ).loc main_arg11)
        ∧ s.mem ((c.tc : Thread nD τ).loc main_arg12) = m ((c.tc : Thread nD τ).loc main_arg12)
        ∧ s.mem ((c.tc : Thread nD τ).loc main_arg13) = m ((c.tc : Thread nD τ).loc main_arg13)
        ∧ s.mem ((c.tc : Thread nD τ).loc main_arg14) = m ((c.tc : Thread nD τ).loc main_arg14)
        ∧ s.mem ((c.tc : Thread nD τ).loc main_arg15) = m ((c.tc : Thread nD τ).loc main_arg15))
    (hfin := fun c s' => ?_) (hQ := fun _ h => h)
  · -- the launch element is the pipelines' own; no other ghost resource is dealt
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: each core's unscoped buffers are held at `X0`, its register at the launch state, nothing owed
    refine Pipeline.initEach L lv fun c => ?_
    rw [show unscopedBufs c (fun b => m ((c : Thread nD τ).loc b)) = StableHlo.held (c : Thread nD τ) (Pipeline.ucRefs τ sig) (X0 m c)
      from Pipeline.unscopedBufs_held c (X0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation; `main_v0` is where region 3 put its fold, an argument
    -- is where no item wrote
    iintro ⟨⟨Hh, -⟩, HSI⟩
    unfold StableHlo.held
    ihave Hr := (pointsTo_read_all (Pipeline.ucRefs τ sig) (fun b => ((c : Thread nD τ).1, b)) (X8 m c) s') $$ [Hh HSI]
    · isplitl [Hh] <;> iassumption
    icases Hr with ⟨%h, HSI⟩
    imodintro
    isplitr
    · ipureintro
      exact ⟨(h (Proc.devRef .tc main_v0) (Finset.mem_filter.mpr ⟨StableHlo.devRef_mem_tcRefs main_v0, by decide⟩)).trans (X8_self m c),
        (h (Proc.devRef .tc main_arg0) (Finset.mem_filter.mpr ⟨StableHlo.devRef_mem_tcRefs main_arg0, by decide⟩)).trans
          (X8_launch m c main_arg0 (by decide) (by decide) (by decide) (by decide) (by decide) (by decide) (by decide) (by decide)),
        (h (Proc.devRef .tc main_arg1) (Finset.mem_filter.mpr ⟨StableHlo.devRef_mem_tcRefs main_arg1, by decide⟩)).trans
          (X8_launch m c main_arg1 (by decide) (by decide) (by decide) (by decide) (by decide) (by decide) (by decide) (by decide)),
        (h (Proc.devRef .tc main_arg2) (Finset.mem_filter.mpr ⟨StableHlo.devRef_mem_tcRefs main_arg2, by decide⟩)).trans
          (X8_launch m c main_arg2 (by decide) (by decide) (by decide) (by decide) (by decide) (by decide) (by decide) (by decide)),
        (h (Proc.devRef .tc main_arg3) (Finset.mem_filter.mpr ⟨StableHlo.devRef_mem_tcRefs main_arg3, by decide⟩)).trans
          (X8_launch m c main_arg3 (by decide) (by decide) (by decide) (by decide) (by decide) (by decide) (by decide) (by decide)),
        (h (Proc.devRef .tc main_arg4) (Finset.mem_filter.mpr ⟨StableHlo.devRef_mem_tcRefs main_arg4, by decide⟩)).trans
          (X8_launch m c main_arg4 (by decide) (by decide) (by decide) (by decide) (by decide) (by decide) (by decide) (by decide)),
        (h (Proc.devRef .tc main_arg5) (Finset.mem_filter.mpr ⟨StableHlo.devRef_mem_tcRefs main_arg5, by decide⟩)).trans
          (X8_launch m c main_arg5 (by decide) (by decide) (by decide) (by decide) (by decide) (by decide) (by decide) (by decide)),
        (h (Proc.devRef .tc main_arg6) (Finset.mem_filter.mpr ⟨StableHlo.devRef_mem_tcRefs main_arg6, by decide⟩)).trans
          (X8_launch m c main_arg6 (by decide) (by decide) (by decide) (by decide) (by decide) (by decide) (by decide) (by decide)),
        (h (Proc.devRef .tc main_arg7) (Finset.mem_filter.mpr ⟨StableHlo.devRef_mem_tcRefs main_arg7, by decide⟩)).trans
          (X8_launch m c main_arg7 (by decide) (by decide) (by decide) (by decide) (by decide) (by decide) (by decide) (by decide)),
        (h (Proc.devRef .tc main_arg8) (Finset.mem_filter.mpr ⟨StableHlo.devRef_mem_tcRefs main_arg8, by decide⟩)).trans
          (X8_launch m c main_arg8 (by decide) (by decide) (by decide) (by decide) (by decide) (by decide) (by decide) (by decide)),
        (h (Proc.devRef .tc main_arg9) (Finset.mem_filter.mpr ⟨StableHlo.devRef_mem_tcRefs main_arg9, by decide⟩)).trans
          (X8_launch m c main_arg9 (by decide) (by decide) (by decide) (by decide) (by decide) (by decide) (by decide) (by decide)),
        (h (Proc.devRef .tc main_arg10) (Finset.mem_filter.mpr ⟨StableHlo.devRef_mem_tcRefs main_arg10, by decide⟩)).trans
          (X8_launch m c main_arg10 (by decide) (by decide) (by decide) (by decide) (by decide) (by decide) (by decide) (by decide)),
        (h (Proc.devRef .tc main_arg11) (Finset.mem_filter.mpr ⟨StableHlo.devRef_mem_tcRefs main_arg11, by decide⟩)).trans
          (X8_launch m c main_arg11 (by decide) (by decide) (by decide) (by decide) (by decide) (by decide) (by decide) (by decide)),
        (h (Proc.devRef .tc main_arg12) (Finset.mem_filter.mpr ⟨StableHlo.devRef_mem_tcRefs main_arg12, by decide⟩)).trans
          (X8_launch m c main_arg12 (by decide) (by decide) (by decide) (by decide) (by decide) (by decide) (by decide) (by decide)),
        (h (Proc.devRef .tc main_arg13) (Finset.mem_filter.mpr ⟨StableHlo.devRef_mem_tcRefs main_arg13, by decide⟩)).trans
          (X8_launch m c main_arg13 (by decide) (by decide) (by decide) (by decide) (by decide) (by decide) (by decide) (by decide)),
        (h (Proc.devRef .tc main_arg14) (Finset.mem_filter.mpr ⟨StableHlo.devRef_mem_tcRefs main_arg14, by decide⟩)).trans
          (X8_launch m c main_arg14 (by decide) (by decide) (by decide) (by decide) (by decide) (by decide) (by decide) (by decide)),
        (h (Proc.devRef .tc main_arg15) (Finset.mem_filter.mpr ⟨StableHlo.devRef_mem_tcRefs main_arg15, by decide⟩)).trans
          (X8_launch m c main_arg15 (by decide) (by decide) (by decide) (by decide) (by decide) (by decide) (by decide) (by decide))⟩
    · iexact HSI

/-- THE FRAME: the run's value without its first conjunct — every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run_value m ρ)

end Cert.KernelIdeal.Body

end
-- ==== Proof.RefRun.lean ====
import proofs.«426697_j79577154060299_2_alg».proof.Proof.Gen.ReferenceIdeal.Run
import proofs.«426697_j79577154060299_2_alg».proof.Proof.Gen.ReferenceIdeal.Read

/-! The reference program's run and its stages read at an index (both generated) are brought in here; the
    module that identifies the reference's result with the specification imports this one. -/
-- ==== Proof.Spec.lean ====
/-
  The mathematics both programs compute, entry by entry, over the extended reals.

  A SAGE layer's entry at node n and output feature f: with s the sum of the neighbours' features, c the number of
  neighbours, the mean aggregate is s / max(c, 1); the layer is relu(mean · Wl + bl + x · Wr). The kernel multiplies by the
  reciprocal inv = 1 / max(c, 1) and adds the bias last; the reference divides and adds the bias in the middle. On the
  extended reals both are the same number: max(c, 1) is never zero, so dividing by it is multiplying by its inverse, and
  addition is commutative and associative (no distributivity is used, so no finiteness is needed).

  Pooling: the pooled feature of graph g is the sum, over the nodes whose graph number is g, of the node's feature.
  The decode: layer normalisation of a pooled row (mean and variance as sums divided by 128, the reciprocal square root
  of the variance plus epsilon, scale and shift), then a linear map.
-/
import Idealize.ShloMosaic.PureOps.Ideal
import Idealize.ShloMosaic.PureOps.Ideal.Laws

noncomputable section

namespace Sage.Spec

open Idealize.ShloMosaic

/-- One entry of a layer as the kernel arranges it: s, x a row of the sums and of the features, wl, wr a column of the
    two weight matrices, b the bias entry, inv the node's reciprocal neighbour count. -/
def layerK {K : ℕ} (s x wl wr : Fin K → EReal) (b inv : EReal) : EReal :=
  max (((∑ k, (s k * inv) * wl k) + ∑ k, x k * wr k) + b) 0

/-- The same entry as the reference arranges it, from the neighbour count `cnt`. -/
def layerR {K : ℕ} (s x wl wr : Fin K → EReal) (b cnt : EReal) : EReal :=
  max (((∑ k, Ideal.div (s k) (max cnt 1) * wl k) + b) + ∑ k, x k * wr k) 0

/-- The reciprocal the kernel's host code computes: 1 / max(cnt, 1). -/
def invOf (cnt : EReal) : EReal := Ideal.div 1 (max cnt 1)

theorem max_one_ne_zero (cnt : EReal) : max cnt 1 ≠ 0 :=
  ne_of_gt (lt_of_lt_of_le zero_lt_one (le_max_right cnt 1))

/-- The two arrangements agree. -/
theorem layerK_eq_layerR {K : ℕ} (s x wl wr : Fin K → EReal) (b cnt : EReal) :
    layerK s x wl wr b (invOf cnt) = layerR s x wl wr b cnt := by
  unfold layerK layerR invOf
  have hc := max_one_ne_zero cnt
  have hdiv : ∀ k, s k * Ideal.div 1 (max cnt 1) = Ideal.div (s k) (max cnt 1) := fun k => by
    unfold Ideal.div; rw [if_neg hc, if_neg hc, one_mul]
  simp only [hdiv]
  rw [add_right_comm]

/-- The pooled feature of graph `g`: the sum of `h e` over the nodes `e` whose graph word, read signed, is `g`. -/
def pooled {N : ℕ} (word : Fin N → BitVec 32) (h : Fin N → EReal) (g : ℕ) : EReal :=
  ∑ e, if (word e).toInt = (g : ℤ) then h e else 0

/-- The mean of a row of 128 entries: their sum divided by the float 128. -/
def mean128 (v : Fin 128 → EReal) : EReal := Ideal.div (∑ k, v k) (Ideal.ofBits .f32 0x43000000#32)

/-- One entry of the decode: `g` a pooled row, `lg`, `lb` the scale and the shift, `wd` a column of the last weight
    matrix, `bd` its bias entry. -/
def decode (g lg lb wd : Fin 128 → EReal) (bd : EReal) : EReal :=
  (∑ k, (((g k - mean128 g) * Ideal.rsqrt (mean128 (fun j => (g j - mean128 g) * (g j - mean128 g)) + Ideal.ofBits .f32 0x3727C5AC#32)) * lg k + lb k) * wd k) + bd

end Sage.Spec

end
-- ==== Proof.KI.ValLayer0.lean ====
import proofs.«426697_j79577154060299_2_alg».proof.Proof.KI.Reg0
import proofs.«426697_j79577154060299_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open Idealize.ShloMosaic.TcCoe Idealize.SL.Sem
open Idealize.ShloMosaic.Pipeline (Dat)

/-! # What the region leaves in its result array, entry by entry

## The contraction of a block of rows with a weight matrix -/

/-- The left operand's row coordinate at a contraction index is the output's row. -/
theorem layer0_lhs_0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
/-- The left operand's column coordinate is the contraction index. -/
theorem layer0_lhs_1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
/-- The right operand's row coordinate is the contraction index. -/
theorem layer0_rhs_0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
/-- The right operand's column coordinate is the output's column. -/
theorem layer0_rhs_1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The contraction index of the block's product is its one coordinate. -/
abbrev layer0_contr : dot_S4000x64_S64x128_S4000x128_1_0_0_1_n_n.contr.Idx ≃ Fin 64 :=
  contrEquiv1 dot_S4000x64_S64x128_S4000x128_1_0_0_1_n_n _ rfl rfl

/-- A block of rows times a weight matrix, into the zero accumulator, at row `r` and column `f`: the sum over the
    contracted axis of the row's entries times the column's. -/
theorem layer0_matmul (l : FVec Ideal S4000x64 .bf16) (w : FVec Ideal S64x128 .bf16) (r : Fin 4000) (f : Fin 128) :
    matmul dot_S4000x64_S64x128_S4000x128_1_0_0_1_n_n none l w (constant (F := Ideal) S4000x128 .f32 0x00000000#32) (ix2 r f)
      = ∑ k : Fin 64, l (ix2 r k) * w (ix2 k f) := by
  refine (Ideal.matmul_constant_zero_apply dot_S4000x64_S64x128_S4000x128_1_0_0_1_n_n none l w (ix2 r f)).trans ?_
  rw [← Equiv.sum_comp layer0_contr.symm]
  refine Finset.sum_congr rfl fun k _ => ?_
  have hk : ((layer0_contr.symm k) ⟨0, by decide⟩ : ℕ) = k.val := contrEquiv1_symm_val dot_S4000x64_S64x128_S4000x128_1_0_0_1_n_n _ rfl rfl k
  have el : dot_S4000x64_S64x128_S4000x128_1_0_0_1_n_n.lhsIdx (ix2 r f) (layer0_contr.symm k) = ix2 r k := funext fun a => Fin.ext (by
    match a with
    | ⟨0, _⟩ => exact layer0_lhs_0 _ _
    | ⟨1, _⟩ => exact (layer0_lhs_1 _ _).trans hk)
  have er : dot_S4000x64_S64x128_S4000x128_1_0_0_1_n_n.rhsIdx (ix2 r f) (layer0_contr.symm k) = ix2 k f := funext fun a => Fin.ext (by
    match a with
    | ⟨0, _⟩ => exact (layer0_rhs_0 _ _).trans hk
    | ⟨1, _⟩ => exact layer0_rhs_1 _ _)
  rw [el, er]

/-! ## The payload at an index -/

/-- The neighbour sums scaled by the reciprocal count, at row `r` and column `k`: the column vector of reciprocals is
    broadcast along the rows. -/
theorem layer0_scaled (v0 : Vec Ideal S4000x1 .f32) (v2 : Vec Ideal S4000x64 .f32) (r : Fin 4000) (k : Fin 64) :
    v2 (ix2 r k) * broadcastTo S4000x64 v0 broadcasts_S4000x1_S4000x64 (ix2 r k) = v2 (ix2 r k) * v0 (ix2 r (0 : Fin 1)) :=
  congrArg (v2 (ix2 r k) * ·) (broadcastTo_apply v0 broadcasts_S4000x1_S4000x64 (ix2 r k) (ix2 r (0 : Fin 1)) (fun a => match a with
    | ⟨0, _⟩ => by show r.val = if (4000 : Nat) = 1 then 0 else r.val; rw [if_neg (by decide)]
    | ⟨1, _⟩ => by show 0 = if (1 : Nat) = 1 then 0 else k.val; rw [if_pos rfl]))

/-- The bias row broadcast down the block, at row `r` and column `f`. -/
theorem layer0_bias (v13 : Vec Ideal S128 .f32) (r : Fin 4000) (f : Fin 128) :
    broadcastTo S4000x128 (shapeCast S1x128 v13 shapeCasts_S128_S1x128) broadcasts_S1x128_S4000x128 (ix2 r f) = v13 (ix1 f) := by
  refine (broadcastTo_apply _ broadcasts_S1x128_S4000x128 (ix2 r f) (ix2 (0 : Fin 1) f) (fun a => match a with
    | ⟨0, _⟩ => by show 0 = if (1 : Nat) = 1 then 0 else r.val; rw [if_pos rfl]
    | ⟨1, _⟩ => by show f.val = if (128 : Nat) = 1 then 0 else f.val; rw [if_neg (by decide)])).trans ?_
  exact shapeCast_apply v13 shapeCasts_S128_S1x128 (ix2 (0 : Fin 1) f) (ix1 f)
    (by rewrite [Shape.rowMajor_val_two, Shape.rowMajor_val_one]; show f.val = 0 * 128 + f.val; omega)

/-- THE PAYLOAD AT AN INDEX: the body's stored value at row `r` and column `f` of the block is the layer's entry from
    the row of sums, the row of features, the two weight columns, the bias entry and the row's reciprocal count. -/
theorem layer0_block (v0 : Vec Ideal S4000x1 .f32) (v2 v7 : Vec Ideal S4000x64 .f32) (v9 v11 : Vec Ideal S64x128 .f32)
    (v13 : Vec Ideal S128 .f32) (r : Fin 4000) (f : Fin 128) :
    k0_pay1 v0 v2 v7 v9 v11 v13 (ix2 r f)
      = Sage.Spec.layerK (fun k : Fin 64 => v2 (ix2 r k)) (fun k : Fin 64 => v7 (ix2 r k)) (fun k : Fin 64 => v9 (ix2 k f))
          (fun k : Fin 64 => v11 (ix2 k f)) (v13 (ix1 f)) (v0 (ix2 r (0 : Fin 1))) := by
  unfold k0_pay1 Sage.Spec.layerK
  simp only [shapeCast_self]
  show max ((matmul dot_S4000x64_S64x128_S4000x128_1_0_0_1_n_n none _ _ _ (ix2 r f)
      + matmul dot_S4000x64_S64x128_S4000x128_1_0_0_1_n_n none _ _ _ (ix2 r f))
      + broadcastTo S4000x128 _ _ (ix2 r f)) (Ideal.ofBits .f32 0x00000000#32) = _
  rw [layer0_matmul, layer0_matmul, layer0_bias, Ideal.ofBits_zero_f32]
  refine congrArg (max · 0) (congrArg (· + v13 (ix1 f)) (congrArg₂ (· + ·) (Finset.sum_congr rfl fun k _ => ?_) rfl))
  exact congrArg (· * v9 (ix2 k f)) (layer0_scaled v0 v2 r k)

/-! ## From blocks to the array -/

/-- A layer's entry depends on its six arguments only through their values. -/
theorem layer0_congr {K : ℕ} {s s' x x' wl wl' wr wr' : Fin K → EReal} {b b' inv inv' : EReal}
    (hs : ∀ k, s k = s' k) (hx : ∀ k, x k = x' k) (hwl : ∀ k, wl k = wl' k) (hwr : ∀ k, wr k = wr' k) (hb : b = b') (hinv : inv = inv') :
    Sage.Spec.layerK s x wl wr b inv = Sage.Spec.layerK s' x' wl' wr' b' inv' := by
  rw [funext hs, funext hx, funext hwl, funext hwr, hb, hinv]

variable (V : (c : Dev nD) → (b : Ref sig .tc) → Buf (Elt Ideal) ((c : Thread nD τ).loc b))

/-- The layer's entry at node `n` and feature `f`, from the arrays as the region finds them. -/
def layer0_at (c : Dev nD) (n : Fin 100000) (f : Fin 128) : EReal :=
  Sage.Spec.layerK (fun k : Fin 64 => V c (Pipeline.arrRef spec0 0) (ix2 n k)) (fun k : Fin 64 => V c (Pipeline.arrRef spec0 1) (ix2 n k))
    (fun k : Fin 64 => V c (Pipeline.arrRef spec0 2) (ix2 k f)) (fun k : Fin 64 => V c (Pipeline.arrRef spec0 4) (ix2 k f))
    (V c (Pipeline.arrRef spec0 3) (ix1 f)) (V c (Pipeline.arrRef spec0 5) (ix2 n (0 : Fin 1)))

/-- The whole result array as one function of its index. -/
def layer0_arr (c : Dev nD) : S100000x128.Idx → EReal := fun i => layer0_at V c (i 0) (i 1)

theorem layer0_off2 : (![0, 0] : Fin 2 → Nat) = fun _ => 0 := funext fun a => by fin_cases a <;> rfl
theorem layer0_off1 : (![0] : Fin 1 → Nat) = fun _ => 0 := funext fun a => by fin_cases a; rfl

/-- The index maps, decided once over the grid: at point `t` the row windows are at block `t` of their arrays, the
    weights and the bias at their one block. -/
theorem layer0_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem layer0_points : cfg0.N = 25 := rfl

/-- Row `r` of the block of neighbour sums at point `t` is row `4000 t + r` of the array. -/
theorem layer0_rows_0 (c : Dev nD) (t : Fin cfg0.N) (r : Fin 4000) (k : Fin 64) (n : Fin 100000) (hn : n.val = t.val * 4000 + r.val) :
    iblk0 V c 0 t (ix2 r k) = V c (Pipeline.arrRef spec0 0) (ix2 n k) := by
  obtain ⟨e0, e1, -⟩ := layer0_index t
  show V c (Pipeline.arrRef spec0 0) (((cfg0.win 0).blk t).view.emb (ix2 r k)) = _
  refine congrArg _ (funext fun a => Fin.ext ?_)
  match a with
  | ⟨0, _⟩ => show win0_0.index t (0 : Fin 2) * 4000 + 1 * r.val = n.val; rw [e0, hn]; omega
  | ⟨1, _⟩ => show win0_0.index t (1 : Fin 2) * _ + 1 * k.val = k.val; rw [e1, Nat.zero_mul, Nat.zero_add, Nat.one_mul]

/-- Row `r` of the block of features at point `t` is row `4000 t + r` of the array. -/
theorem layer0_rows_1 (c : Dev nD) (t : Fin cfg0.N) (r : Fin 4000) (k : Fin 64) (n : Fin 100000) (hn : n.val = t.val * 4000 + r.val) :
    iblk0 V c 1 t (ix2 r k) = V c (Pipeline.arrRef spec0 1) (ix2 n k) := by
  obtain ⟨-, -, e0, e1, -⟩ := layer0_index t
  show V c (Pipeline.arrRef spec0 1) (((cfg0.win 1).blk t).view.emb (ix2 r k)) = _
  refine congrArg _ (funext fun a => Fin.ext ?_)
  match a with
  | ⟨0, _⟩ => show win0_1.index t (0 : Fin 2) * 4000 + 1 * r.val = n.val; rw [e0, hn]; omega
  | ⟨1, _⟩ => show win0_1.index t (1 : Fin 2) * _ + 1 * k.val = k.val; rw [e1, Nat.zero_mul, Nat.zero_add, Nat.one_mul]

/-- Row `r` of the block of reciprocal counts at point `t` is row `4000 t + r` of the array. -/
theorem layer0_rows_5 (c : Dev nD) (t : Fin cfg0.N) (r : Fin 4000) (n : Fin 100000) (hn : n.val = t.val * 4000 + r.val) :
    iblk0 V c 5 t (ix2 r (0 : Fin 1)) = V c (Pipeline.arrRef spec0 5) (ix2 n (0 : Fin 1)) := by
  obtain ⟨-, -, -, -, -, -, -, -, -, e0, e1, -⟩ := layer0_index t
  show V c (Pipeline.arrRef spec0 5) (((cfg0.win 5).blk t).view.emb (ix2 r (0 : Fin 1))) = _
  refine congrArg _ (funext fun a => Fin.ext ?_)
  match a with
  | ⟨0, _⟩ => show win0_5.index t (0 : Fin 2) * 4000 + 1 * r.val = n.val; rw [e0, hn]; omega
  | ⟨1, _⟩ => show win0_5.index t (1 : Fin 2) * 1 + 1 * 0 = 0; rw [e1]

/-- The block of the first weight matrix is the whole matrix at every point. -/
theorem layer0_whole_2 (c : Dev nD) (t : Fin cfg0.N) (k : Fin 64) (f : Fin 128) :
    iblk0 V c 2 t (ix2 k f) = V c (Pipeline.arrRef spec0 2) (ix2 k f) := by
  obtain ⟨-, -, -, -, e0, e1, -⟩ := layer0_index t
  show V c (Pipeline.arrRef spec0 2) (((cfg0.win 2).blk t).view.emb (ix2 k f)) = _
  refine congrArg _ (funext fun a => Fin.ext ?_)
  match a with
  | ⟨0, _⟩ => show win0_2.index t (0 : Fin 2) * _ + 1 * k.val = k.val; rw [e0, Nat.zero_mul, Nat.zero_add, Nat.one_mul]
  | ⟨1, _⟩ => show win0_2.index t (1 : Fin 2) * _ + 1 * f.val = f.val; rw [e1, Nat.zero_mul, Nat.zero_add, Nat.one_mul]

/-- The block of the bias is the whole bias at every point. -/
theorem layer0_whole_3 (c : Dev nD) (t : Fin cfg0.N) (f : Fin 128) :
    iblk0 V c 3 t (ix1 f) = V c (Pipeline.arrRef spec0 3) (ix1 f) := by
  obtain ⟨-, -, -, -, -, -, e0, -⟩ := layer0_index t
  show V c (Pipeline.arrRef spec0 3) (((cfg0.win 3).blk t).view.emb (ix1 f)) = _
  refine congrArg _ (funext fun a => Fin.ext ?_)
  match a with
  | ⟨0, _⟩ => show win0_3.index t (0 : Fin 1) * _ + 1 * f.val = f.val; rw [e0, Nat.zero_mul, Nat.zero_add, Nat.one_mul]

/-- The block of the second weight matrix is the whole matrix at every point. -/
theorem layer0_whole_4 (c : Dev nD) (t : Fin cfg0.N) (k : Fin 64) (f : Fin 128) :
    iblk0 V c 4 t (ix2 k f) = V c (Pipeline.arrRef spec0 4) (ix2 k f) := by
  obtain ⟨-, -, -, -, -, -, -, e0, e1, -⟩ := layer0_index t
  show V c (Pipeline.arrRef spec0 4) (((cfg0.win 4).blk t).view.emb (ix2 k f)) = _
  refine congrArg _ (funext fun a => Fin.ext ?_)
  match a with
  | ⟨0, _⟩ => show win0_4.index t (0 : Fin 2) * _ + 1 * k.val = k.val; rw [e0, Nat.zero_mul, Nat.zero_add, Nat.one_mul]
  | ⟨1, _⟩ => show win0_4.index t (1 : Fin 2) * _ + 1 * f.val = f.val; rw [e1, Nat.zero_mul, Nat.zero_add, Nat.one_mul]

/-- WHAT POINT `t` WRITES BACK is block `t` of the layer's array. -/
theorem layer0_flushed (c : Dev nD) (t : Fin cfg0.N) :
    (dat0 (F := Ideal) V c).flushed 6 t = ((cfg0.win 6).blk t).view.read (Elt Ideal) (layer0_arr V c) := by
  show (cfg0.win 6).cut (grid0.coords t) ((dat0 V c).after 6 t) = _
  rw [after0_6]
  unfold out0_6
  rw [View.canon_unit_zero layer0_off2]
  simp only [View.ld_unit_zero (S := S4000x1) layer0_off2, View.ld_unit_zero (S := S4000x64) layer0_off2,
    View.ld_unit_zero (S := S64x128) layer0_off2, View.ld_unit_zero (S := S128) layer0_off1]
  funext y
  obtain ⟨r, f, rfl⟩ : ∃ (r : Fin 4000) (f : Fin 128), y = ix2 r f := ⟨y 0, y 1, eq_ix2 y⟩
  obtain ⟨-, -, -, -, -, -, -, -, -, -, -, e0, e1⟩ := layer0_index t
  have ht : t.val < 25 := t.isLt
  have hpos : ((cfg0.win 6).blk t).view.emb (ix2 r f) = (ix2 (⟨t.val * 4000 + r.val, by omega⟩ : Fin 100000) f : S100000x128.Idx) := by
    funext a; apply Fin.ext
    match a with
    | ⟨0, _⟩ => show win0_6.index t (0 : Fin 2) * 4000 + 1 * r.val = t.val * 4000 + r.val; rw [e0]; omega
    | ⟨1, _⟩ => show win0_6.index t (1 : Fin 2) * 128 + 1 * f.val = f.val; rw [e1]; omega
  show k0_pay1 (iblk0 V c 5 t) (iblk0 V c 0 t) (iblk0 V c 1 t) (iblk0 V c 2 t) (iblk0 V c 4 t) (iblk0 V c 3 t) (ix2 r f)
      = layer0_arr V c (((cfg0.win 6).blk t).view.emb (ix2 r f))
  rw [hpos]
  refine (layer0_block (iblk0 V c 5 t) (iblk0 V c 0 t) (iblk0 V c 1 t) (iblk0 V c 2 t) (iblk0 V c 4 t) (iblk0 V c 3 t) r f).trans ?_
  show _ = layer0_at V c (⟨t.val * 4000 + r.val, by omega⟩ : Fin 100000) f
  unfold layer0_at
  exact layer0_congr (fun k => layer0_rows_0 V c t r k _ rfl) (fun k => layer0_rows_1 V c t r k _ rfl)
    (fun k => layer0_whole_2 V c t k f) (fun k => layer0_whole_4 V c t k f) (layer0_whole_3 V c t f) (layer0_rows_5 V c t r _ rfl)

/-- An index of the result array is in point `t`'s block iff each coordinate is in the block's range on its axis. -/
theorem layer0_mem_blk (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole (Pipeline.arrRef spec0 6)).slice (win0_6.rect t)).set ↔ _
  rw [View.set_slice_whole, Rect.mem_set_unit]
  exact Iff.rfl

/-- THE COVER: row `n` of the result array is in the block of point `n / 4000`. -/
theorem layer0_covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hq : (i 0).val / 4000 < cfg0.N := by rw [layer0_points]; omega
  obtain ⟨-, -, -, -, -, -, -, -, -, -, -, e0, e1⟩ := layer0_index ⟨(i 0).val / 4000, hq⟩
  refine ⟨⟨(i 0).val / 4000, hq⟩, flush0_6 _, ?_⟩
  rw [layer0_mem_blk]
  intro a
  match a with
  | ⟨0, _⟩ =>
    show win0_6.index ⟨(i 0).val / 4000, hq⟩ (0 : Fin 2) * 4000 ≤ (i 0).val ∧ (i 0).val < win0_6.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win0_6.index ⟨(i 0).val / 4000, hq⟩ (1 : Fin 2) * 128 ≤ (i 1).val ∧ (i 1).val < win0_6.index ⟨(i 0).val / 4000, hq⟩ (1 : Fin 2) * 128 + 128
    rw [e1]; omega

/-- THE RESULT ARRAY after the region: the layer's array. -/
theorem layer0_array (c : Dev nD) : (dat0 (F := Ideal) V c).arrAt 6 cfg0.N = layer0_arr V c :=
  (dat0 (F := Ideal) V c).arrAt_eq_of_cover 6 (layer0_arr V c) (fun t _ => layer0_flushed V c t) layer0_covered

/-- WHAT THE REGION LEAVES IN ITS RESULT ARRAY, entry by entry: at node `n` and feature `f` the layer's entry from row `n`
    of the neighbour sums and of the features, column `f` of the two weight matrices, the bias entry `f` and node `n`'s
    reciprocal neighbour count, all as the region finds them. -/
theorem layer0_entry (c : Dev nD) (n : Fin 100000) (f : Fin 128) :
    (dat0 (F := Ideal) V c).arrAt 6 cfg0.N (ix2 n f)
      = Sage.Spec.layerK (fun k : Fin 64 => V c (Pipeline.arrRef spec0 0) (ix2 n k)) (fun k : Fin 64 => V c (Pipeline.arrRef spec0 1) (ix2 n k))
          (fun k : Fin 64 => V c (Pipeline.arrRef spec0 2) (ix2 k f)) (fun k : Fin 64 => V c (Pipeline.arrRef spec0 4) (ix2 k f))
          (V c (Pipeline.arrRef spec0 3) (ix1 f)) (V c (Pipeline.arrRef spec0 5) (ix2 n (0 : Fin 1))) :=
  congrFun (layer0_array V c) (ix2 n f)

end Cert.KernelIdeal.Body

end
-- ==== Proof.KI.ValLayer1.lean ====
import proofs.«426697_j79577154060299_2_alg».proof.Proof.KI.Reg1
import proofs.«426697_j79577154060299_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open Idealize.ShloMosaic.TcCoe Idealize.SL.Sem
open Idealize.ShloMosaic.Pipeline (Dat)

/-! # What the region leaves in its result array, entry by entry

## The contraction of a block of rows with a weight matrix -/

/-- The left operand's row coordinate at a contraction index is the output's row. -/
theorem layer1_lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column coordinate is the contraction index. -/
theorem layer1_lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row coordinate is the contraction index. -/
theorem layer1_rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column coordinate is the output's column. -/
theorem layer1_rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The contraction index of the block's product is its one coordinate. -/
abbrev layer1_contr : dot_S4000x128_S128x128_S4000x128_1_0_0_1_n_n.contr.Idx ≃ Fin 128 :=
  contrEquiv1 dot_S4000x128_S128x128_S4000x128_1_0_0_1_n_n _ rfl rfl

/-- A block of rows times a weight matrix, into the zero accumulator, at row `r` and column `f`: the sum over the
    contracted axis of the row's entries times the column's. -/
theorem layer1_matmul (l : FVec Ideal S4000x128 .bf16) (w : FVec Ideal S128x128 .bf16) (r : Fin 4000) (f : Fin 128) :
    matmul dot_S4000x128_S128x128_S4000x128_1_0_0_1_n_n none l w (constant (F := Ideal) S4000x128 .f32 0x00000000#32) (ix2 r f)
      = ∑ k : Fin 128, l (ix2 r k) * w (ix2 k f) := by
  refine (Ideal.matmul_constant_zero_apply dot_S4000x128_S128x128_S4000x128_1_0_0_1_n_n none l w (ix2 r f)).trans ?_
  rw [← Equiv.sum_comp layer1_contr.symm]
  refine Finset.sum_congr rfl fun k _ => ?_
  have hk : ((layer1_contr.symm k) ⟨0, by decide⟩ : ℕ) = k.val := contrEquiv1_symm_val dot_S4000x128_S128x128_S4000x128_1_0_0_1_n_n _ rfl rfl k
  have el : dot_S4000x128_S128x128_S4000x128_1_0_0_1_n_n.lhsIdx (ix2 r f) (layer1_contr.symm k) = ix2 r k := funext fun a => Fin.ext (by
    match a with
    | ⟨0, _⟩ => exact layer1_lhs_0 _ _
    | ⟨1, _⟩ => exact (layer1_lhs_1 _ _).trans hk)
  have er : dot_S4000x128_S128x128_S4000x128_1_0_0_1_n_n.rhsIdx (ix2 r f) (layer1_contr.symm k) = ix2 k f := funext fun a => Fin.ext (by
    match a with
    | ⟨0, _⟩ => exact (layer1_rhs_0 _ _).trans hk
    | ⟨1, _⟩ => exact layer1_rhs_1 _ _)
  rw [el, er]

/-! ## The payload at an index -/

/-- The neighbour sums scaled by the reciprocal count, at row `r` and column `k`: the column vector of reciprocals is
    broadcast along the rows. -/
theorem layer1_scaled (v0 : Vec Ideal S4000x1 .f32) (v2 : Vec Ideal S4000x128 .f32) (r : Fin 4000) (k : Fin 128) :
    v2 (ix2 r k) * broadcastTo S4000x128 v0 broadcasts_S4000x1_S4000x128 (ix2 r k) = v2 (ix2 r k) * v0 (ix2 r (0 : Fin 1)) :=
  congrArg (v2 (ix2 r k) * ·) (broadcastTo_apply v0 broadcasts_S4000x1_S4000x128 (ix2 r k) (ix2 r (0 : Fin 1)) (fun a => match a with
    | ⟨0, _⟩ => by show r.val = if (4000 : Nat) = 1 then 0 else r.val; rw [if_neg (by decide)]
    | ⟨1, _⟩ => by show 0 = if (1 : Nat) = 1 then 0 else k.val; rw [if_pos rfl]))

/-- The bias row broadcast down the block, at row `r` and column `f`. -/
theorem layer1_bias (v13 : Vec Ideal S128 .f32) (r : Fin 4000) (f : Fin 128) :
    broadcastTo S4000x128 (shapeCast S1x128 v13 shapeCasts_S128_S1x128) broadcasts_S1x128_S4000x128 (ix2 r f) = v13 (ix1 f) := by
  refine (broadcastTo_apply _ broadcasts_S1x128_S4000x128 (ix2 r f) (ix2 (0 : Fin 1) f) (fun a => match a with
    | ⟨0, _⟩ => by show 0 = if (1 : Nat) = 1 then 0 else r.val; rw [if_pos rfl]
    | ⟨1, _⟩ => by show f.val = if (128 : Nat) = 1 then 0 else f.val; rw [if_neg (by decide)])).trans ?_
  exact shapeCast_apply v13 shapeCasts_S128_S1x128 (ix2 (0 : Fin 1) f) (ix1 f)
    (by rewrite [Shape.rowMajor_val_two, Shape.rowMajor_val_one]; show f.val = 0 * 128 + f.val; omega)

/-- THE PAYLOAD AT AN INDEX: the body's stored value at row `r` and column `f` of the block is the layer's entry from
    the row of sums, the row of features, the two weight columns, the bias entry and the row's reciprocal count. -/
theorem layer1_block (v0 : Vec Ideal S4000x1 .f32) (v2 v7 : Vec Ideal S4000x128 .f32) (v9 v11 : Vec Ideal S128x128 .f32)
    (v13 : Vec Ideal S128 .f32) (r : Fin 4000) (f : Fin 128) :
    k1_pay1 v0 v2 v7 v9 v11 v13 (ix2 r f)
      = Sage.Spec.layerK (fun k : Fin 128 => v2 (ix2 r k)) (fun k : Fin 128 => v7 (ix2 r k)) (fun k : Fin 128 => v9 (ix2 k f))
          (fun k : Fin 128 => v11 (ix2 k f)) (v13 (ix1 f)) (v0 (ix2 r (0 : Fin 1))) := by
  unfold k1_pay1 Sage.Spec.layerK
  simp only [shapeCast_self]
  show max ((matmul dot_S4000x128_S128x128_S4000x128_1_0_0_1_n_n none _ _ _ (ix2 r f)
      + matmul dot_S4000x128_S128x128_S4000x128_1_0_0_1_n_n none _ _ _ (ix2 r f))
      + broadcastTo S4000x128 _ _ (ix2 r f)) (Ideal.ofBits .f32 0x00000000#32) = _
  rw [layer1_matmul, layer1_matmul, layer1_bias, Ideal.ofBits_zero_f32]
  refine congrArg (max · 0) (congrArg (· + v13 (ix1 f)) (congrArg₂ (· + ·) (Finset.sum_congr rfl fun k _ => ?_) rfl))
  exact congrArg (· * v9 (ix2 k f)) (layer1_scaled v0 v2 r k)

/-! ## From blocks to the array -/

/-- A layer's entry depends on its six arguments only through their values. -/
theorem layer1_congr {K : ℕ} {s s' x x' wl wl' wr wr' : Fin K → EReal} {b b' inv inv' : EReal}
    (hs : ∀ k, s k = s' k) (hx : ∀ k, x k = x' k) (hwl : ∀ k, wl k = wl' k) (hwr : ∀ k, wr k = wr' k) (hb : b = b') (hinv : inv = inv') :
    Sage.Spec.layerK s x wl wr b inv = Sage.Spec.layerK s' x' wl' wr' b' inv' := by
  rw [funext hs, funext hx, funext hwl, funext hwr, hb, hinv]

variable (V : (c : Dev nD) → (b : Ref sig .tc) → Buf (Elt Ideal) ((c : Thread nD τ).loc b))

/-- The layer's entry at node `n` and feature `f`, from the arrays as the region finds them. -/
def layer1_at (c : Dev nD) (n : Fin 100000) (f : Fin 128) : EReal :=
  Sage.Spec.layerK (fun k : Fin 128 => V c (Pipeline.arrRef spec1 0) (ix2 n k)) (fun k : Fin 128 => V c (Pipeline.arrRef spec1 1) (ix2 n k))
    (fun k : Fin 128 => V c (Pipeline.arrRef spec1 2) (ix2 k f)) (fun k : Fin 128 => V c (Pipeline.arrRef spec1 4) (ix2 k f))
    (V c (Pipeline.arrRef spec1 3) (ix1 f)) (V c (Pipeline.arrRef spec1 5) (ix2 n (0 : Fin 1)))

/-- The whole result array as one function of its index. -/
def layer1_arr (c : Dev nD) : S100000x128.Idx → EReal := fun i => layer1_at V c (i 0) (i 1)

theorem layer1_off2 : (![0, 0] : Fin 2 → Nat) = fun _ => 0 := funext fun a => by fin_cases a <;> rfl
theorem layer1_off1 : (![0] : Fin 1 → Nat) = fun _ => 0 := funext fun a => by fin_cases a; rfl

/-- The index maps, decided once over the grid: at point `t` the row windows are at block `t` of their arrays, the
    weights and the bias at their one block. -/
theorem layer1_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem layer1_points : cfg1.N = 25 := rfl

/-- Row `r` of the block of neighbour sums at point `t` is row `4000 t + r` of the array. -/
theorem layer1_rows_0 (c : Dev nD) (t : Fin cfg1.N) (r : Fin 4000) (k : Fin 128) (n : Fin 100000) (hn : n.val = t.val * 4000 + r.val) :
    iblk1 V c 0 t (ix2 r k) = V c (Pipeline.arrRef spec1 0) (ix2 n k) := by
  obtain ⟨e0, e1, -⟩ := layer1_index t
  show V c (Pipeline.arrRef spec1 0) (((cfg1.win 0).blk t).view.emb (ix2 r k)) = _
  refine congrArg _ (funext fun a => Fin.ext ?_)
  match a with
  | ⟨0, _⟩ => show win1_0.index t (0 : Fin 2) * 4000 + 1 * r.val = n.val; rw [e0, hn]; omega
  | ⟨1, _⟩ => show win1_0.index t (1 : Fin 2) * _ + 1 * k.val = k.val; rw [e1, Nat.zero_mul, Nat.zero_add, Nat.one_mul]

/-- Row `r` of the block of features at point `t` is row `4000 t + r` of the array. -/
theorem layer1_rows_1 (c : Dev nD) (t : Fin cfg1.N) (r : Fin 4000) (k : Fin 128) (n : Fin 100000) (hn : n.val = t.val * 4000 + r.val) :
    iblk1 V c 1 t (ix2 r k) = V c (Pipeline.arrRef spec1 1) (ix2 n k) := by
  obtain ⟨-, -, e0, e1, -⟩ := layer1_index t
  show V c (Pipeline.arrRef spec1 1) (((cfg1.win 1).blk t).view.emb (ix2 r k)) = _
  refine congrArg _ (funext fun a => Fin.ext ?_)
  match a with
  | ⟨0, _⟩ => show win1_1.index t (0 : Fin 2) * 4000 + 1 * r.val = n.val; rw [e0, hn]; omega
  | ⟨1, _⟩ => show win1_1.index t (1 : Fin 2) * _ + 1 * k.val = k.val; rw [e1, Nat.zero_mul, Nat.zero_add, Nat.one_mul]

/-- Row `r` of the block of reciprocal counts at point `t` is row `4000 t + r` of the array. -/
theorem layer1_rows_5 (c : Dev nD) (t : Fin cfg1.N) (r : Fin 4000) (n : Fin 100000) (hn : n.val = t.val * 4000 + r.val) :
    iblk1 V c 5 t (ix2 r (0 : Fin 1)) = V c (Pipeline.arrRef spec1 5) (ix2 n (0 : Fin 1)) := by
  obtain ⟨-, -, -, -, -, -, -, -, -, e0, e1, -⟩ := layer1_index t
  show V c (Pipeline.arrRef spec1 5) (((cfg1.win 5).blk t).view.emb (ix2 r (0 : Fin 1))) = _
  refine congrArg _ (funext fun a => Fin.ext ?_)
  match a with
  | ⟨0, _⟩ => show win1_5.index t (0 : Fin 2) * 4000 + 1 * r.val = n.val; rw [e0, hn]; omega
  | ⟨1, _⟩ => show win1_5.index t (1 : Fin 2) * 1 + 1 * 0 = 0; rw [e1]

/-- The block of the first weight matrix is the whole matrix at every point. -/
theorem layer1_whole_2 (c : Dev nD) (t : Fin cfg1.N) (k : Fin 128) (f : Fin 128) :
    iblk1 V c 2 t (ix2 k f) = V c (Pipeline.arrRef spec1 2) (ix2 k f) := by
  obtain ⟨-, -, -, -, e0, e1, -⟩ := layer1_index t
  show V c (Pipeline.arrRef spec1 2) (((cfg1.win 2).blk t).view.emb (ix2 k f)) = _
  refine congrArg _ (funext fun a => Fin.ext ?_)
  match a with
  | ⟨0, _⟩ => show win1_2.index t (0 : Fin 2) * _ + 1 * k.val = k.val; rw [e0, Nat.zero_mul, Nat.zero_add, Nat.one_mul]
  | ⟨1, _⟩ => show win1_2.index t (1 : Fin 2) * _ + 1 * f.val = f.val; rw [e1, Nat.zero_mul, Nat.zero_add, Nat.one_mul]

/-- The block of the bias is the whole bias at every point. -/
theorem layer1_whole_3 (c : Dev nD) (t : Fin cfg1.N) (f : Fin 128) :
    iblk1 V c 3 t (ix1 f) = V c (Pipeline.arrRef spec1 3) (ix1 f) := by
  obtain ⟨-, -, -, -, -, -, e0, -⟩ := layer1_index t
  show V c (Pipeline.arrRef spec1 3) (((cfg1.win 3).blk t).view.emb (ix1 f)) = _
  refine congrArg _ (funext fun a => Fin.ext ?_)
  match a with
  | ⟨0, _⟩ => show win1_3.index t (0 : Fin 1) * _ + 1 * f.val = f.val; rw [e0, Nat.zero_mul, Nat.zero_add, Nat.one_mul]

/-- The block of the second weight matrix is the whole matrix at every point. -/
theorem layer1_whole_4 (c : Dev nD) (t : Fin cfg1.N) (k : Fin 128) (f : Fin 128) :
    iblk1 V c 4 t (ix2 k f) = V c (Pipeline.arrRef spec1 4) (ix2 k f) := by
  obtain ⟨-, -, -, -, -, -, -, e0, e1, -⟩ := layer1_index t
  show V c (Pipeline.arrRef spec1 4) (((cfg1.win 4).blk t).view.emb (ix2 k f)) = _
  refine congrArg _ (funext fun a => Fin.ext ?_)
  match a with
  | ⟨0, _⟩ => show win1_4.index t (0 : Fin 2) * _ + 1 * k.val = k.val; rw [e0, Nat.zero_mul, Nat.zero_add, Nat.one_mul]
  | ⟨1, _⟩ => show win1_4.index t (1 : Fin 2) * _ + 1 * f.val = f.val; rw [e1, Nat.zero_mul, Nat.zero_add, Nat.one_mul]

/-- WHAT POINT `t` WRITES BACK is block `t` of the layer's array. -/
theorem layer1_flushed (c : Dev nD) (t : Fin cfg1.N) :
    (dat1 (F := Ideal) V c).flushed 6 t = ((cfg1.win 6).blk t).view.read (Elt Ideal) (layer1_arr V c) := by
  show (cfg1.win 6).cut (grid1.coords t) ((dat1 V c).after 6 t) = _
  rw [after1_6]
  unfold out1_6
  rw [View.canon_unit_zero layer1_off2]
  simp only [View.ld_unit_zero (S := S4000x1) layer1_off2, View.ld_unit_zero (S := S4000x128) layer1_off2,
    View.ld_unit_zero (S := S128x128) layer1_off2, View.ld_unit_zero (S := S128) layer1_off1]
  funext y
  obtain ⟨r, f, rfl⟩ : ∃ (r : Fin 4000) (f : Fin 128), y = ix2 r f := ⟨y 0, y 1, eq_ix2 y⟩
  obtain ⟨-, -, -, -, -, -, -, -, -, -, -, e0, e1⟩ := layer1_index t
  have ht : t.val < 25 := t.isLt
  have hpos : ((cfg1.win 6).blk t).view.emb (ix2 r f) = (ix2 (⟨t.val * 4000 + r.val, by omega⟩ : Fin 100000) f : S100000x128.Idx) := by
    funext a; apply Fin.ext
    match a with
    | ⟨0, _⟩ => show win1_6.index t (0 : Fin 2) * 4000 + 1 * r.val = t.val * 4000 + r.val; rw [e0]; omega
    | ⟨1, _⟩ => show win1_6.index t (1 : Fin 2) * 128 + 1 * f.val = f.val; rw [e1]; omega
  show k1_pay1 (iblk1 V c 5 t) (iblk1 V c 0 t) (iblk1 V c 1 t) (iblk1 V c 2 t) (iblk1 V c 4 t) (iblk1 V c 3 t) (ix2 r f)
      = layer1_arr V c (((cfg1.win 6).blk t).view.emb (ix2 r f))
  rw [hpos]
  refine (layer1_block (iblk1 V c 5 t) (iblk1 V c 0 t) (iblk1 V c 1 t) (iblk1 V c 2 t) (iblk1 V c 4 t) (iblk1 V c 3 t) r f).trans ?_
  show _ = layer1_at V c (⟨t.val * 4000 + r.val, by omega⟩ : Fin 100000) f
  unfold layer1_at
  exact layer1_congr (fun k => layer1_rows_0 V c t r k _ rfl) (fun k => layer1_rows_1 V c t r k _ rfl)
    (fun k => layer1_whole_2 V c t k f) (fun k => layer1_whole_4 V c t k f) (layer1_whole_3 V c t f) (layer1_rows_5 V c t r _ rfl)

/-- An index of the result array is in point `t`'s block iff each coordinate is in the block's range on its axis. -/
theorem layer1_mem_blk (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole (Pipeline.arrRef spec1 6)).slice (win1_6.rect t)).set ↔ _
  rw [View.set_slice_whole, Rect.mem_set_unit]
  exact Iff.rfl

/-- THE COVER: row `n` of the result array is in the block of point `n / 4000`. -/
theorem layer1_covered (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hq : (i 0).val / 4000 < cfg1.N := by rw [layer1_points]; omega
  obtain ⟨-, -, -, -, -, -, -, -, -, -, -, e0, e1⟩ := layer1_index ⟨(i 0).val / 4000, hq⟩
  refine ⟨⟨(i 0).val / 4000, hq⟩, flush1_6 _, ?_⟩
  rw [layer1_mem_blk]
  intro a
  match a with
  | ⟨0, _⟩ =>
    show win1_6.index ⟨(i 0).val / 4000, hq⟩ (0 : Fin 2) * 4000 ≤ (i 0).val ∧ (i 0).val < win1_6.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, hq⟩ (1 : Fin 2) * 128 ≤ (i 1).val ∧ (i 1).val < win1_6.index ⟨(i 0).val / 4000, hq⟩ (1 : Fin 2) * 128 + 128
    rw [e1]; omega

/-- THE RESULT ARRAY after the region: the layer's array. -/
theorem layer1_array (c : Dev nD) : (dat1 (F := Ideal) V c).arrAt 6 cfg1.N = layer1_arr V c :=
  (dat1 (F := Ideal) V c).arrAt_eq_of_cover 6 (layer1_arr V c) (fun t _ => layer1_flushed V c t) layer1_covered

/-- WHAT THE REGION LEAVES IN ITS RESULT ARRAY, entry by entry: at node `n` and feature `f` the layer's entry from row `n`
    of the neighbour sums and of the features, column `f` of the two weight matrices, the bias entry `f` and node `n`'s
    reciprocal neighbour count, all as the region finds them. -/
theorem layer1_entry (c : Dev nD) (n : Fin 100000) (f : Fin 128) :
    (dat1 (F := Ideal) V c).arrAt 6 cfg1.N (ix2 n f)
      = Sage.Spec.layerK (fun k : Fin 128 => V c (Pipeline.arrRef spec1 0) (ix2 n k)) (fun k : Fin 128 => V c (Pipeline.arrRef spec1 1) (ix2 n k))
          (fun k : Fin 128 => V c (Pipeline.arrRef spec1 2) (ix2 k f)) (fun k : Fin 128 => V c (Pipeline.arrRef spec1 4) (ix2 k f))
          (V c (Pipeline.arrRef spec1 3) (ix1 f)) (V c (Pipeline.arrRef spec1 5) (ix2 n (0 : Fin 1))) :=
  congrFun (layer1_array V c) (ix2 n f)

end Cert.KernelIdeal.Body

end
-- ==== Proof.KI.ValLayer2.lean ====
import proofs.«426697_j79577154060299_2_alg».proof.Proof.KI.Reg2
import proofs.«426697_j79577154060299_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open Idealize.ShloMosaic.TcCoe Idealize.SL.Sem
open Idealize.ShloMosaic.Pipeline (Dat)

/-! # What the region leaves in its result array, entry by entry

## The contraction of a block of rows with a weight matrix -/

/-- The left operand's row coordinate at a contraction index is the output's row. -/
theorem layer2_lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column coordinate is the contraction index. -/
theorem layer2_lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row coordinate is the contraction index. -/
theorem layer2_rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column coordinate is the output's column. -/
theorem layer2_rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The contraction index of the block's product is its one coordinate. -/
abbrev layer2_contr : dot_S4000x128_S128x128_S4000x128_1_0_0_1_n_n.contr.Idx ≃ Fin 128 :=
  contrEquiv1 dot_S4000x128_S128x128_S4000x128_1_0_0_1_n_n _ rfl rfl

/-- A block of rows times a weight matrix, into the zero accumulator, at row `r` and column `f`: the sum over the
    contracted axis of the row's entries times the column's. -/
theorem layer2_matmul (l : FVec Ideal S4000x128 .bf16) (w : FVec Ideal S128x128 .bf16) (r : Fin 4000) (f : Fin 128) :
    matmul dot_S4000x128_S128x128_S4000x128_1_0_0_1_n_n none l w (constant (F := Ideal) S4000x128 .f32 0x00000000#32) (ix2 r f)
      = ∑ k : Fin 128, l (ix2 r k) * w (ix2 k f) := by
  refine (Ideal.matmul_constant_zero_apply dot_S4000x128_S128x128_S4000x128_1_0_0_1_n_n none l w (ix2 r f)).trans ?_
  rw [← Equiv.sum_comp layer2_contr.symm]
  refine Finset.sum_congr rfl fun k _ => ?_
  have hk : ((layer2_contr.symm k) ⟨0, by decide⟩ : ℕ) = k.val := contrEquiv1_symm_val dot_S4000x128_S128x128_S4000x128_1_0_0_1_n_n _ rfl rfl k
  have el : dot_S4000x128_S128x128_S4000x128_1_0_0_1_n_n.lhsIdx (ix2 r f) (layer2_contr.symm k) = ix2 r k := funext fun a => Fin.ext (by
    match a with
    | ⟨0, _⟩ => exact layer2_lhs_0 _ _
    | ⟨1, _⟩ => exact (layer2_lhs_1 _ _).trans hk)
  have er : dot_S4000x128_S128x128_S4000x128_1_0_0_1_n_n.rhsIdx (ix2 r f) (layer2_contr.symm k) = ix2 k f := funext fun a => Fin.ext (by
    match a with
    | ⟨0, _⟩ => exact (layer2_rhs_0 _ _).trans hk
    | ⟨1, _⟩ => exact layer2_rhs_1 _ _)
  rw [el, er]

/-! ## The payload at an index -/

/-- The neighbour sums scaled by the reciprocal count, at row `r` and column `k`: the column vector of reciprocals is
    broadcast along the rows. -/
theorem layer2_scaled (v0 : Vec Ideal S4000x1 .f32) (v2 : Vec Ideal S4000x128 .f32) (r : Fin 4000) (k : Fin 128) :
    v2 (ix2 r k) * broadcastTo S4000x128 v0 broadcasts_S4000x1_S4000x128 (ix2 r k) = v2 (ix2 r k) * v0 (ix2 r (0 : Fin 1)) :=
  congrArg (v2 (ix2 r k) * ·) (broadcastTo_apply v0 broadcasts_S4000x1_S4000x128 (ix2 r k) (ix2 r (0 : Fin 1)) (fun a => match a with
    | ⟨0, _⟩ => by show r.val = if (4000 : Nat) = 1 then 0 else r.val; rw [if_neg (by decide)]
    | ⟨1, _⟩ => by show 0 = if (1 : Nat) = 1 then 0 else k.val; rw [if_pos rfl]))

/-- The bias row broadcast down the block, at row `r` and column `f`. -/
theorem layer2_bias (v13 : Vec Ideal S128 .f32) (r : Fin 4000) (f : Fin 128) :
    broadcastTo S4000x128 (shapeCast S1x128 v13 shapeCasts_S128_S1x128) broadcasts_S1x128_S4000x128 (ix2 r f) = v13 (ix1 f) := by
  refine (broadcastTo_apply _ broadcasts_S1x128_S4000x128 (ix2 r f) (ix2 (0 : Fin 1) f) (fun a => match a with
    | ⟨0, _⟩ => by show 0 = if (1 : Nat) = 1 then 0 else r.val; rw [if_pos rfl]
    | ⟨1, _⟩ => by show f.val = if (128 : Nat) = 1 then 0 else f.val; rw [if_neg (by decide)])).trans ?_
  exact shapeCast_apply v13 shapeCasts_S128_S1x128 (ix2 (0 : Fin 1) f) (ix1 f)
    (by rewrite [Shape.rowMajor_val_two, Shape.rowMajor_val_one]; show f.val = 0 * 128 + f.val; omega)

/-- THE PAYLOAD AT AN INDEX: the body's stored value at row `r` and column `f` of the block is the layer's entry from
    the row of sums, the row of features, the two weight columns, the bias entry and the row's reciprocal count. -/
theorem layer2_block (v0 : Vec Ideal S4000x1 .f32) (v2 v7 : Vec Ideal S4000x128 .f32) (v9 v11 : Vec Ideal S128x128 .f32)
    (v13 : Vec Ideal S128 .f32) (r : Fin 4000) (f : Fin 128) :
    k2_pay1 v0 v2 v7 v9 v11 v13 (ix2 r f)
      = Sage.Spec.layerK (fun k : Fin 128 => v2 (ix2 r k)) (fun k : Fin 128 => v7 (ix2 r k)) (fun k : Fin 128 => v9 (ix2 k f))
          (fun k : Fin 128 => v11 (ix2 k f)) (v13 (ix1 f)) (v0 (ix2 r (0 : Fin 1))) := by
  unfold k2_pay1 Sage.Spec.layerK
  simp only [shapeCast_self]
  show max ((matmul dot_S4000x128_S128x128_S4000x128_1_0_0_1_n_n none _ _ _ (ix2 r f)
      + matmul dot_S4000x128_S128x128_S4000x128_1_0_0_1_n_n none _ _ _ (ix2 r f))
      + broadcastTo S4000x128 _ _ (ix2 r f)) (Ideal.ofBits .f32 0x00000000#32) = _
  rw [layer2_matmul, layer2_matmul, layer2_bias, Ideal.ofBits_zero_f32]
  refine congrArg (max · 0) (congrArg (· + v13 (ix1 f)) (congrArg₂ (· + ·) (Finset.sum_congr rfl fun k _ => ?_) rfl))
  exact congrArg (· * v9 (ix2 k f)) (layer2_scaled v0 v2 r k)

/-! ## From blocks to the array -/

/-- A layer's entry depends on its six arguments only through their values. -/
theorem layer2_congr {K : ℕ} {s s' x x' wl wl' wr wr' : Fin K → EReal} {b b' inv inv' : EReal}
    (hs : ∀ k, s k = s' k) (hx : ∀ k, x k = x' k) (hwl : ∀ k, wl k = wl' k) (hwr : ∀ k, wr k = wr' k) (hb : b = b') (hinv : inv = inv') :
    Sage.Spec.layerK s x wl wr b inv = Sage.Spec.layerK s' x' wl' wr' b' inv' := by
  rw [funext hs, funext hx, funext hwl, funext hwr, hb, hinv]

variable (V : (c : Dev nD) → (b : Ref sig .tc) → Buf (Elt Ideal) ((c : Thread nD τ).loc b))

/-- The layer's entry at node `n` and feature `f`, from the arrays as the region finds them. -/
def layer2_at (c : Dev nD) (n : Fin 100000) (f : Fin 128) : EReal :=
  Sage.Spec.layerK (fun k : Fin 128 => V c (Pipeline.arrRef spec2 0) (ix2 n k)) (fun k : Fin 128 => V c (Pipeline.arrRef spec2 1) (ix2 n k))
    (fun k : Fin 128 => V c (Pipeline.arrRef spec2 2) (ix2 k f)) (fun k : Fin 128 => V c (Pipeline.arrRef spec2 4) (ix2 k f))
    (V c (Pipeline.arrRef spec2 3) (ix1 f)) (V c (Pipeline.arrRef spec2 5) (ix2 n (0 : Fin 1)))

/-- The whole result array as one function of its index. -/
def layer2_arr (c : Dev nD) : S100000x128.Idx → EReal := fun i => layer2_at V c (i 0) (i 1)

theorem layer2_off2 : (![0, 0] : Fin 2 → Nat) = fun _ => 0 := funext fun a => by fin_cases a <;> rfl
theorem layer2_off1 : (![0] : Fin 1 → Nat) = fun _ => 0 := funext fun a => by fin_cases a; rfl

/-- The index maps, decided once over the grid: at point `t` the row windows are at block `t` of their arrays, the
    weights and the bias at their one block. -/
theorem layer2_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

theorem layer2_points : cfg2.N = 25 := rfl

/-- Row `r` of the block of neighbour sums at point `t` is row `4000 t + r` of the array. -/
theorem layer2_rows_0 (c : Dev nD) (t : Fin cfg2.N) (r : Fin 4000) (k : Fin 128) (n : Fin 100000) (hn : n.val = t.val * 4000 + r.val) :
    iblk2 V c 0 t (ix2 r k) = V c (Pipeline.arrRef spec2 0) (ix2 n k) := by
  obtain ⟨e0, e1, -⟩ := layer2_index t
  show V c (Pipeline.arrRef spec2 0) (((cfg2.win 0).blk t).view.emb (ix2 r k)) = _
  refine congrArg _ (funext fun a => Fin.ext ?_)
  match a with
  | ⟨0, _⟩ => show win2_0.index t (0 : Fin 2) * 4000 + 1 * r.val = n.val; rw [e0, hn]; omega
  | ⟨1, _⟩ => show win2_0.index t (1 : Fin 2) * _ + 1 * k.val = k.val; rw [e1, Nat.zero_mul, Nat.zero_add, Nat.one_mul]

/-- Row `r` of the block of features at point `t` is row `4000 t + r` of the array. -/
theorem layer2_rows_1 (c : Dev nD) (t : Fin cfg2.N) (r : Fin 4000) (k : Fin 128) (n : Fin 100000) (hn : n.val = t.val * 4000 + r.val) :
    iblk2 V c 1 t (ix2 r k) = V c (Pipeline.arrRef spec2 1) (ix2 n k) := by
  obtain ⟨-, -, e0, e1, -⟩ := layer2_index t
  show V c (Pipeline.arrRef spec2 1) (((cfg2.win 1).blk t).view.emb (ix2 r k)) = _
  refine congrArg _ (funext fun a => Fin.ext ?_)
  match a with
  | ⟨0, _⟩ => show win2_1.index t (0 : Fin 2) * 4000 + 1 * r.val = n.val; rw [e0, hn]; omega
  | ⟨1, _⟩ => show win2_1.index t (1 : Fin 2) * _ + 1 * k.val = k.val; rw [e1, Nat.zero_mul, Nat.zero_add, Nat.one_mul]

/-- Row `r` of the block of reciprocal counts at point `t` is row `4000 t + r` of the array. -/
theorem layer2_rows_5 (c : Dev nD) (t : Fin cfg2.N) (r : Fin 4000) (n : Fin 100000) (hn : n.val = t.val * 4000 + r.val) :
    iblk2 V c 5 t (ix2 r (0 : Fin 1)) = V c (Pipeline.arrRef spec2 5) (ix2 n (0 : Fin 1)) := by
  obtain ⟨-, -, -, -, -, -, -, -, -, e0, e1, -⟩ := layer2_index t
  show V c (Pipeline.arrRef spec2 5) (((cfg2.win 5).blk t).view.emb (ix2 r (0 : Fin 1))) = _
  refine congrArg _ (funext fun a => Fin.ext ?_)
  match a with
  | ⟨0, _⟩ => show win2_5.index t (0 : Fin 2) * 4000 + 1 * r.val = n.val; rw [e0, hn]; omega
  | ⟨1, _⟩ => show win2_5.index t (1 : Fin 2) * 1 + 1 * 0 = 0; rw [e1]

/-- The block of the first weight matrix is the whole matrix at every point. -/
theorem layer2_whole_2 (c : Dev nD) (t : Fin cfg2.N) (k : Fin 128) (f : Fin 128) :
    iblk2 V c 2 t (ix2 k f) = V c (Pipeline.arrRef spec2 2) (ix2 k f) := by
  obtain ⟨-, -, -, -, e0, e1, -⟩ := layer2_index t
  show V c (Pipeline.arrRef spec2 2) (((cfg2.win 2).blk t).view.emb (ix2 k f)) = _
  refine congrArg _ (funext fun a => Fin.ext ?_)
  match a with
  | ⟨0, _⟩ => show win2_2.index t (0 : Fin 2) * _ + 1 * k.val = k.val; rw [e0, Nat.zero_mul, Nat.zero_add, Nat.one_mul]
  | ⟨1, _⟩ => show win2_2.index t (1 : Fin 2) * _ + 1 * f.val = f.val; rw [e1, Nat.zero_mul, Nat.zero_add, Nat.one_mul]

/-- The block of the bias is the whole bias at every point. -/
theorem layer2_whole_3 (c : Dev nD) (t : Fin cfg2.N) (f : Fin 128) :
    iblk2 V c 3 t (ix1 f) = V c (Pipeline.arrRef spec2 3) (ix1 f) := by
  obtain ⟨-, -, -, -, -, -, e0, -⟩ := layer2_index t
  show V c (Pipeline.arrRef spec2 3) (((cfg2.win 3).blk t).view.emb (ix1 f)) = _
  refine congrArg _ (funext fun a => Fin.ext ?_)
  match a with
  | ⟨0, _⟩ => show win2_3.index t (0 : Fin 1) * _ + 1 * f.val = f.val; rw [e0, Nat.zero_mul, Nat.zero_add, Nat.one_mul]

/-- The block of the second weight matrix is the whole matrix at every point. -/
theorem layer2_whole_4 (c : Dev nD) (t : Fin cfg2.N) (k : Fin 128) (f : Fin 128) :
    iblk2 V c 4 t (ix2 k f) = V c (Pipeline.arrRef spec2 4) (ix2 k f) := by
  obtain ⟨-, -, -, -, -, -, -, e0, e1, -⟩ := layer2_index t
  show V c (Pipeline.arrRef spec2 4) (((cfg2.win 4).blk t).view.emb (ix2 k f)) = _
  refine congrArg _ (funext fun a => Fin.ext ?_)
  match a with
  | ⟨0, _⟩ => show win2_4.index t (0 : Fin 2) * _ + 1 * k.val = k.val; rw [e0, Nat.zero_mul, Nat.zero_add, Nat.one_mul]
  | ⟨1, _⟩ => show win2_4.index t (1 : Fin 2) * _ + 1 * f.val = f.val; rw [e1, Nat.zero_mul, Nat.zero_add, Nat.one_mul]

/-- WHAT POINT `t` WRITES BACK is block `t` of the layer's array. -/
theorem layer2_flushed (c : Dev nD) (t : Fin cfg2.N) :
    (dat2 (F := Ideal) V c).flushed 6 t = ((cfg2.win 6).blk t).view.read (Elt Ideal) (layer2_arr V c) := by
  show (cfg2.win 6).cut (grid2.coords t) ((dat2 V c).after 6 t) = _
  rw [after2_6]
  unfold out2_6
  rw [View.canon_unit_zero layer2_off2]
  simp only [View.ld_unit_zero (S := S4000x1) layer2_off2, View.ld_unit_zero (S := S4000x128) layer2_off2,
    View.ld_unit_zero (S := S128x128) layer2_off2, View.ld_unit_zero (S := S128) layer2_off1]
  funext y
  obtain ⟨r, f, rfl⟩ : ∃ (r : Fin 4000) (f : Fin 128), y = ix2 r f := ⟨y 0, y 1, eq_ix2 y⟩
  obtain ⟨-, -, -, -, -, -, -, -, -, -, -, e0, e1⟩ := layer2_index t
  have ht : t.val < 25 := t.isLt
  have hpos : ((cfg2.win 6).blk t).view.emb (ix2 r f) = (ix2 (⟨t.val * 4000 + r.val, by omega⟩ : Fin 100000) f : S100000x128.Idx) := by
    funext a; apply Fin.ext
    match a with
    | ⟨0, _⟩ => show win2_6.index t (0 : Fin 2) * 4000 + 1 * r.val = t.val * 4000 + r.val; rw [e0]; omega
    | ⟨1, _⟩ => show win2_6.index t (1 : Fin 2) * 128 + 1 * f.val = f.val; rw [e1]; omega
  show k2_pay1 (iblk2 V c 5 t) (iblk2 V c 0 t) (iblk2 V c 1 t) (iblk2 V c 2 t) (iblk2 V c 4 t) (iblk2 V c 3 t) (ix2 r f)
      = layer2_arr V c (((cfg2.win 6).blk t).view.emb (ix2 r f))
  rw [hpos]
  refine (layer2_block (iblk2 V c 5 t) (iblk2 V c 0 t) (iblk2 V c 1 t) (iblk2 V c 2 t) (iblk2 V c 4 t) (iblk2 V c 3 t) r f).trans ?_
  show _ = layer2_at V c (⟨t.val * 4000 + r.val, by omega⟩ : Fin 100000) f
  unfold layer2_at
  exact layer2_congr (fun k => layer2_rows_0 V c t r k _ rfl) (fun k => layer2_rows_1 V c t r k _ rfl)
    (fun k => layer2_whole_2 V c t k f) (fun k => layer2_whole_4 V c t k f) (layer2_whole_3 V c t f) (layer2_rows_5 V c t r _ rfl)

/-- An index of the result array is in point `t`'s block iff each coordinate is in the block's range on its axis. -/
theorem layer2_mem_blk (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole (Pipeline.arrRef spec2 6)).slice (win2_6.rect t)).set ↔ _
  rw [View.set_slice_whole, Rect.mem_set_unit]
  exact Iff.rfl

/-- THE COVER: row `n` of the result array is in the block of point `n / 4000`. -/
theorem layer2_covered (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hq : (i 0).val / 4000 < cfg2.N := by rw [layer2_points]; omega
  obtain ⟨-, -, -, -, -, -, -, -, -, -, -, e0, e1⟩ := layer2_index ⟨(i 0).val / 4000, hq⟩
  refine ⟨⟨(i 0).val / 4000, hq⟩, flush2_6 _, ?_⟩
  rw [layer2_mem_blk]
  intro a
  match a with
  | ⟨0, _⟩ =>
    show win2_6.index ⟨(i 0).val / 4000, hq⟩ (0 : Fin 2) * 4000 ≤ (i 0).val ∧ (i 0).val < win2_6.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win2_6.index ⟨(i 0).val / 4000, hq⟩ (1 : Fin 2) * 128 ≤ (i 1).val ∧ (i 1).val < win2_6.index ⟨(i 0).val / 4000, hq⟩ (1 : Fin 2) * 128 + 128
    rw [e1]; omega

/-- THE RESULT ARRAY after the region: the layer's array. -/
theorem layer2_array (c : Dev nD) : (dat2 (F := Ideal) V c).arrAt 6 cfg2.N = layer2_arr V c :=
  (dat2 (F := Ideal) V c).arrAt_eq_of_cover 6 (layer2_arr V c) (fun t _ => layer2_flushed V c t) layer2_covered

/-- WHAT THE REGION LEAVES IN ITS RESULT ARRAY, entry by entry: at node `n` and feature `f` the layer's entry from row `n`
    of the neighbour sums and of the features, column `f` of the two weight matrices, the bias entry `f` and node `n`'s
    reciprocal neighbour count, all as the region finds them. -/
theorem layer2_entry (c : Dev nD) (n : Fin 100000) (f : Fin 128) :
    (dat2 (F := Ideal) V c).arrAt 6 cfg2.N (ix2 n f)
      = Sage.Spec.layerK (fun k : Fin 128 => V c (Pipeline.arrRef spec2 0) (ix2 n k)) (fun k : Fin 128 => V c (Pipeline.arrRef spec2 1) (ix2 n k))
          (fun k : Fin 128 => V c (Pipeline.arrRef spec2 2) (ix2 k f)) (fun k : Fin 128 => V c (Pipeline.arrRef spec2 4) (ix2 k f))
          (V c (Pipeline.arrRef spec2 3) (ix1 f)) (V c (Pipeline.arrRef spec2 5) (ix2 n (0 : Fin 1))) :=
  congrFun (layer2_array V c) (ix2 n f)

end Cert.KernelIdeal.Body

end
-- ==== Proof.KI.ValPool.lean ====
/-
  What region 3 leaves, the pooling part.

  The scratch of region 3 starts at zero and every grid point t adds, to the entry (g, f), the sum over the rows r of its
  block of 4000 nodes of [word of row r = g] · feature (r, f): the product of the transposed one-hot block with the
  feature block. The blocks tile the 100000 nodes, node e = 4000·t + r, so after the 25 points the entry (g, f) is the
  sum over all nodes whose graph word, read signed, is g of the node's feature f: the pooled feature. The result window's
  one block is the whole result array and only the last point writes it back, so the array after the run is what the
  body left at the last point: the decode of the pooled sums with the four parameter arrays, which the last point reads
  whole.
-/
import proofs.«426697_j79577154060299_2_alg».proof.Proof.KI.Reg3
import proofs.«426697_j79577154060299_2_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.Lib.Affine

set_option maxRecDepth 16384

noncomputable section

namespace Cert.KernelIdeal.Body

open Cert.KernelIdeal Cert.KernelIdeal.Gen
open Idealize.ShloMosaic Idealize.ShloMosaic.ValueIdx Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

namespace Pool

/-! ## The product's operand indices -/

theorem lhs_pool_0 (i : S512x128.Idx) (q : dot_S4000x512_S4000x128_S512x128_0_0_1_1_n_n.contr.Idx) :
    (dot_S4000x512_S4000x128_S512x128_0_0_1_1_n_n.lhsIdx i q 0).val = (q ⟨0, by decide⟩).val :=
  dot_S4000x512_S4000x128_S512x128_0_0_1_1_n_n.lhsIdx_val_of_single rfl i q
theorem lhs_pool_1 (i : S512x128.Idx) (q : dot_S4000x512_S4000x128_S512x128_0_0_1_1_n_n.contr.Idx) :
    (dot_S4000x512_S4000x128_S512x128_0_0_1_1_n_n.lhsIdx i q 1).val = (i 0).val := by
  unfold DotDims.lhsIdx
  rw [dif_neg (show ¬(1 : Fin S4000x512.rank) ∈ dot_S4000x512_S4000x128_S512x128_0_0_1_1_n_n.lhsBatch by decide), dif_pos (show (1 : Fin S4000x512.rank) ∈ dot_S4000x512_S4000x128_S512x128_0_0_1_1_n_n.lhsNonContracting by decide)]
  rfl
theorem rhs_pool_0 (i : S512x128.Idx) (q : dot_S4000x512_S4000x128_S512x128_0_0_1_1_n_n.contr.Idx) :
    (dot_S4000x512_S4000x128_S512x128_0_0_1_1_n_n.rhsIdx i q 0).val = (q ⟨0, by decide⟩).val :=
  dot_S4000x512_S4000x128_S512x128_0_0_1_1_n_n.rhsIdx_val_of_single rfl i q
theorem rhs_pool_1 (i : S512x128.Idx) (q : dot_S4000x512_S4000x128_S512x128_0_0_1_1_n_n.contr.Idx) :
    (dot_S4000x512_S4000x128_S512x128_0_0_1_1_n_n.rhsIdx i q 1).val = (i 1).val := by
  unfold DotDims.rhsIdx
  rw [dif_neg (show ¬(1 : Fin S4000x128.rank) ∈ dot_S4000x512_S4000x128_S512x128_0_0_1_1_n_n.rhsBatch by decide), dif_pos (show (1 : Fin S4000x128.rank) ∈ dot_S4000x512_S4000x128_S512x128_0_0_1_1_n_n.rhsNonContracting by decide)]
  rfl

/-- The product of the one-hot block's transpose with the feature block, read at an entry: the sum over the block's
    rows of the two operands' entries in that row. -/
theorem pool_matmul_apply (a : FVec Ideal S4000x512 .bf16) (b : FVec Ideal S4000x128 .bf16) (g : Fin 512) (f : Fin 128) :
    FloatOps.matmul dot_S4000x512_S4000x128_S512x128_0_0_1_1_n_n none a b (constant (F := Ideal) S512x128 .f32 0x00000000#32) (ix2 g f)
      = ∑ r : Fin 4000, a (ix2 r g) * b (ix2 r f) := by
  rw [Ideal.matmul_constant_zero_apply, ← Equiv.sum_comp (ValueIdx.contrEquiv1 dot_S4000x512_S4000x128_S512x128_0_0_1_1_n_n 4000 rfl rfl).symm]
  refine Finset.sum_congr rfl fun k _ => ?_
  have hk := ValueIdx.contrEquiv1_symm_val dot_S4000x512_S4000x128_S512x128_0_0_1_1_n_n 4000 rfl rfl k
  have el : dot_S4000x512_S4000x128_S512x128_0_0_1_1_n_n.lhsIdx (ix2 g f) ((ValueIdx.contrEquiv1 dot_S4000x512_S4000x128_S512x128_0_0_1_1_n_n 4000 rfl rfl).symm k) = ix2 k g := funext fun a => Fin.ext (by
    match a with
    | ⟨0, _⟩ => exact (lhs_pool_0 _ _).trans hk
    | ⟨1, _⟩ => exact lhs_pool_1 _ _)
  have er : dot_S4000x512_S4000x128_S512x128_0_0_1_1_n_n.rhsIdx (ix2 g f) ((ValueIdx.contrEquiv1 dot_S4000x512_S4000x128_S512x128_0_0_1_1_n_n 4000 rfl rfl).symm k) = ix2 k f := funext fun a => Fin.ext (by
    match a with
    | ⟨0, _⟩ => exact (rhs_pool_0 _ _).trans hk
    | ⟨1, _⟩ => exact rhs_pool_1 _ _)
  rw [el, er]

/-! ## One entry of what a grid point adds -/

/-- A word equals the word of a graph number below 512 exactly when, read signed, it is that number. -/
theorem word_eq_ofNat_iff (w : BitVec 32) (g : ℕ) (hg : g < 512) : w = BitVec.ofNat 32 g ↔ w.toInt = (g : ℤ) := by
  constructor
  · rintro rfl
    have e := BitVec.toInt_eq_toNat_cond (BitVec.ofNat 32 g)
    rw [BitVec.toNat_ofNat, Nat.mod_eq_of_lt (by omega)] at e
    omega
  · intro h
    apply BitVec.eq_of_toNat_eq
    rw [BitVec.toNat_ofNat, Nat.mod_eq_of_lt (by omega)]
    have e := BitVec.toInt_eq_toNat_cond w
    have := w.isLt
    omega

/-- A select on the bit of an equality test is the choice by that equality. -/
theorem select_cmpi_eq {α : Type} (x y : BitVec 32) (a b : α) :
    Scalar.select (IntOp.cmpi .eq x y) a b = if x = y then a else b := by
  by_cases h : x = y
  · rw [if_pos h, IntOp.cmpi_eq.mpr h, select_one]
  · rw [if_neg h, eq_zero_of_ne_one (fun e => h (IntOp.cmpi_eq.mp e)), select_zero]

/-- The column of words broadcast along the graphs' axis, read at an entry: the row's word. -/
theorem bcast_words_apply (v : IVec S4000x1 32) (r : Fin 4000) (g : Fin 512) :
    broadcastTo S4000x512 v broadcasts_S4000x1_S4000x512 (ix2 r g) = v (ix2 r (0 : Fin 1)) :=
  broadcastTo_apply v broadcasts_S4000x1_S4000x512 (ix2 r g) (ix2 r (0 : Fin 1)) (fun a => by
    match a with
    | ⟨0, _⟩ => show r.val = if (4000 : Nat) = 1 then 0 else r.val; rw [if_neg (by decide)]
    | ⟨1, _⟩ => show 0 = if (1 : Nat) = 1 then 0 else g.val; rw [if_pos rfl])

/-- One entry of the scratch after a grid point: what it held, plus the sum over the block's rows whose word, read
    signed, is the graph's number of the row's feature. -/
theorem k3_pay2_apply (v3 : Vec Ideal S4000x128 .f32) (v6 : Vec Ideal S4000x1 .i32) (v16 : Vec Ideal S512x128 .f32)
    (g : Fin 512) (f : Fin 128) :
    k3_pay2 (F := Ideal) v3 v6 v16 (ix2 g f)
      = v16 (ix2 g f) + ∑ r : Fin 4000, if (v6 (ix2 r (0 : Fin 1))).toInt = (g.val : ℤ) then v3 (ix2 r f) else 0 := by
  unfold k3_pay2
  simp only [shapeCast_self, matmul]
  rw [addf_apply, pool_matmul_apply]
  refine congrArg (v16 (ix2 g f) + ·) (Finset.sum_congr rfl fun r _ => ?_)
  rw [truncf_apply, truncf_apply, select_apply, broadcast_apply, broadcast_apply]
  show Scalar.select (IntOp.cmpi .eq (broadcastTo S4000x512 v6 broadcasts_S4000x1_S4000x512 (ix2 r g))
      (iota .tc S4000x512 32 [1] iota_S4000x512_d1_w32 (ix2 r g))) (Ideal.ofBits .f32 0x3F800000#32) (Ideal.ofBits .f32 0x00000000#32) * v3 (ix2 r f) = _
  rw [bcast_words_apply, iota_single_apply, select_cmpi_eq, Ideal.ofBits_one_f32, Ideal.ofBits_zero_f32]
  show (if v6 (ix2 r (0 : Fin 1)) = BitVec.ofNat 32 g.val then (1 : EReal) else 0) * v3 (ix2 r f) = _
  by_cases h : v6 (ix2 r (0 : Fin 1)) = BitVec.ofNat 32 g.val
  · rw [if_pos h, if_pos ((word_eq_ofNat_iff _ _ g.isLt).mp h), one_mul]
  · rw [if_neg h, if_neg (fun e => h ((word_eq_ofNat_iff _ _ g.isLt).mpr e)), zero_mul]

/-! ## The blocks of the two blocked windows, and the whole-array windows -/

/-- The index maps of the two blocked windows, decided over the grid: the block of point t starts at row 4000·t of its
    array, column 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- An entry of the feature block at point t is the array's entry at row 4000·t + r. -/
theorem iblk3_0_apply (c : Dev nD) (t : Fin cfg3.N) (r : Fin 4000) (f : Fin 128) (e : Fin 100000)
    (he : e.val = 4000 * t.val + r.val) :
    iblk3 (F := Ideal) V c 0 t (ix2 r f) = V c (Pipeline.arrRef spec3 0) (ix2 e f) := by
  obtain ⟨e0, e1, e2, e3⟩ := idx_facts3 t
  show V c (Pipeline.arrRef spec3 0) (((cfg3.win 0).blk t).view.emb (ix2 r f)) = V c (Pipeline.arrRef spec3 0) (ix2 e f)
  refine congrArg _ (funext fun a => Fin.ext ?_)
  match a with
  | ⟨0, _⟩ => show win3_0.index t (0 : Fin 2) * 4000 + 1 * r.val = e.val; omega
  | ⟨1, _⟩ => show win3_0.index t (1 : Fin 2) * 128 + 1 * f.val = f.val; omega

/-- An entry of the word block at point t is the array's word at row 4000·t + r. -/
theorem iblk3_1_apply (c : Dev nD) (t : Fin cfg3.N) (r : Fin 4000) (e : Fin 100000)
    (he : e.val = 4000 * t.val + r.val) :
    iblk3 (F := Ideal) V c 1 t (ix2 r (0 : Fin 1)) = V c (Pipeline.arrRef spec3 1) (ix2 e (0 : Fin 1)) := by
  obtain ⟨e0, e1, e2, e3⟩ := idx_facts3 t
  show V c (Pipeline.arrRef spec3 1) (((cfg3.win 1).blk t).view.emb (ix2 r (0 : Fin 1))) = V c (Pipeline.arrRef spec3 1) (ix2 e (0 : Fin 1))
  refine congrArg _ (funext fun a => Fin.ext ?_)
  match a with
  | ⟨0, _⟩ => show win3_1.index t (0 : Fin 2) * 4000 + 1 * r.val = e.val; omega
  | ⟨1, _⟩ => show win3_1.index t (1 : Fin 2) * 1 + 1 * 0 = 0; omega

/-! ## The scratch after n points, entry by entry -/

/-- Node e's contribution to graph g's pooled feature, zero past the last node. -/
def poolTerm (word : Fin 100000 → BitVec 32) (h : Fin 100000 → EReal) (g : ℕ) (e : ℕ) : EReal :=
  if he : e < 100000 then (if (word ⟨e, he⟩).toInt = (g : ℤ) then h ⟨e, he⟩ else 0) else 0

/-- The zero block the scratch starts from. -/
theorem k3_pay1_apply (i : S512x128.Idx) : k3_pay1 (F := Ideal) i = 0 := by
  unfold k3_pay1
  simp only [shapeCast_self]
  rw [broadcast_apply]
  exact Ideal.ofBits_zero_f32

/-- After n points an entry of the scratch is the sum of the contributions of the first 4000·n nodes. -/
theorem acc3_partial (c : Dev nD) (g : Fin 512) (f : Fin 128) : ∀ n : ℕ, n ≤ 25 →
    acc3 (F := Ideal) V c n (ix2 g f)
      = ∑ e ∈ Finset.range (4000 * n), poolTerm (fun e : Fin 100000 => V c (Pipeline.arrRef spec3 1) (ix2 e (0 : Fin 1)))
          (fun e : Fin 100000 => V c (Pipeline.arrRef spec3 0) (ix2 e f)) g.val e
  | 0, _ => by
    rw [acc3_zero, k3_pay1_apply]
    rfl
  | n + 1, hn => by
    have hN : cfg3.N = 25 := N_3
    have hlt : n < cfg3.N := by omega
    have ih := acc3_partial c g f n (by omega)
    rw [show n + 1 = (⟨n, hlt⟩ : Fin cfg3.N).val + 1 from rfl, acc3_succ]
    refine (k3_pay2_apply _ _ _ g f).trans ?_
    rw [show 4000 * ((⟨n, hlt⟩ : Fin cfg3.N).val + 1) = 4000 * n + 4000 from by show 4000 * (n + 1) = _; omega,
      Finset.sum_range_add, ← ih, Finset.sum_range]
    refine congrArg (acc3 (F := Ideal) V c n (ix2 g f) + ·) (Finset.sum_congr rfl fun r _ => ?_)
    unfold poolTerm
    have hr := r.isLt
    rw [dif_pos (show 4000 * n + r.val < 100000 by omega),
      iblk3_0_apply V c ⟨n, hlt⟩ r f ⟨4000 * n + r.val, by omega⟩ rfl,
      iblk3_1_apply V c ⟨n, hlt⟩ r ⟨4000 * n + r.val, by omega⟩ rfl]

/-! ## The result array after the run -/

/-- The last grid point. -/
abbrev tLast3 : Fin cfg3.N := ⟨24, by decide⟩

/-- At the last point each whole-array window's block is its array. -/
theorem iblk3_2_last (c : Dev nD) : iblk3 (F := Ideal) V c 2 tLast3 = V c (Pipeline.arrRef spec3 2) := by
  have hz : (fun a => (win3_2.index tLast3) a * main_arg14.ty.shape.size a) = fun _ => 0 := funext fun a => by fin_cases a <;> decide
  exact Memref.read_access_unit_zero (Elt Ideal) main_arg14 hz _ _
theorem iblk3_3_last (c : Dev nD) : iblk3 (F := Ideal) V c 3 tLast3 = V c (Pipeline.arrRef spec3 3) := by
  have hz : (fun a => (win3_3.index tLast3) a * main_arg15.ty.shape.size a) = fun _ => 0 := funext fun a => by fin_cases a <;> decide
  exact Memref.read_access_unit_zero (Elt Ideal) main_arg15 hz _ _
theorem iblk3_4_last (c : Dev nD) : iblk3 (F := Ideal) V c 4 tLast3 = V c (Pipeline.arrRef spec3 4) := by
  have hz : (fun a => (win3_4.index tLast3) a * main_arg12.ty.shape.size a) = fun _ => 0 := funext fun a => by fin_cases a <;> decide
  exact Memref.read_access_unit_zero (Elt Ideal) main_arg12 hz _ _
theorem iblk3_5_last (c : Dev nD) : iblk3 (F := Ideal) V c 5 tLast3 = V c (Pipeline.arrRef spec3 5) := by
  have hz : (fun a => (win3_5.index tLast3) a * main_arg13.ty.shape.size a) = fun _ => 0 := funext fun a => by fin_cases a <;> decide
  exact Memref.read_access_unit_zero (Elt Ideal) main_arg13 hz _ _

end Pool

open Pool

/-- THE RESULT: only the last point writes the result window back, and its block is the whole array, so the array after
    the run is what the body left there: the decode of the pooled sums. -/
theorem final3 (c : Dev nD) : (dat3 (F := Ideal) V c).arrAt 6 cfg3.N
    = out3_6 (acc3 V c 25) (V c (Pipeline.arrRef spec3 2)) (V c (Pipeline.arrRef spec3 3)) (V c (Pipeline.arrRef spec3 4)) (V c (Pipeline.arrRef spec3 5)) := by
  rw [show cfg3.N = tLast3.val + 1 from rfl, (dat3 (F := Ideal) V c).arrAt_succ 6 tLast3,
    if_pos ((flush3_6 tLast3).mpr rfl)]
  have hz : (fun a => (win3_6.index tLast3) a * main_v0.ty.shape.size a) = fun _ => 0 := funext fun a => by fin_cases a <;> decide
  refine (Memref.write_access_unit_zero_univ (Elt Ideal) main_v0 hz _ _ _).trans ?_
  refine (after3_6 (F := Ideal) V c tLast3).trans ?_
  rw [iblk3_2_last, iblk3_3_last, iblk3_4_last, iblk3_5_last]
  rfl

/-- THE POOLED SUMS: after the last point an entry of the scratch is the pooled feature of its graph. -/
theorem acc3_entry (c : Dev nD) (g : Fin 512) (f : Fin 128) :
    acc3 (F := Ideal) V c 25 (ix2 g f)
      = Sage.Spec.pooled (fun e : Fin 100000 => V c (Pipeline.arrRef spec3 1) (ix2 e (0 : Fin 1)))
          (fun e : Fin 100000 => V c (Pipeline.arrRef spec3 0) (ix2 e f)) g.val := by
  rw [acc3_partial V c g f 25 (le_refl _), show 4000 * 25 = 100000 from rfl, Finset.sum_range]
  unfold Sage.Spec.pooled
  refine Finset.sum_congr rfl fun e _ => ?_
  unfold poolTerm
  rw [dif_pos e.isLt]

end Cert.KernelIdeal.Body

end
-- ==== Proof.KI.ValDecode.lean ====
/-
  One entry of the decode payload.

  Each of the 512 rows of the pooled features is normalised: its mean is the row's sum divided by 128, its variance the
  mean of the squared differences from that mean, and each entry's difference is scaled by the reciprocal square root of
  the variance plus epsilon, then by the scale vector, and shifted by the shift vector. The normalised row is multiplied
  by a column of the last weight matrix and the bias entry is added. Read at an index (r, j) this is the neutral
  specification's decode of row r against column j.

  The steps: a lane sum read at a row is the sum over the row's 128 columns; a vector cast to a column and a column
  broadcast along the rows read the vector at the row; a row vector broadcast down the rows reads it at the column; the
  matrix product into a zero accumulator read at (r, j) is the sum over the 128 contraction coordinates of the products.
-/
import proofs.«426697_j79577154060299_2_alg».proof.Proof.Gen.KernelIdeal.Skeleton
import proofs.«426697_j79577154060299_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## A column cast and a column broadcast read at an index -/

/-- A vector of length a cast to an a × 1 column reads, at (i, u), the vector at i. -/
theorem decode_cast_col {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An a × 1 column broadcast to a × b reads, at (p, c), the column at (p, 0). -/
theorem decode_bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A lane sum read at a row -/

/-- The sum along axis 1 of a 512 × 128 vector, read at row r, is the sum over the row's 128 columns. -/
theorem decode_row_sum (src : FVec Ideal S512x128 .f32) (h : S512x128.Reduces [1] S512) (hφ : FKind.Formats .f32)
    (hacc : (0x00000000#32 : BitVec 32) = FKind.add.neutral .f32 hφ) (r : Fin 512) :
    multiReduction .add [1] S512 src 0x00000000#32 h hφ hacc (ix1 r) = ∑ k : Fin 128, src (ix2 r k) := by
  refine (Ideal.multiReduction_add_single src _ h hφ hacc (ix1 r)).trans ?_
  refine Finset.sum_congr rfl fun k _ => congrArg src (funext fun ax => ?_)
  match ax with
  | ⟨0, _⟩ => exact Fin.ext rfl
  | ⟨1, _⟩ => exact Fin.ext rfl

/-! ## The matrix product read at an index -/

/-- The left operand's row coordinate is the output's row. -/
theorem decode_lhs_0 (i : S512x2.Idx) (q : dot_S512x128_S128x2_S512x2_1_0_0_1_n_n.contr.Idx) :
    (dot_S512x128_S128x2_S512x2_1_0_0_1_n_n.lhsIdx i q 0).val = (i 0).val := by
  unfold DotDims.lhsIdx
  rw [dif_neg (show ¬(0 : Fin S512x128.rank) ∈ dot_S512x128_S128x2_S512x2_1_0_0_1_n_n.lhsBatch by decide), dif_pos (show (0 : Fin S512x128.rank) ∈ dot_S512x128_S128x2_S512x2_1_0_0_1_n_n.lhsNonContracting by decide)]
  rfl
/-- The left operand's column coordinate is the contraction coordinate. -/
theorem decode_lhs_1 (i : S512x2.Idx) (q : dot_S512x128_S128x2_S512x2_1_0_0_1_n_n.contr.Idx) :
    (dot_S512x128_S128x2_S512x2_1_0_0_1_n_n.lhsIdx i q 1).val = (q ⟨0, by decide⟩).val :=
  dot_S512x128_S128x2_S512x2_1_0_0_1_n_n.lhsIdx_val_of_single rfl i q
/-- The right operand's row coordinate is the contraction coordinate. -/
theorem decode_rhs_0 (i : S512x2.Idx) (q : dot_S512x128_S128x2_S512x2_1_0_0_1_n_n.contr.Idx) :
    (dot_S512x128_S128x2_S512x2_1_0_0_1_n_n.rhsIdx i q 0).val = (q ⟨0, by decide⟩).val :=
  dot_S512x128_S128x2_S512x2_1_0_0_1_n_n.rhsIdx_val_of_single rfl i q
/-- The right operand's column coordinate is the output's column. -/
theorem decode_rhs_1 (i : S512x2.Idx) (q : dot_S512x128_S128x2_S512x2_1_0_0_1_n_n.contr.Idx) :
    (dot_S512x128_S128x2_S512x2_1_0_0_1_n_n.rhsIdx i q 1).val = (i 1).val := by
  unfold DotDims.rhsIdx
  rw [dif_neg (show ¬(1 : Fin S128x2.rank) ∈ dot_S512x128_S128x2_S512x2_1_0_0_1_n_n.rhsBatch by decide), dif_pos (show (1 : Fin S128x2.rank) ∈ dot_S512x128_S128x2_S512x2_1_0_0_1_n_n.rhsNonContracting by decide)]
  rfl

/-- The product of a 512 × 128 by a 128 × 2 matrix into the zero accumulator, read at (r, j), is the sum over the 128
    contraction coordinates k of the left operand at (r, k) times the right at (k, j). -/
theorem decode_matmul {φ₁ φ₂ : FTy} (lhs : FVec Ideal S512x128 φ₁) (rhs : FVec Ideal S128x2 φ₂) (r : Fin 512) (j : Fin 2) :
    matmul dot_S512x128_S128x2_S512x2_1_0_0_1_n_n none lhs rhs (constant (F := Ideal) S512x2 .f32 0x00000000#32) (ix2 r j)
      = ∑ k : Fin 128, lhs (ix2 r k) * rhs (ix2 k j) := by
  simp only [matmul]
  rw [Ideal.matmul_constant_zero_apply, ← Equiv.sum_comp (ValueIdx.contrEquiv1 dot_S512x128_S128x2_S512x2_1_0_0_1_n_n 128 rfl rfl).symm]
  refine Finset.sum_congr rfl fun k _ => ?_
  have hk := ValueIdx.contrEquiv1_symm_val dot_S512x128_S128x2_S512x2_1_0_0_1_n_n 128 rfl rfl k
  have el : dot_S512x128_S128x2_S512x2_1_0_0_1_n_n.lhsIdx (ix2 r j) ((ValueIdx.contrEquiv1 dot_S512x128_S128x2_S512x2_1_0_0_1_n_n 128 rfl rfl).symm k) = ix2 r k := funext fun a => Fin.ext (by
    match a with
    | ⟨0, _⟩ => exact decode_lhs_0 _ _
    | ⟨1, _⟩ => exact (decode_lhs_1 _ _).trans hk)
  have er : dot_S512x128_S128x2_S512x2_1_0_0_1_n_n.rhsIdx (ix2 r j) ((ValueIdx.contrEquiv1 dot_S512x128_S128x2_S512x2_1_0_0_1_n_n 128 rfl rfl).symm k) = ix2 k j := funext fun a => Fin.ext (by
    match a with
    | ⟨0, _⟩ => exact (decode_rhs_0 _ _).trans hk
    | ⟨1, _⟩ => exact decode_rhs_1 _ _)
  rw [el, er]

/-! ## The entry -/

/-- The reciprocal square root of a vector read at an index is that of the element. -/
theorem decode_rsqrt_apply {s : Shape} {φ : FTy} (a : FVec Ideal s φ) (i : s.Idx) : rsqrt a i = Ideal.rsqrt (a i) := rfl

/-- One entry of the decode payload, at row r and column j, is the specification's decode of row r of the pooled
    features against column j of the weight matrix. -/
theorem decode_entry (g : Vec Ideal S512x128 .f32) (lg lb : Vec Ideal S128 .f32) (wd : Vec Ideal S128x2 .f32) (bd : Vec Ideal S2 .f32) (r : Fin 512) (j : Fin 2) :
    k3_pay3 (F := Ideal) g lg lb wd bd (ix2 r j)
      = Sage.Spec.decode (fun k : Fin 128 => g (ix2 r k)) (fun k : Fin 128 => lg (ix1 k)) (fun k : Fin 128 => lb (ix1 k)) (fun k : Fin 128 => wd (ix2 k j)) (bd (ix1 j)) := by
  have hsum : ∀ src : FVec Ideal S512x128 .f32,
      multiReduction .add [1] S512 src 0x00000000#32 reduces_S512x128_S512 (.inl rfl) rfl (ix1 r) = ∑ k : Fin 128, src (ix2 r k) :=
    fun src => decode_row_sum src _ _ _ r
  unfold k3_pay3
  simp only [addf_apply, decode_matmul, truncf_apply, mulf_apply, subf_apply, broadcastTo_1b_ab_apply, shapeCast_a_1a_apply,
    decode_bcast_col, decode_rsqrt_apply, divf_apply, broadcast_apply, decode_cast_col, hsum]
  unfold Sage.Spec.decode Sage.Spec.mean128
  rfl

end Cert.KernelIdeal.Body

end
-- ==== Proof.RefLayers.lean ====
/-
  The reference's three layers, entry by entry.

  Each layer of the reference is: the neighbour sums divided by max(count, 1), contracted with the left weight matrix,
  plus the bias row, plus the features contracted with the right weight matrix, then the maximum with zero. Read at the
  entry (n, f) this is the specification's `layerR` of row n of the sums and of the features, column f of the two weight
  matrices, the bias entry f and the count of node n. The neighbour sums and counts are scatters and stay opaque arrays.
-/
import proofs.«426697_j79577154060299_2_alg».proof.Proof.RefRun
import proofs.«426697_j79577154060299_2_alg».proof.Proof.Spec
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The first layer (64 input features) -/

/-- The divisor of the first layer at any column of row n: the count of node n, at least one. -/
theorem den0 (x1 : (⟨S2x1600000, .i32⟩ : BufTy).Contents (Elt Ideal)) (n : Fin 100000) (k : Fin 64) :
    val_main_v21 (F := Ideal) x1 (ix2 n k) = max (val_main_v17 (F := Ideal) x1 (ix1 n)) 1 := by
  have e : idx_main_v20 (idx_main_v21 (ix2 n k)) = ix1 n :=
    funext fun a => Fin.ext (by match a with | ⟨0, _⟩ => rfl)
  rw [val_main_v21_apply, val_main_v20_apply, val_main_v19_apply, val_main_v18_apply, val_main_cst_3_apply, e,
    Ideal.maximumf_def, Ideal.ofBits_def, Ideal.ofBits_one_f32]

/-- The mean aggregate of the first layer at (n, k). -/
theorem mean0 (x0 : (⟨S100000x64, .f32⟩ : BufTy).Contents (Elt Ideal)) (x1 : (⟨S2x1600000, .i32⟩ : BufTy).Contents (Elt Ideal))
    (n : Fin 100000) (k : Fin 64) :
    val_main_v22 (F := Ideal) x0 x1 (ix2 n k)
      = Ideal.div (val_main_v13 (F := Ideal) x0 x1 (ix2 n k)) (max (val_main_v17 (F := Ideal) x1 (ix1 n)) 1) := by
  rw [val_main_v22_apply, Ideal.hostDivf_def, den0]

/-- The mean aggregate times the left weight matrix at (n, f). -/
theorem left0 (x0 : (⟨S100000x64, .f32⟩ : BufTy).Contents (Elt Ideal)) (x1 : (⟨S2x1600000, .i32⟩ : BufTy).Contents (Elt Ideal))
    (x3 : (⟨S64x128, .f32⟩ : BufTy).Contents (Elt Ideal)) (n : Fin 100000) (f : Fin 128) :
    val_main_v23 (F := Ideal) x0 x1 x3 (ix2 n f)
      = ∑ k : Fin 64, Ideal.div (val_main_v13 (F := Ideal) x0 x1 (ix2 n k)) (max (val_main_v17 (F := Ideal) x1 (ix1 n)) 1)
          * x3 (ix2 k f) := by
  rw [val_main_v23_apply]
  refine Finset.sum_congr rfl fun k _ => ?_
  have el : lidx_main_v23 (ix2 n f) k = ix2 n k :=
    funext fun a => Fin.ext (by match a with | ⟨0, _⟩ => rfl | ⟨1, _⟩ => rfl)
  have er : ridx_main_v23 (ix2 n f) k = ix2 k f :=
    funext fun a => Fin.ext (by match a with | ⟨0, _⟩ => rfl | ⟨1, _⟩ => rfl)
  rw [el, er, mean0]

/-- The bias row of the first layer at (n, f). -/
theorem bias0 (x4 : (⟨S128, .f32⟩ : BufTy).Contents (Elt Ideal)) (n : Fin 100000) (f : Fin 128) :
    val_main_v25 (F := Ideal) x4 (ix2 n f) = x4 (ix1 f) := by
  have e : idx_main_v24 (idx_main_v25 (ix2 n f)) = ix1 f :=
    funext fun a => Fin.ext (by match a with | ⟨0, _⟩ => rfl)
  rw [val_main_v25_apply, val_main_v24_apply, e]

/-- The features times the right weight matrix at (n, f). -/
theorem right0 (x0 : (⟨S100000x64, .f32⟩ : BufTy).Contents (Elt Ideal)) (x5 : (⟨S64x128, .f32⟩ : BufTy).Contents (Elt Ideal))
    (n : Fin 100000) (f : Fin 128) :
    val_main_v27 (F := Ideal) x0 x5 (ix2 n f) = ∑ k : Fin 64, x0 (ix2 n k) * x5 (ix2 k f) := by
  rw [val_main_v27_apply]
  refine Finset.sum_congr rfl fun k _ => ?_
  have el : lidx_main_v27 (ix2 n f) k = ix2 n k :=
    funext fun a => Fin.ext (by match a with | ⟨0, _⟩ => rfl | ⟨1, _⟩ => rfl)
  have er : ridx_main_v27 (ix2 n f) k = ix2 k f :=
    funext fun a => Fin.ext (by match a with | ⟨0, _⟩ => rfl | ⟨1, _⟩ => rfl)
  rw [el, er]

/-- The zero the first relu compares with. -/
theorem zero0 (i : S100000x128.Idx) : val_main_call0_v0 (F := Ideal) i = 0 := by
  rw [val_main_call0_v0_apply, val_main_call0_cst_apply, Ideal.ofBits_def, Ideal.ofBits_zero_f32]

/-- The reference's first layer at the entry (n, f). -/
theorem layer0_ref (x0 : (⟨S100000x64, .f32⟩ : BufTy).Contents (Elt Ideal)) (x1 : (⟨S2x1600000, .i32⟩ : BufTy).Contents (Elt Ideal))
    (x3 : (⟨S64x128, .f32⟩ : BufTy).Contents (Elt Ideal)) (x4 : (⟨S128, .f32⟩ : BufTy).Contents (Elt Ideal))
    (x5 : (⟨S64x128, .f32⟩ : BufTy).Contents (Elt Ideal)) (n : Fin 100000) (f : Fin 128) :
    val_main_v29 (F := Ideal) x0 x1 x3 x4 x5 (ix2 n f)
      = Sage.Spec.layerR (fun k : Fin 64 => val_main_v13 (F := Ideal) x0 x1 (ix2 n k)) (fun k : Fin 64 => x0 (ix2 n k))
          (fun k : Fin 64 => x3 (ix2 k f)) (fun k : Fin 64 => x5 (ix2 k f)) (x4 (ix1 f))
          (val_main_v17 (F := Ideal) x1 (ix1 n)) := by
  rw [val_main_v29_apply, val_main_v28_apply, val_main_v26_apply, left0, bias0, right0, zero0,
    Ideal.maximumf_def, Ideal.addf_def, Ideal.addf_def]
  rfl

/-! ## The second and third layers (128 input features)

The argument arrays, in the order the reference takes them: the features, the edge list, then per layer the left weight
matrix, the bias and the right weight matrix. -/

variable (x0 : (⟨S100000x64, .f32⟩ : BufTy).Contents (Elt Ideal)) (x1 : (⟨S2x1600000, .i32⟩ : BufTy).Contents (Elt Ideal))
  (x3 : (⟨S64x128, .f32⟩ : BufTy).Contents (Elt Ideal)) (x4 : (⟨S128, .f32⟩ : BufTy).Contents (Elt Ideal))
  (x5 : (⟨S64x128, .f32⟩ : BufTy).Contents (Elt Ideal)) (x6 : (⟨S128x128, .f32⟩ : BufTy).Contents (Elt Ideal))
  (x7 : (⟨S128, .f32⟩ : BufTy).Contents (Elt Ideal)) (x8 : (⟨S128x128, .f32⟩ : BufTy).Contents (Elt Ideal))
  (x9 : (⟨S128x128, .f32⟩ : BufTy).Contents (Elt Ideal)) (x10 : (⟨S128, .f32⟩ : BufTy).Contents (Elt Ideal))
  (x11 : (⟨S128x128, .f32⟩ : BufTy).Contents (Elt Ideal))

/-- The divisor of the second layer at any column of row n: the count of node n, at least one. -/
theorem den1 (n : Fin 100000) (k : Fin 128) :
    val_main_v47 (F := Ideal) x1 (ix2 n k) = max (val_main_v43 (F := Ideal) x1 (ix1 n)) 1 := by
  have e : idx_main_v46 (idx_main_v47 (ix2 n k)) = ix1 n :=
    funext fun a => Fin.ext (by match a with | ⟨0, _⟩ => rfl)
  rw [val_main_v47_apply, val_main_v46_apply, val_main_v45_apply, val_main_v44_apply, val_main_cst_9_apply, e,
    Ideal.maximumf_def, Ideal.ofBits_def, Ideal.ofBits_one_f32]

/-- The mean aggregate of the second layer at (n, k). -/
theorem mean1 (n : Fin 100000) (k : Fin 128) :
    val_main_v48 (F := Ideal) x0 x1 x3 x4 x5 (ix2 n k)
      = Ideal.div (val_main_v39 (F := Ideal) x0 x1 x3 x4 x5 (ix2 n k)) (max (val_main_v43 (F := Ideal) x1 (ix1 n)) 1) := by
  rw [val_main_v48_apply, Ideal.hostDivf_def, den1]

/-- The second layer's mean aggregate times its left weight matrix at (n, f). -/
theorem left1 (n : Fin 100000) (f : Fin 128) :
    val_main_v49 (F := Ideal) x0 x1 x3 x4 x5 x6 (ix2 n f)
      = ∑ k : Fin 128, Ideal.div (val_main_v39 (F := Ideal) x0 x1 x3 x4 x5 (ix2 n k))
            (max (val_main_v43 (F := Ideal) x1 (ix1 n)) 1) * x6 (ix2 k f) := by
  rw [val_main_v49_apply]
  refine Finset.sum_congr rfl fun k _ => ?_
  have el : lidx_main_v49 (ix2 n f) k = ix2 n k :=
    funext fun a => Fin.ext (by match a with | ⟨0, _⟩ => rfl | ⟨1, _⟩ => rfl)
  have er : ridx_main_v49 (ix2 n f) k = ix2 k f :=
    funext fun a => Fin.ext (by match a with | ⟨0, _⟩ => rfl | ⟨1, _⟩ => rfl)
  rw [el, er, mean1]

/-- The bias row of the second layer at (n, f). -/
theorem bias1 (n : Fin 100000) (f : Fin 128) :
    val_main_v51 (F := Ideal) x7 (ix2 n f) = x7 (ix1 f) := by
  have e : idx_main_v50 (idx_main_v51 (ix2 n f)) = ix1 f :=
    funext fun a => Fin.ext (by match a with | ⟨0, _⟩ => rfl)
  rw [val_main_v51_apply, val_main_v50_apply, e]

/-- The first layer's result times the second layer's right weight matrix at (n, f). -/
theorem right1 (n : Fin 100000) (f : Fin 128) :
    val_main_v53 (F := Ideal) x0 x1 x3 x4 x5 x8 (ix2 n f)
      = ∑ k : Fin 128, val_main_v29 (F := Ideal) x0 x1 x3 x4 x5 (ix2 n k) * x8 (ix2 k f) := by
  rw [val_main_v53_apply]
  refine Finset.sum_congr rfl fun k _ => ?_
  have el : lidx_main_v53 (ix2 n f) k = ix2 n k :=
    funext fun a => Fin.ext (by match a with | ⟨0, _⟩ => rfl | ⟨1, _⟩ => rfl)
  have er : ridx_main_v53 (ix2 n f) k = ix2 k f :=
    funext fun a => Fin.ext (by match a with | ⟨0, _⟩ => rfl | ⟨1, _⟩ => rfl)
  rw [el, er]

/-- The zero the second relu compares with. -/
theorem zero1 (i : S100000x128.Idx) : val_main_call1_v0 (F := Ideal) i = 0 := by
  rw [val_main_call1_v0_apply, val_main_call1_cst_apply, Ideal.ofBits_def, Ideal.ofBits_zero_f32]

/-- The reference's second layer at the entry (n, f). -/
theorem layer1_ref (n : Fin 100000) (f : Fin 128) :
    val_main_v55 (F := Ideal) x0 x1 x3 x4 x5 x6 x7 x8 (ix2 n f)
      = Sage.Spec.layerR (fun k : Fin 128 => val_main_v39 (F := Ideal) x0 x1 x3 x4 x5 (ix2 n k))
          (fun k : Fin 128 => val_main_v29 (F := Ideal) x0 x1 x3 x4 x5 (ix2 n k))
          (fun k : Fin 128 => x6 (ix2 k f)) (fun k : Fin 128 => x8 (ix2 k f)) (x7 (ix1 f))
          (val_main_v43 (F := Ideal) x1 (ix1 n)) := by
  rw [val_main_v55_apply, val_main_v54_apply, val_main_v52_apply, left1, bias1, right1, zero1,
    Ideal.maximumf_def, Ideal.addf_def, Ideal.addf_def]
  rfl

/-- The divisor of the third layer at any column of row n: the count of node n, at least one. -/
theorem den2 (n : Fin 100000) (k : Fin 128) :
    val_main_v73 (F := Ideal) x1 (ix2 n k) = max (val_main_v69 (F := Ideal) x1 (ix1 n)) 1 := by
  have e : idx_main_v72 (idx_main_v73 (ix2 n k)) = ix1 n :=
    funext fun a => Fin.ext (by match a with | ⟨0, _⟩ => rfl)
  rw [val_main_v73_apply, val_main_v72_apply, val_main_v71_apply, val_main_v70_apply, val_main_cst_15_apply, e,
    Ideal.maximumf_def, Ideal.ofBits_def, Ideal.ofBits_one_f32]

/-- The mean aggregate of the third layer at (n, k). -/
theorem mean2 (n : Fin 100000) (k : Fin 128) :
    val_main_v74 (F := Ideal) x0 x1 x3 x4 x5 x6 x7 x8 (ix2 n k)
      = Ideal.div (val_main_v65 (F := Ideal) x0 x1 x3 x4 x5 x6 x7 x8 (ix2 n k))
          (max (val_main_v69 (F := Ideal) x1 (ix1 n)) 1) := by
  rw [val_main_v74_apply, Ideal.hostDivf_def, den2]

/-- The third layer's mean aggregate times its left weight matrix at (n, f). -/
theorem left2 (n : Fin 100000) (f : Fin 128) :
    val_main_v75 (F := Ideal) x0 x1 x3 x4 x5 x6 x7 x8 x9 (ix2 n f)
      = ∑ k : Fin 128, Ideal.div (val_main_v65 (F := Ideal) x0 x1 x3 x4 x5 x6 x7 x8 (ix2 n k))
            (max (val_main_v69 (F := Ideal) x1 (ix1 n)) 1) * x9 (ix2 k f) := by
  rw [val_main_v75_apply]
  refine Finset.sum_congr rfl fun k _ => ?_
  have el : lidx_main_v75 (ix2 n f) k = ix2 n k :=
    funext fun a => Fin.ext (by match a with | ⟨0, _⟩ => rfl | ⟨1, _⟩ => rfl)
  have er : ridx_main_v75 (ix2 n f) k = ix2 k f :=
    funext fun a => Fin.ext (by match a with | ⟨0, _⟩ => rfl | ⟨1, _⟩ => rfl)
  rw [el, er, mean2]

/-- The bias row of the third layer at (n, f). -/
theorem bias2 (n : Fin 100000) (f : Fin 128) :
    val_main_v77 (F := Ideal) x10 (ix2 n f) = x10 (ix1 f) := by
  have e : idx_main_v76 (idx_main_v77 (ix2 n f)) = ix1 f :=
    funext fun a => Fin.ext (by match a with | ⟨0, _⟩ => rfl)
  rw [val_main_v77_apply, val_main_v76_apply, e]

/-- The second layer's result times the third layer's right weight matrix at (n, f). -/
theorem right2 (n : Fin 100000) (f : Fin 128) :
    val_main_v79 (F := Ideal) x0 x1 x3 x4 x5 x6 x7 x8 x11 (ix2 n f)
      = ∑ k : Fin 128, val_main_v55 (F := Ideal) x0 x1 x3 x4 x5 x6 x7 x8 (ix2 n k) * x11 (ix2 k f) := by
  rw [val_main_v79_apply]
  refine Finset.sum_congr rfl fun k _ => ?_
  have el : lidx_main_v79 (ix2 n f) k = ix2 n k :=
    funext fun a => Fin.ext (by match a with | ⟨0, _⟩ => rfl | ⟨1, _⟩ => rfl)
  have er : ridx_main_v79 (ix2 n f) k = ix2 k f :=
    funext fun a => Fin.ext (by match a with | ⟨0, _⟩ => rfl | ⟨1, _⟩ => rfl)
  rw [el, er]

/-- The zero the third relu compares with. -/
theorem zero2 (i : S100000x128.Idx) : val_main_call2_v0 (F := Ideal) i = 0 := by
  rw [val_main_call2_v0_apply, val_main_call2_cst_apply, Ideal.ofBits_def, Ideal.ofBits_zero_f32]

/-- The reference's third layer at the entry (n, f). -/
theorem layer2_ref (n : Fin 100000) (f : Fin 128) :
    val_main_v81 (F := Ideal) x0 x1 x3 x4 x5 x6 x7 x8 x9 x10 x11 (ix2 n f)
      = Sage.Spec.layerR (fun k : Fin 128 => val_main_v65 (F := Ideal) x0 x1 x3 x4 x5 x6 x7 x8 (ix2 n k))
          (fun k : Fin 128 => val_main_v55 (F := Ideal) x0 x1 x3 x4 x5 x6 x7 x8 (ix2 n k))
          (fun k : Fin 128 => x9 (ix2 k f)) (fun k : Fin 128 => x11 (ix2 k f)) (x10 (ix1 f))
          (val_main_v69 (F := Ideal) x1 (ix1 n)) := by
  rw [val_main_v81_apply, val_main_v80_apply, val_main_v78_apply, left2, bias2, right2, zero2,
    Ideal.maximumf_def, Ideal.addf_def, Ideal.addf_def]
  rfl

end Cert.ReferenceIdeal.RefValue

end
-- ==== Proof.LibRows.lean ====
/-
  A row gather and a segment sum, read at an index.

  gather_rows: the gather that x[idx] of a matrix lowers to (start indices an [E,1] column, the row axis collapsed and
  start-indexed, the column axis an offset axis) reads, at (e, q), the matrix at the row that idx (e,0) names — read signed
  and clamped into the table — and column q.
  scatterAdd_rows / scatterAdd_vec: the accumulating scatter that a segment sum lowers to adds, to the operand's entry at
  row r, every update row e whose index word, read signed and not clamped, is r; a word outside the table adds nowhere.
-/
import Idealize.ShloMosaic.PureOps.Ideal
import Idealize.ShloMosaic.PureOps.Contract
import Idealize.ShloMosaic.Lib.ValueIdx
import Idealize.ShloMosaic.Lib.StableHlo.Predicate

noncomputable section

namespace Gcn.Rows

open Idealize.ShloMosaic Idealize.ShloMosaic.ValueIdx

theorem gather_rows {α : Type} {N E C w : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q)
      = x (ix2 (⟨min (idx (ix2 e (0 : Fin 1))).toInt.toNat (N - 1), by omega⟩ : Fin N) q) := by
  unfold Host.gather
  congr 1
  funext a
  apply Fin.ext
  have hb : ∀ a, a ∉ d.operandBatchingDims := by intro a; rw [hob]; exact List.not_mem_nil
  have hq : ∀ x : Fin 2, x = 1 → ((ix2 e q : (⟨2, ![E, C]⟩ : Shape).Idx) x).val = q.val := by
    intro x hx; subst hx; rfl
  have he : ∀ x : Fin 2, x = 0 → ((ix2 e q : (⟨2, ![E, C]⟩ : Shape).Idx) x).val = e.val := by
    intro x hx; subst hx; rfl
  -- the result's one offset axis is axis 1, its one batch axis is axis 0
  have hoffall : ∀ y ∈ d.offsetDims, y = 1 := by
    intro y hy; rw [hoff] at hy; exact List.mem_singleton.mp hy
  have hbatall : ∀ y ∈ d.batchDims, y = 0 := by
    intro y hy
    have hy1 : y ∉ d.offsetDims := by
      have := (List.mem_filter.mp hy).2
      simpa using this
    rw [hoff] at hy1
    match y with
    | ⟨0, _⟩ => rfl
    | ⟨1, _⟩ => exact absurd (List.mem_singleton.mpr rfl) hy1
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    have hlen : d.startIndexMap.length = 1 := by rw [hsim]; rfl
    -- every component of the start index of (e, q) is read at (e, 0)
    have hsi : ∀ c, d.siIdx (ix2 e q) c = ix2 e (0 : Fin 1) := by
      intro c
      funext b
      match b with
      | ⟨0, _⟩ =>
        unfold GatherDims.siIdx
        rw [dif_neg (by rw [hivd]; simp)]
        unfold GatherDims.siCoord
        apply Fin.ext
        simp only [Fin.val_cast]
        exact he _ (hbatall _ (List.getElem_mem _))
      | ⟨1, _⟩ =>
        unfold GatherDims.siIdx
        rw [dif_pos (by rw [hivd])]
        apply Fin.ext
        show c.val = 0
        have := c.isLt
        omega
    show d.start (ix2 e q) idx 0 + d.batchCoord (ix2 e q) 0 + d.offCoord (ix2 e q) 0 = min _ (N - 1)
    rw [GatherDims.batchCoord_eq_zero _ _ _ (hb _), GatherDims.offCoord_eq_zero _ _ _ hk]
    simp only [Nat.add_zero]
    unfold GatherDims.start
    rw [dif_pos hm, hsi]
    show min (idx _).toInt.toNat (N - d.sliceSizes 0) = _
    rw [hsl]
  | ⟨1, _⟩ =>
    have hk : (1 : Fin 2) ∈ d.sKept := by rw [GatherDims.mem_sKept, hcoll]; exact ⟨by simp, hb _⟩
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (hoffall _ (List.getElem_mem _))

/-! The accumulating scatter of rows: on axis 0 the window starts at the index word read signed and has no extent, on
    axis 1 it starts at 0 and its coordinate is the update's column. -/

private theorem rows_siIdx {R E C : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  have he : ∀ x : Fin 2, x = 0 → ((ix2 e q' : (⟨2, ![E, C]⟩ : Shape).Idx) x).val = e.val := by
    intro x hx; subst hx; rfl
  have hscall : ∀ y ∈ d.uScatter, y = 0 := by
    intro y hy
    have hy1 : y ∉ d.updateWindowDims := by
      have := (List.mem_filter.mp hy).2
      simpa using this
    rw [huw] at hy1
    match y with
    | ⟨0, _⟩ => rfl
    | ⟨1, _⟩ => exact absurd (List.mem_singleton.mpr rfl) hy1
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _ (hscall _ (List.getElem_mem _))
  | ⟨1, _⟩ =>
    unfold ScatterDims.siIdx
    rw [dif_pos (by rw [hivd])]
    apply Fin.ext
    show c.val = 0
    have := c.isLt
    omega

private theorem rows_start0 {R E C w : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx 0 = (idx (ix2 e (0 : Fin 1))).toInt := by
  have hm : (0 : Fin 2) ∈ d.scatterDimsToOperandDims := by rw [hsd]; exact List.mem_singleton.mpr rfl
  unfold ScatterDims.start
  rw [dif_pos hm, rows_siIdx d huw hsd hivd]

private theorem rows_start1 {R E C w : ℕ} (d : ScatterDims ⟨2, ![R, C]⟩ ⟨2, ![E, 1]⟩ ⟨2, ![E, C]⟩)
    (hsd : d.scatterDimsToOperandDims = [0])
    (idx : IVec ⟨2, ![E, 1]⟩ w) (e : Fin E) (q' : Fin C) :
    d.start (ix2 e q') idx 1 = 0 := by
  have hm : (1 : Fin 2) ∉ d.scatterDimsToOperandDims := by rw [hsd]; simp
  unfold ScatterDims.start
  rw [dif_neg hm]

private theorem rows_window0 {R E C : ℕ} (d : ScatterDims ⟨2, ![R, C]⟩ ⟨2, ![E, 1]⟩ ⟨2, ![E, C]⟩)
    (hins : d.insertedWindowDims = [0]) (e : Fin E) (q' : Fin C) :
    d.window (ix2 e q') 0 = 0 := by
  have hk : (0 : Fin 2) ∉ d.sKept := by
    intro h
    have := (List.mem_filter.mp h).2
    rw [hins] at this
    simp at this
  unfold ScatterDims.window
  rw [dif_neg hk]

private theorem rows_window1 {R E C : ℕ} (d : ScatterDims ⟨2, ![R, C]⟩ ⟨2, ![E, 1]⟩ ⟨2, ![E, C]⟩)
    (huw : d.updateWindowDims = [1]) (hins : d.insertedWindowDims = [0]) (e : Fin E) (q' : Fin C) :
    d.window (ix2 e q') 1 = q'.val := by
  have hk : (1 : Fin 2) ∈ d.sKept := by
    refine List.mem_filter.mpr ⟨List.mem_finRange _, ?_⟩
    rw [hins]; simp
  have hq : ∀ x : Fin 2, x = 1 → ((ix2 e q' : (⟨2, ![E, C]⟩ : Shape).Idx) x).val = q'.val := by
    intro x hx; subst hx; rfl
  have hwall : ∀ y ∈ d.updateWindowDims, y = 1 := by
    intro y hy; rw [huw] at hy; exact List.mem_singleton.mp hy
  unfold ScatterDims.window
  rw [dif_pos hk]
  exact hq _ (hwall _ (List.getElem_mem _))

/-- An update entry (e, q') lands on the operand entry (r, q) exactly when its index word, read signed, is r and its
    column is q. -/
private theorem rows_resultIdx_iff {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1) (idx : IVec ⟨2, ![E, 1]⟩ w) (e : Fin E) (q' q : Fin C) (r : Fin R) :
    d.resultIdx? (ix2 e q') idx = some (ix2 r q)
      ↔ (idx (ix2 e (0 : Fin 1))).toInt = (r.val : ℤ) ∧ q' = q := by
  have hs0 := rows_start0 d huw hsd hivd idx e q'
  have hs1 := rows_start1 d hsd idx e q'
  have hw0 := rows_window0 d hins e q'
  have hw1 := rows_window1 d huw hins e q'
  have hr := r.isLt
  have hq := q.isLt
  have hq' := q'.isLt
  unfold ScatterDims.resultIdx?
  constructor
  · intro h
    split at h
    · rename_i hh
      have hf := Option.some.inj h
      have h0 : (d.start (ix2 e q') idx 0 + (d.window (ix2 e q') 0 : ℤ)).toNat = r.val :=
        congrArg (fun f : (⟨2, ![R, C]⟩ : Shape).Idx => (f 0).val) hf
      have h1 : (d.start (ix2 e q') idx 1 + (d.window (ix2 e q') 1 : ℤ)).toNat = q.val :=
        congrArg (fun f : (⟨2, ![R, C]⟩ : Shape).Idx => (f 1).val) hf
      have hh0 : 0 ≤ d.start (ix2 e q') idx 0 + (d.window (ix2 e q') 0 : ℤ) := (hh 0).1
      rw [hs0, hw0] at h0 hh0
      rw [hs1, hw1] at h1
      refine ⟨by omega, Fin.ext (by omega)⟩
    · exact absurd h (by simp)
  · rintro ⟨h0, rfl⟩
    have hh : ∀ a, 0 ≤ d.start (ix2 e q') idx a + (d.window (ix2 e q') a : ℤ)
        ∧ d.start (ix2 e q') idx a + (d.window (ix2 e q') a : ℤ) < ((⟨2, ![R, C]⟩ : Shape).size a : ℤ) := by
      intro a
      match a with
      | ⟨0, _⟩ =>
        show 0 ≤ d.start (ix2 e q') idx 0 + (d.window (ix2 e q') 0 : ℤ)
          ∧ d.start (ix2 e q') idx 0 + (d.window (ix2 e q') 0 : ℤ) < (R : ℤ)
        rw [hs0, hw0]; omega
      | ⟨1, _⟩ =>
        show 0 ≤ d.start (ix2 e q') idx 1 + (d.window (ix2 e q') 1 : ℤ)
          ∧ d.start (ix2 e q') idx 1 + (d.window (ix2 e q') 1 : ℤ) < (C : ℤ)
        rw [hs1, hw1]; omega
    rw [dif_pos hh]
    congr 1
    funext a
    apply Fin.ext
    match a with
    | ⟨0, _⟩ =>
      show (d.start (ix2 e q') idx 0 + (d.window (ix2 e q') 0 : ℤ)).toNat = r.val
      rw [hs0, hw0]; omega
    | ⟨1, _⟩ =>
      show (d.start (ix2 e q') idx 1 + (d.window (ix2 e q') 1 : ℤ)).toNat = q'.val
      rw [hs1, hw1]; omega

theorem scatterAdd_rows {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1)
    (x : (⟨2, ![R, C]⟩ : Shape).Idx → EReal) (idx : IVec ⟨2, ![E, 1]⟩ w) (upd : (⟨2, ![E, C]⟩ : Shape).Idx → EReal)
    (r : Fin R) (q : Fin C) :
    Ideal.hostScatterAdd d x idx upd (ix2 r q)
      = x (ix2 r q) + ∑ e : Fin E, if (idx (ix2 e (0 : Fin 1))).toInt = (r.val : ℤ) then upd (ix2 e q) else 0 := by
  unfold Ideal.hostScatterAdd
  congr 1
  rw [Finset.sum_filter, sum_idx2]
  refine Finset.sum_congr rfl fun e _ => ?_
  simp only [rows_resultIdx_iff d huw hins hsd hivd]
  by_cases h : (idx (ix2 e (0 : Fin 1))).toInt = (r.val : ℤ)
  · simp only [h, true_and, if_true]
    rw [Finset.sum_ite_eq' Finset.univ q (fun q' => upd (ix2 e q'))]
    simp
  · simp only [h, false_and, if_false, Finset.sum_const_zero]

/-! The accumulating scatter of a vector: the same with no column. -/

private theorem vec_siIdx {R E : ℕ} (d : ScatterDims ⟨1, ![R]⟩ ⟨2, ![E, 1]⟩ ⟨1, ![E]⟩)
    (hsd : d.scatterDimsToOperandDims = [0]) (hivd : d.indexVectorDim = 1)
    (e : Fin E) (c : Fin d.scatterDimsToOperandDims.length) :
    d.siIdx (ix1 e) c = ix2 e (0 : Fin 1) := by
  have he : ∀ x : Fin 1, ((ix1 e : (⟨1, ![E]⟩ : Shape).Idx) x).val = e.val := by
    intro x
    obtain rfl : x = 0 := Subsingleton.elim _ _
    rfl
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _
  | ⟨1, _⟩ =>
    unfold ScatterDims.siIdx
    rw [dif_pos (by rw [hivd])]
    apply Fin.ext
    show c.val = 0
    have := c.isLt
    omega

private theorem vec_start0 {R E w : ℕ} (d : ScatterDims ⟨1, ![R]⟩ ⟨2, ![E, 1]⟩ ⟨1, ![E]⟩)
    (hsd : d.scatterDimsToOperandDims = [0]) (hivd : d.indexVectorDim = 1)
    (idx : IVec ⟨2, ![E, 1]⟩ w) (e : Fin E) :
    d.start (ix1 e) idx 0 = (idx (ix2 e (0 : Fin 1))).toInt := by
  have hm : (0 : Fin 1) ∈ d.scatterDimsToOperandDims := by rw [hsd]; exact List.mem_singleton.mpr rfl
  unfold ScatterDims.start
  rw [dif_pos hm, vec_siIdx d hsd hivd]

private theorem vec_window0 {R E : ℕ} (d : ScatterDims ⟨1, ![R]⟩ ⟨2, ![E, 1]⟩ ⟨1, ![E]⟩)
    (hins : d.insertedWindowDims = [0]) (e : Fin E) :
    d.window (ix1 e) 0 = 0 := by
  have hk : (0 : Fin 1) ∉ d.sKept := by
    intro h
    have := (List.mem_filter.mp h).2
    rw [hins] at this
    simp at this
  unfold ScatterDims.window
  rw [dif_neg hk]

/-- An update entry e lands on the operand entry r exactly when its index word, read signed, is r. -/
private theorem vec_resultIdx_iff {R E w : ℕ} (d : ScatterDims ⟨1, ![R]⟩ ⟨2, ![E, 1]⟩ ⟨1, ![E]⟩)
    (hins : d.insertedWindowDims = [0]) (hsd : d.scatterDimsToOperandDims = [0])
    (hivd : d.indexVectorDim = 1) (idx : IVec ⟨2, ![E, 1]⟩ w) (e : Fin E) (r : Fin R) :
    d.resultIdx? (ix1 e) idx = some (ix1 r) ↔ (idx (ix2 e (0 : Fin 1))).toInt = (r.val : ℤ) := by
  have hs0 := vec_start0 d hsd hivd idx e
  have hw0 := vec_window0 d hins e
  have hr := r.isLt
  unfold ScatterDims.resultIdx?
  constructor
  · intro h
    split at h
    · rename_i hh
      have hf := Option.some.inj h
      have h0 : (d.start (ix1 e) idx 0 + (d.window (ix1 e) 0 : ℤ)).toNat = r.val :=
        congrArg (fun f : (⟨1, ![R]⟩ : Shape).Idx => (f 0).val) hf
      have hh0 : 0 ≤ d.start (ix1 e) idx 0 + (d.window (ix1 e) 0 : ℤ) := (hh 0).1
      rw [hs0, hw0] at h0 hh0
      omega
    · exact absurd h (by simp)
  · intro h0
    have hh : ∀ a, 0 ≤ d.start (ix1 e) idx a + (d.window (ix1 e) a : ℤ)
        ∧ d.start (ix1 e) idx a + (d.window (ix1 e) a : ℤ) < ((⟨1, ![R]⟩ : Shape).size a : ℤ) := by
      intro a
      match a with
      | ⟨0, _⟩ =>
        show 0 ≤ d.start (ix1 e) idx 0 + (d.window (ix1 e) 0 : ℤ)
          ∧ d.start (ix1 e) idx 0 + (d.window (ix1 e) 0 : ℤ) < (R : ℤ)
        rw [hs0, hw0]; omega
    rw [dif_pos hh]
    congr 1
    funext a
    apply Fin.ext
    match a with
    | ⟨0, _⟩ =>
      show (d.start (ix1 e) idx 0 + (d.window (ix1 e) 0 : ℤ)).toNat = r.val
      rw [hs0, hw0]; omega

theorem scatterAdd_vec {R E w : ℕ} (d : ScatterDims ⟨1, ![R]⟩ ⟨2, ![E, 1]⟩ ⟨1, ![E]⟩)
    (huw : d.updateWindowDims = []) (hins : d.insertedWindowDims = [0]) (hsd : d.scatterDimsToOperandDims = [0])
    (hivd : d.indexVectorDim = 1)
    (x : (⟨1, ![R]⟩ : Shape).Idx → EReal) (idx : IVec ⟨2, ![E, 1]⟩ w) (upd : (⟨1, ![E]⟩ : Shape).Idx → EReal)
    (r : Fin R) :
    Ideal.hostScatterAdd d x idx upd (ix1 r)
      = x (ix1 r) + ∑ e : Fin E, if (idx (ix2 e (0 : Fin 1))).toInt = (r.val : ℤ) then upd (ix1 e) else 0 := by
  unfold Ideal.hostScatterAdd
  congr 1
  -- a rank-1 index set is its coordinate range
  rw [Finset.sum_filter,
    ← Equiv.sum_comp (⟨ix1, fun i => i 0, fun _ => rfl, fun i => (eq_ix1 i).symm⟩ : Fin E ≃ (⟨1, ![E]⟩ : Shape).Idx)]
  refine Finset.sum_congr rfl fun e _ => ?_
  exact if_congr (vec_resultIdx_iff d hins hsd hivd idx e r) rfl rfl

end Gcn.Rows

end
-- ==== Proof.RefPool.lean ====
/-
  The reference's pooling and its decode, entry by entry.

  Pooling: the accumulating scatter starts from a zero array and adds, to the entry (g, f), the entry (e, f) of the third
  layer's output for every node e whose graph word, read signed, is g: the pooled feature of graph g.
  Decode: along a pooled row the reference takes the mean (a sum over the 128 features divided by 128), the centred
  entries, the mean of their squares, the reciprocal square root of that plus epsilon, scales and shifts each centred
  entry, and contracts the row with a column of the last weight matrix before adding the bias entry.
-/
import proofs.«426697_j79577154060299_2_alg».proof.Proof.RefRun
import proofs.«426697_j79577154060299_2_alg».proof.Proof.LibRows
import proofs.«426697_j79577154060299_2_alg».proof.Proof.Spec

noncomputable section

namespace Cert.ReferenceIdeal.RefValue

open Cert.ReferenceIdeal Cert.ReferenceIdeal.Read Idealize.ShloMosaic Idealize.ShloMosaic.ValueIdx

variable (x0 : (⟨S100000x64, .f32⟩ : BufTy).Contents (Elt Ideal)) (x1 : (⟨S2x1600000, .i32⟩ : BufTy).Contents (Elt Ideal)) (x2 : (⟨S100000, .i32⟩ : BufTy).Contents (Elt Ideal))
  (x3 : (⟨S64x128, .f32⟩ : BufTy).Contents (Elt Ideal)) (x4 : (⟨S128, .f32⟩ : BufTy).Contents (Elt Ideal)) (x5 : (⟨S64x128, .f32⟩ : BufTy).Contents (Elt Ideal))
  (x6 : (⟨S128x128, .f32⟩ : BufTy).Contents (Elt Ideal)) (x7 : (⟨S128, .f32⟩ : BufTy).Contents (Elt Ideal)) (x8 x9 : (⟨S128x128, .f32⟩ : BufTy).Contents (Elt Ideal))
  (x10 : (⟨S128, .f32⟩ : BufTy).Contents (Elt Ideal)) (x11 : (⟨S128x128, .f32⟩ : BufTy).Contents (Elt Ideal)) (x12 x13 : (⟨S128, .f32⟩ : BufTy).Contents (Elt Ideal))
  (x14 : (⟨S128x2, .f32⟩ : BufTy).Contents (Elt Ideal)) (x15 : (⟨S2, .f32⟩ : BufTy).Contents (Elt Ideal))

/-! ## Pooling -/

/-- The column of graph words at (e, 0) is the word of node e. -/
theorem words_col (e : Fin 100000) :
    val_main_v83 (F := Ideal) x2 (ix2 e (0 : Fin 1)) = x2 (ix1 e) := by
  rw [val_main_v83_apply]
  exact congrArg x2 (funext fun a => Fin.ext (by match a with | ⟨0, _⟩ => rfl))

/-- The array the scatter starts from is zero everywhere. -/
theorem pool_init (g : Fin 512) (f : Fin 128) : val_main_v82 (F := Ideal) (ix2 g f) = 0 := by
  rw [val_main_v82_apply, val_main_cst_16_apply]
  exact Ideal.ofBits_zero_f32

/-- An entry of the pooled array is the pooled feature of its graph. -/
theorem pool_ref (g : Fin 512) (f : Fin 128) :
    val_main_v84 (F := Ideal) x0 x1 x2 x3 x4 x5 x6 x7 x8 x9 x10 x11 (ix2 g f)
      = Sage.Spec.pooled (fun e : Fin 100000 => x2 (ix1 e))
          (fun e : Fin 100000 => val_main_v81 (F := Ideal) x0 x1 x3 x4 x5 x6 x7 x8 x9 x10 x11 (ix2 e f)) g.val := by
  unfold val_main_v84
  generalize val_main_v81 (F := Ideal) x0 x1 x3 x4 x5 x6 x7 x8 x9 x10 x11 = h3
  have hs := Gcn.Rows.scatterAdd_rows (R := 512) (E := 100000) (C := 128) scatter_S512x128_S100000x1_S100000x128_1_0_0_1 rfl rfl rfl rfl
    (val_main_v82 (F := Ideal)) (val_main_v83 (F := Ideal) x2) h3 g f
  refine hs.trans ?_
  rw [pool_init, zero_add]
  unfold Sage.Spec.pooled
  refine Finset.sum_congr rfl fun e _ => ?_
  rw [words_col]

/-! ## Decode

  The indices at which the layout operations read their operands, written by coordinates. -/

theorem col_of_row_v86 (r : Fin 512) : idx_main_v86 (ix2 r (0 : Fin 1)) = ix1 r := funext fun a => Fin.ext (by match a with | ⟨0, _⟩ => rfl)
theorem col_of_row_v93 (r : Fin 512) : idx_main_v93 (ix2 r (0 : Fin 1)) = ix1 r := funext fun a => Fin.ext (by match a with | ⟨0, _⟩ => rfl)
theorem row_entry_v85 (r : Fin 512) (k : Fin 128) : idx_main_v85 (ix1 r) k = ix2 r k := funext fun a => Fin.ext (by match a with | ⟨0, _⟩ => rfl | ⟨1, _⟩ => rfl)
theorem row_entry_v92 (r : Fin 512) (k : Fin 128) : idx_main_v92 (ix1 r) k = ix2 r k := funext fun a => Fin.ext (by match a with | ⟨0, _⟩ => rfl | ⟨1, _⟩ => rfl)
theorem along_row_v89 (r : Fin 512) (k : Fin 128) : idx_main_v89 (ix2 r k) = ix2 r (0 : Fin 1) := funext fun a => Fin.ext (by match a with | ⟨0, _⟩ => rfl | ⟨1, _⟩ => rfl)
theorem along_row_v96 (r : Fin 512) (k : Fin 128) : idx_main_v96 (ix2 r k) = ix2 r (0 : Fin 1) := funext fun a => Fin.ext (by match a with | ⟨0, _⟩ => rfl | ⟨1, _⟩ => rfl)
theorem along_row_v101 (r : Fin 512) (k : Fin 128) : idx_main_v101 (ix2 r k) = ix2 r (0 : Fin 1) := funext fun a => Fin.ext (by match a with | ⟨0, _⟩ => rfl | ⟨1, _⟩ => rfl)
theorem down_rows_v104 (r : Fin 512) (k : Fin 128) : idx_main_v104 (ix2 r k) = ix2 (0 : Fin 1) k := funext fun a => Fin.ext (by match a with | ⟨0, _⟩ => rfl | ⟨1, _⟩ => rfl)
theorem down_rows_v107 (r : Fin 512) (k : Fin 128) : idx_main_v107 (ix2 r k) = ix2 (0 : Fin 1) k := funext fun a => Fin.ext (by match a with | ⟨0, _⟩ => rfl | ⟨1, _⟩ => rfl)
theorem as_row_v103 (k : Fin 128) : idx_main_v103 (ix2 (0 : Fin 1) k) = ix1 k := funext fun a => Fin.ext (by match a with | ⟨0, _⟩ => rfl)
theorem as_row_v106 (k : Fin 128) : idx_main_v106 (ix2 (0 : Fin 1) k) = ix1 k := funext fun a => Fin.ext (by match a with | ⟨0, _⟩ => rfl)
theorem down_rows_v111 (r : Fin 512) (j : Fin 2) : idx_main_v111 (ix2 r j) = ix2 (0 : Fin 1) j := funext fun a => Fin.ext (by match a with | ⟨0, _⟩ => rfl | ⟨1, _⟩ => rfl)
theorem as_row_v110 (j : Fin 2) : idx_main_v110 (ix2 (0 : Fin 1) j) = ix1 j := funext fun a => Fin.ext (by match a with | ⟨0, _⟩ => rfl)
theorem contract_left_v109 (r : Fin 512) (j : Fin 2) (k : Fin 128) : lidx_main_v109 (ix2 r j) k = ix2 r k := funext fun a => Fin.ext (by match a with | ⟨0, _⟩ => rfl | ⟨1, _⟩ => rfl)
theorem contract_right_v109 (r : Fin 512) (j : Fin 2) (k : Fin 128) : ridx_main_v109 (ix2 r j) k = ix2 k j := funext fun a => Fin.ext (by match a with | ⟨0, _⟩ => rfl | ⟨1, _⟩ => rfl)

/-- The mean of a pooled row. -/
theorem mean_ref (r : Fin 512) :
    val_main_v88 (F := Ideal) x0 x1 x2 x3 x4 x5 x6 x7 x8 x9 x10 x11 (ix2 r (0 : Fin 1)) = Sage.Spec.mean128 (fun k : Fin 128 => val_main_v84 (F := Ideal) x0 x1 x2 x3 x4 x5 x6 x7 x8 x9 x10 x11 (ix2 r k)) := by
  rw [val_main_v88_apply, val_main_v86_apply, col_of_row_v86, val_main_v85_apply, val_main_v87_apply,
    val_main_cst_17_apply, val_main_cst_18_apply]
  simp only [row_entry_v85, Ideal.hostDivf_def, Ideal.ofBits_def, Ideal.ofBits_zero_f32, zero_add]
  rfl

/-- A pooled entry less its row's mean (the copy the variance is taken from). -/
theorem centred_ref (r : Fin 512) (k : Fin 128) :
    val_main_v90 (F := Ideal) x0 x1 x2 x3 x4 x5 x6 x7 x8 x9 x10 x11 (ix2 r k) = (val_main_v84 (F := Ideal) x0 x1 x2 x3 x4 x5 x6 x7 x8 x9 x10 x11 (ix2 r k) - Sage.Spec.mean128 (fun k : Fin 128 => val_main_v84 (F := Ideal) x0 x1 x2 x3 x4 x5 x6 x7 x8 x9 x10 x11 (ix2 r k))) := by
  rw [val_main_v90_apply, val_main_v89_apply, along_row_v89, mean_ref]
  rfl

/-- A pooled entry less its row's mean (the copy that is normalised). -/
theorem centred_ref' (r : Fin 512) (k : Fin 128) :
    val_main_v97 (F := Ideal) x0 x1 x2 x3 x4 x5 x6 x7 x8 x9 x10 x11 (ix2 r k) = (val_main_v84 (F := Ideal) x0 x1 x2 x3 x4 x5 x6 x7 x8 x9 x10 x11 (ix2 r k) - Sage.Spec.mean128 (fun k : Fin 128 => val_main_v84 (F := Ideal) x0 x1 x2 x3 x4 x5 x6 x7 x8 x9 x10 x11 (ix2 r k))) := by
  rw [val_main_v97_apply, val_main_v96_apply, along_row_v96, mean_ref]
  rfl

/-- The variance of a pooled row: the mean of the squares of its centred entries. -/
theorem var_ref (r : Fin 512) :
    val_main_v95 (F := Ideal) x0 x1 x2 x3 x4 x5 x6 x7 x8 x9 x10 x11 (ix2 r (0 : Fin 1)) = Sage.Spec.mean128 (fun j : Fin 128 => (val_main_v84 (F := Ideal) x0 x1 x2 x3 x4 x5 x6 x7 x8 x9 x10 x11 (ix2 r j) - Sage.Spec.mean128 (fun k : Fin 128 => val_main_v84 (F := Ideal) x0 x1 x2 x3 x4 x5 x6 x7 x8 x9 x10 x11 (ix2 r k))) * (val_main_v84 (F := Ideal) x0 x1 x2 x3 x4 x5 x6 x7 x8 x9 x10 x11 (ix2 r j) - Sage.Spec.mean128 (fun k : Fin 128 => val_main_v84 (F := Ideal) x0 x1 x2 x3 x4 x5 x6 x7 x8 x9 x10 x11 (ix2 r k)))) := by
  rw [val_main_v95_apply, val_main_v93_apply, col_of_row_v93, val_main_v92_apply, val_main_v94_apply,
    val_main_cst_19_apply, val_main_cst_20_apply]
  simp only [row_entry_v92, val_main_v91_apply, centred_ref, Ideal.hostDivf_def, Ideal.mulf_def, Ideal.ofBits_def,
    Ideal.ofBits_zero_f32, zero_add]
  rfl

/-- The reciprocal square root of the variance plus epsilon. -/
theorem rstd_ref (r : Fin 512) :
    val_main_v100 (F := Ideal) x0 x1 x2 x3 x4 x5 x6 x7 x8 x9 x10 x11 (ix2 r (0 : Fin 1)) = Ideal.rsqrt (Sage.Spec.mean128 (fun j : Fin 128 => (val_main_v84 (F := Ideal) x0 x1 x2 x3 x4 x5 x6 x7 x8 x9 x10 x11 (ix2 r j) - Sage.Spec.mean128 (fun k : Fin 128 => val_main_v84 (F := Ideal) x0 x1 x2 x3 x4 x5 x6 x7 x8 x9 x10 x11 (ix2 r k))) * (val_main_v84 (F := Ideal) x0 x1 x2 x3 x4 x5 x6 x7 x8 x9 x10 x11 (ix2 r j) - Sage.Spec.mean128 (fun k : Fin 128 => val_main_v84 (F := Ideal) x0 x1 x2 x3 x4 x5 x6 x7 x8 x9 x10 x11 (ix2 r k)))) + Ideal.ofBits .f32 0x3727C5AC#32) := by
  rw [val_main_v100_apply, val_main_v99_apply, var_ref, val_main_v98_apply, val_main_cst_21_apply]
  rfl

/-- A normalised, scaled and shifted entry. -/
theorem norm_ref (r : Fin 512) (k : Fin 128) :
    val_main_v108 (F := Ideal) x0 x1 x2 x3 x4 x5 x6 x7 x8 x9 x10 x11 x12 x13 (ix2 r k)
      = ((val_main_v84 (F := Ideal) x0 x1 x2 x3 x4 x5 x6 x7 x8 x9 x10 x11 (ix2 r k) - Sage.Spec.mean128 (fun k : Fin 128 => val_main_v84 (F := Ideal) x0 x1 x2 x3 x4 x5 x6 x7 x8 x9 x10 x11 (ix2 r k))) * Ideal.rsqrt (Sage.Spec.mean128 (fun j : Fin 128 => (val_main_v84 (F := Ideal) x0 x1 x2 x3 x4 x5 x6 x7 x8 x9 x10 x11 (ix2 r j) - Sage.Spec.mean128 (fun k : Fin 128 => val_main_v84 (F := Ideal) x0 x1 x2 x3 x4 x5 x6 x7 x8 x9 x10 x11 (ix2 r k))) * (val_main_v84 (F := Ideal) x0 x1 x2 x3 x4 x5 x6 x7 x8 x9 x10 x11 (ix2 r j) - Sage.Spec.mean128 (fun k : Fin 128 => val_main_v84 (F := Ideal) x0 x1 x2 x3 x4 x5 x6 x7 x8 x9 x10 x11 (ix2 r k)))) + Ideal.ofBits .f32 0x3727C5AC#32)) * x12 (ix1 k) + x13 (ix1 k) := by
  rw [val_main_v108_apply, val_main_v105_apply, val_main_v102_apply, centred_ref', val_main_v101_apply,
    along_row_v101, rstd_ref, val_main_v104_apply, down_rows_v104, val_main_v103_apply, as_row_v103,
    val_main_v107_apply, down_rows_v107, val_main_v106_apply, as_row_v106]
  rfl

/-- An entry of the reference's result is the decode of its pooled row. -/
theorem decode_ref (r : Fin 512) (j : Fin 2) :
    val_main_v112 (F := Ideal) x0 x1 x2 x3 x4 x5 x6 x7 x8 x9 x10 x11 x12 x13 x14 x15 (ix2 r j)
      = Sage.Spec.decode (fun k : Fin 128 => val_main_v84 (F := Ideal) x0 x1 x2 x3 x4 x5 x6 x7 x8 x9 x10 x11 (ix2 r k)) (fun k : Fin 128 => x12 (ix1 k))
          (fun k : Fin 128 => x13 (ix1 k)) (fun k : Fin 128 => x14 (ix2 k j)) (x15 (ix1 j)) := by
  rw [val_main_v112_apply, val_main_v109_apply, val_main_v111_apply, down_rows_v111, val_main_v110_apply,
    as_row_v110]
  simp only [contract_left_v109, contract_right_v109, norm_ref]
  unfold Sage.Spec.decode
  rfl

end Cert.ReferenceIdeal.RefValue

end
-- ==== Proof.HostStretches.lean ====
/-
  What the host operations between the kernel regions compute, as functions of what they read.

  Both programs prepare each layer's input the same way: the source and destination words of the edges are the two rows
  of the edge array; a feature matrix is gathered at the source words (a negative word first wrapped by the number of
  nodes) and the gathered rows are summed into their destination nodes (an accumulating scatter into a zero matrix); the
  neighbour counts are the same scatter of ones. Here each such result of the kernel program's host stretches — read off
  an arbitrary valuation `W` of the buffers, through the operations of the stretch — is identified with the reference
  program's corresponding stage, or with a function built exactly as the reference's stages are built: the operations and
  their dimension numbers are the same on both sides, so each identification is by unfolding. Stated for every float
  instance.
-/
import proofs.«426697_j79577154060299_2_alg».proof.Proof.KernelIdealRegions
import proofs.«426697_j79577154060299_2_alg».proof.Proof.RefRun
import Idealize.ShloMosaic.Lib.StableHlo.Run

noncomputable section

namespace Cert.Proof.HostStretches

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F]

/-- The neighbour sums of a feature matrix of 128 columns, from the edges' source and destination words. -/
def agg128 (src dst : (⟨Cert.ReferenceIdeal.S1600000, .i32⟩ : BufTy).Contents (Elt F)) (h : (⟨Cert.ReferenceIdeal.S100000x128, .f32⟩ : BufTy).Contents (Elt F)) :
    (⟨Cert.ReferenceIdeal.S100000x128, .f32⟩ : BufTy).Contents (Elt F) :=
  Host.scatterAdd Cert.ReferenceIdeal.scatter_S100000x128_S1600000x1_S1600000x128_1_0_0_1 (val_main_v37 (F := F))
    (broadcastInDim Cert.ReferenceIdeal.S1600000x1 ![0] Cert.ReferenceIdeal.Gen.bcast_S1600000_S1600000x1_0 dst)
    (Host.gather Cert.ReferenceIdeal.gather_S100000x128_S1600000x1_S1600000x128_1_0_n_n_0_1_1128 h
      (broadcastInDim Cert.ReferenceIdeal.S1600000x1 ![0] Cert.ReferenceIdeal.Gen.bcast_S1600000_S1600000x1_0
        (select (cmpi .slt src (val_main_v30 (F := F))) (addi src (val_main_v32 (F := F))) src)))

/-- The reference's second and third layers sum their neighbours with it. -/
theorem ref_sum1 (x0 x1 x3 x4 x5) :
    val_main_v39 (F := F) x0 x1 x3 x4 x5 = agg128 (val_main_v1 (F := F) x1) (val_main_v3 (F := F) x1) (val_main_v29 (F := F) x0 x1 x3 x4 x5) := rfl
theorem ref_sum2 (x0 x1 x3 x4 x5 x6 x7 x8) :
    val_main_v65 (F := F) x0 x1 x3 x4 x5 x6 x7 x8 = agg128 (val_main_v1 (F := F) x1) (val_main_v3 (F := F) x1) (val_main_v55 (F := F) x0 x1 x3 x4 x5 x6 x7 x8) := rfl

/-- The reference counts the neighbours anew in every layer: the same count. -/
theorem ref_cnt1 (x1) : val_main_v43 (F := F) x1 = val_main_v17 (F := F) x1 := rfl
theorem ref_cnt2 (x1) : val_main_v69 (F := F) x1 = val_main_v17 (F := F) x1 := rfl

variable (W : Valuation τ sig (Elt F))

/-! ## The first stretch: from the arguments -/

set_option maxHeartbeats 4000000 in
/-- The source words. -/
theorem host0_src :
    (StableHlo.after hostOps0 W (Proc.devRef .tc main_call0_v1) : S1600000.Idx → Elt F .i32)
      = val_main_v1 (F := F) (W (Proc.devRef .tc main_arg1)) := by
  after_results
  rfl

set_option maxHeartbeats 4000000 in
/-- The destination words. -/
theorem host0_dst :
    (StableHlo.after hostOps0 W (Proc.devRef .tc main_call0_v3) : S1600000.Idx → Elt F .i32)
      = val_main_v3 (F := F) (W (Proc.devRef .tc main_arg1)) := by
  after_results
  rfl

set_option maxHeartbeats 4000000 in
/-- The first layer's neighbour sums are the reference's. -/
theorem host0_sum :
    (StableHlo.after hostOps0 W (Proc.devRef .tc main_call0_v22) : S100000x64.Idx → Elt F .f32)
      = val_main_v13 (F := F) (W (Proc.devRef .tc main_arg0)) (W (Proc.devRef .tc main_arg1)) := by
  after_results
  rfl

/-- The reciprocal neighbour counts as a column, from the counts: one over the larger of the count and one. -/
def invCol (cnt : (⟨Cert.ReferenceIdeal.S100000, .f32⟩ : BufTy).Contents (Elt F)) : S100000x1.Idx → Elt F .f32 :=
  shapeCast S100000x1 (Host.divf (val_main_v18 (F := F)) (maximumf cnt (val_main_v18 (F := F)))) shapeCasts_S100000_S100000x1

set_option maxHeartbeats 4000000 in
theorem host0_inv :
    (StableHlo.after hostOps0 W (Proc.devRef .tc main_call0_v12) : S100000x1.Idx → Elt F .f32)
      = invCol (val_main_v17 (F := F) (W (Proc.devRef .tc main_arg1))) := by
  after_results
  rfl

/-! ## The second and third stretches: from the layer before -/

set_option maxHeartbeats 4000000 in
theorem host1_sum :
    (StableHlo.after hostOps1 W (Proc.devRef .tc main_call0_v33) : S100000x128.Idx → Elt F .f32)
      = agg128 (W (Proc.devRef .tc main_call0_v1)) (W (Proc.devRef .tc main_call0_v3)) (W (Proc.devRef .tc main_call0_v23)) := by
  after_results
  rfl

set_option maxHeartbeats 4000000 in
theorem host2_sum :
    (StableHlo.after hostOps2 W (Proc.devRef .tc main_call0_v44) : S100000x128.Idx → Elt F .f32)
      = agg128 (W (Proc.devRef .tc main_call0_v1)) (W (Proc.devRef .tc main_call0_v3)) (W (Proc.devRef .tc main_call0_v34)) := by
  after_results
  rfl

/-! ## The last stretch: the graph words as a column -/

set_option maxHeartbeats 4000000 in
theorem host3_col :
    (StableHlo.after hostOps3 W (Proc.devRef .tc main_call0_v46) : S100000x1.Idx → Elt F .i32)
      = shapeCast S100000x1 (W (Proc.devRef .tc main_arg2)) shapeCasts_S100000_S100000x1 := by
  after_results
  rfl

/-! ## What a stretch does not write, it leaves -/

theorem host0_keeps (r : Ref sig .tc) (h : r ∉ hostOps0_W) : StableHlo.after hostOps0 W r = W r :=
  StableHlo.after_of_writes_sub hostOps0 _ hostOps0_writes h
theorem host1_keeps (r : Ref sig .tc) (h : r ∉ hostOps1_W) : StableHlo.after hostOps1 W r = W r :=
  StableHlo.after_of_writes_sub hostOps1 _ hostOps1_writes h
theorem host2_keeps (r : Ref sig .tc) (h : r ∉ hostOps2_W) : StableHlo.after hostOps2 W r = W r :=
  StableHlo.after_of_writes_sub hostOps2 _ hostOps2_writes h
theorem host3_keeps (r : Ref sig .tc) (h : r ∉ hostOps3_W) : StableHlo.after hostOps3 W r = W r :=
  StableHlo.after_of_writes_sub hostOps3 _ hostOps3_writes h

end Cert.Proof.HostStretches

end
-- ==== Proof.Bridge.lean ====
/-
  The two idealized programs compute the same result.

  Layer by layer: what a kernel region leaves in its result array (read entry by entry as the specification's layer in the
  kernel's arrangement) is the reference's stage for that layer (read entry by entry as the layer in the reference's
  arrangement), given that the arrays the region reads are the reference's corresponding stages: the two arrangements
  agree because the kernel's reciprocal count is one over max(count, 1), which is never zero, and sums of extended reals
  may be regrouped. The last region's result is the decode of the pooled sums on both sides: the scratch accumulates, block
  by block, the sum over the nodes of each graph, which is what the reference's accumulating scatter adds up.
-/
import proofs.«426697_j79577154060299_2_alg».proof.Proof.KI.Run
import proofs.«426697_j79577154060299_2_alg».proof.Proof.KI.ValLayer0
import proofs.«426697_j79577154060299_2_alg».proof.Proof.KI.ValLayer1
import proofs.«426697_j79577154060299_2_alg».proof.Proof.KI.ValLayer2
import proofs.«426697_j79577154060299_2_alg».proof.Proof.KI.ValPool
import proofs.«426697_j79577154060299_2_alg».proof.Proof.KI.ValDecode
import proofs.«426697_j79577154060299_2_alg».proof.Proof.RefLayers
import proofs.«426697_j79577154060299_2_alg».proof.Proof.RefPool
import proofs.«426697_j79577154060299_2_alg».proof.Proof.HostStretches
import proofs.«426697_j79577154060299_2_alg».proof.Proof.Spec
import Idealize.ShloMosaic.Lib.IdealHost
import Idealize.ShloMosaic.Lib.Pipeline.Value

noncomputable section

namespace Cert.Proof.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Body
open Cert.ReferenceIdeal.Read Cert.ReferenceIdeal.RefValue
open Cert.Proof.HostStretches Sage.Spec

/-! ## The two columns the host code makes -/

/-- The reciprocal-count column at node n is one over the larger of the count and one. -/
theorem invCol_entry (cnt : (⟨Cert.ReferenceIdeal.S100000, .f32⟩ : BufTy).Contents (Elt Ideal)) (n : Fin 100000) :
    invCol (F := Ideal) cnt (ix2 n (0 : Fin 1)) = invOf (cnt (ix1 n)) := by
  unfold invCol invOf
  rw [shapeCast_apply _ _ (ix2 n (0 : Fin 1)) (ix1 n) (by
    rw [Shape.rowMajor_val_one, Shape.rowMajor_val_two]; show n.val = n.val * 1 + 0; omega)]
  show Ideal.div (val_main_v18 (F := Ideal) (ix1 n)) (max (cnt (ix1 n)) (val_main_v18 (F := Ideal) (ix1 n))) = _
  rw [val_main_v18_apply, val_main_cst_3_apply, Ideal.ofBits_def, Ideal.ofBits_one_f32]

/-- A vector of words reshaped to a column, read at row e. -/
theorem col_entry {α : Type} (b : S100000.Idx → α) (e : Fin 100000) :
    shapeCast S100000x1 b shapeCasts_S100000_S100000x1 (ix2 e (0 : Fin 1)) = b (ix1 e) :=
  shapeCast_apply _ _ (ix2 e (0 : Fin 1)) (ix1 e) (by
    rw [Shape.rowMajor_val_one, Shape.rowMajor_val_two]; show e.val = e.val * 1 + 0; omega)

/-! ## A layer: the region's result array is the reference's stage -/

variable (V : (c : Dev nD) → (b : Ref sig .tc) → Buf (Elt Ideal) ((c : Thread nD τ).loc b)) (c : Dev nD)

/-- The first layer. If the region finds the reference's neighbour sums, the features, the three parameter arrays and
    the reciprocal-count column of the reference's counts, it leaves the reference's first layer. -/
theorem layer0_eq (x0 x1 x3 x4 x5)
    (hs : (V c main_call0_v22 : S100000x64.Idx → EReal) = val_main_v13 (F := Ideal) x0 x1)
    (hx : (V c main_arg0 : S100000x64.Idx → EReal) = x0) (hwl : (V c main_arg3 : S64x128.Idx → EReal) = x3)
    (hb : (V c main_arg4 : S128.Idx → EReal) = x4) (hwr : (V c main_arg5 : S64x128.Idx → EReal) = x5)
    (hinv : (V c main_call0_v12 : S100000x1.Idx → EReal) = invCol (F := Ideal) (val_main_v17 (F := Ideal) x1)) :
    ((dat0 (F := Ideal) V c).arrAt 6 cfg0.N : S100000x128.Idx → EReal) = val_main_v29 (F := Ideal) x0 x1 x3 x4 x5 := by
  funext i
  obtain ⟨n, f, rfl⟩ : ∃ (n : Fin 100000) (f : Fin 128), i = ix2 n f := ⟨i 0, i 1, eq_ix2 i⟩
  rw [layer0_ref, ← layerK_eq_layerR, layer0_entry]
  show layerK (fun k : Fin 64 => (V c main_call0_v22 : S100000x64.Idx → EReal) (ix2 n k)) (fun k : Fin 64 => (V c main_arg0 : S100000x64.Idx → EReal) (ix2 n k))
      (fun k : Fin 64 => (V c main_arg3 : S64x128.Idx → EReal) (ix2 k f)) (fun k : Fin 64 => (V c main_arg5 : S64x128.Idx → EReal) (ix2 k f))
      ((V c main_arg4 : S128.Idx → EReal) (ix1 f)) ((V c main_call0_v12 : S100000x1.Idx → EReal) (ix2 n (0 : Fin 1))) = _
  rw [hs, hx, hwl, hb, hwr, hinv, invCol_entry]

/-- The second layer, the same over the first layer's result. -/
theorem layer1_eq (x0 x1 x3 x4 x5 x6 x7 x8)
    (hs : (V c main_call0_v33 : S100000x128.Idx → EReal) = val_main_v39 (F := Ideal) x0 x1 x3 x4 x5)
    (hx : (V c main_call0_v23 : S100000x128.Idx → EReal) = val_main_v29 (F := Ideal) x0 x1 x3 x4 x5)
    (hwl : (V c main_arg6 : S128x128.Idx → EReal) = x6)
    (hb : (V c main_arg7 : S128.Idx → EReal) = x7) (hwr : (V c main_arg8 : S128x128.Idx → EReal) = x8)
    (hinv : (V c main_call0_v12 : S100000x1.Idx → EReal) = invCol (F := Ideal) (val_main_v17 (F := Ideal) x1)) :
    ((dat1 (F := Ideal) V c).arrAt 6 cfg1.N : S100000x128.Idx → EReal) = val_main_v55 (F := Ideal) x0 x1 x3 x4 x5 x6 x7 x8 := by
  funext i
  obtain ⟨n, f, rfl⟩ : ∃ (n : Fin 100000) (f : Fin 128), i = ix2 n f := ⟨i 0, i 1, eq_ix2 i⟩
  rw [layer1_ref, ref_cnt1, ← layerK_eq_layerR, layer1_entry]
  show layerK (fun k : Fin 128 => (V c main_call0_v33 : S100000x128.Idx → EReal) (ix2 n k)) (fun k : Fin 128 => (V c main_call0_v23 : S100000x128.Idx → EReal) (ix2 n k))
      (fun k : Fin 128 => (V c main_arg6 : S128x128.Idx → EReal) (ix2 k f)) (fun k : Fin 128 => (V c main_arg8 : S128x128.Idx → EReal) (ix2 k f))
      ((V c main_arg7 : S128.Idx → EReal) (ix1 f)) ((V c main_call0_v12 : S100000x1.Idx → EReal) (ix2 n (0 : Fin 1))) = _
  rw [hs, hx, hwl, hb, hwr, hinv, invCol_entry]

/-- The third layer, the same over the second layer's result. -/
theorem layer2_eq (x0 x1 x3 x4 x5 x6 x7 x8 x9 x10 x11)
    (hs : (V c main_call0_v44 : S100000x128.Idx → EReal) = val_main_v65 (F := Ideal) x0 x1 x3 x4 x5 x6 x7 x8)
    (hx : (V c main_call0_v34 : S100000x128.Idx → EReal) = val_main_v55 (F := Ideal) x0 x1 x3 x4 x5 x6 x7 x8)
    (hwl : (V c main_arg9 : S128x128.Idx → EReal) = x9)
    (hb : (V c main_arg10 : S128.Idx → EReal) = x10) (hwr : (V c main_arg11 : S128x128.Idx → EReal) = x11)
    (hinv : (V c main_call0_v12 : S100000x1.Idx → EReal) = invCol (F := Ideal) (val_main_v17 (F := Ideal) x1)) :
    ((dat2 (F := Ideal) V c).arrAt 6 cfg2.N : S100000x128.Idx → EReal) = val_main_v81 (F := Ideal) x0 x1 x3 x4 x5 x6 x7 x8 x9 x10 x11 := by
  funext i
  obtain ⟨n, f, rfl⟩ : ∃ (n : Fin 100000) (f : Fin 128), i = ix2 n f := ⟨i 0, i 1, eq_ix2 i⟩
  rw [layer2_ref, ref_cnt2, ← layerK_eq_layerR, layer2_entry]
  show layerK (fun k : Fin 128 => (V c main_call0_v44 : S100000x128.Idx → EReal) (ix2 n k)) (fun k : Fin 128 => (V c main_call0_v34 : S100000x128.Idx → EReal) (ix2 n k))
      (fun k : Fin 128 => (V c main_arg9 : S128x128.Idx → EReal) (ix2 k f)) (fun k : Fin 128 => (V c main_arg11 : S128x128.Idx → EReal) (ix2 k f))
      ((V c main_arg10 : S128.Idx → EReal) (ix1 f)) ((V c main_call0_v12 : S100000x1.Idx → EReal) (ix2 n (0 : Fin 1))) = _
  rw [hs, hx, hwl, hb, hwr, hinv, invCol_entry]

/-! ## The last region: pooling and decode -/

/-- If the last region finds the reference's third layer, the graph words as a column and the four decode parameters,
    it leaves the reference's result. -/
theorem out_eq (x0 x1 x2 x3 x4 x5 x6 x7 x8 x9 x10 x11 x12 x13 x14 x15)
    (hh : (V c main_call0_v45 : S100000x128.Idx → EReal) = val_main_v81 (F := Ideal) x0 x1 x3 x4 x5 x6 x7 x8 x9 x10 x11)
    (hw : (V c main_call0_v46 : S100000x1.Idx → BitVec 32) = shapeCast S100000x1 x2 shapeCasts_S100000_S100000x1)
    (hwd : (V c main_arg14 : S128x2.Idx → EReal) = x14) (hbd : (V c main_arg15 : S2.Idx → EReal) = x15)
    (hlg : (V c main_arg12 : S128.Idx → EReal) = x12) (hlb : (V c main_arg13 : S128.Idx → EReal) = x13) :
    ((dat3 (F := Ideal) V c).arrAt 6 cfg3.N : S512x2.Idx → EReal)
      = val_main_v112 (F := Ideal) x0 x1 x2 x3 x4 x5 x6 x7 x8 x9 x10 x11 x12 x13 x14 x15 := by
  funext i
  obtain ⟨r, j, rfl⟩ : ∃ (r : Fin 512) (j : Fin 2), i = ix2 r j := ⟨i 0, i 1, eq_ix2 i⟩
  rw [decode_ref, final3]
  show k3_pay3 (F := Ideal) (acc3 V c 25) (V c main_arg12 : S128.Idx → EReal) (V c main_arg13 : S128.Idx → EReal)
      (V c main_arg14 : S128x2.Idx → EReal) (V c main_arg15 : S2.Idx → EReal) (ix2 r j) = _
  have hg : (fun k : Fin 128 => acc3 (F := Ideal) V c 25 (ix2 r k))
      = fun k : Fin 128 => val_main_v84 (F := Ideal) x0 x1 x2 x3 x4 x5 x6 x7 x8 x9 x10 x11 (ix2 r k) := by
    funext k
    rw [acc3_entry, pool_ref]
    have hcol : (fun e : Fin 100000 => (V c main_call0_v46 : S100000x1.Idx → BitVec 32) (ix2 e (0 : Fin 1)))
        = fun e : Fin 100000 => x2 (ix1 e) := by
      funext e; rw [hw]; exact col_entry x2 e
    have hrow : (fun e : Fin 100000 => (V c main_call0_v45 : S100000x128.Idx → EReal) (ix2 e k))
        = fun e : Fin 100000 => val_main_v81 (F := Ideal) x0 x1 x3 x4 x5 x6 x7 x8 x9 x10 x11 (ix2 e k) := by
      rw [hh]
    exact congrArg₂ (fun w h => pooled w h r.val) hcol hrow
  rw [decode_entry, hlg, hlb, hwd, hbd, hg]

/-! ## Through the run

The valuations of the run: `X1` after the first host stretch, `X2` after region 0 (its result array at `o2`), `X3`
after the second stretch, and so on to `X7`, which the last region is entered from. Each region finds what its layer
lemma asks: the neighbour sums of the layer before (the host stretch's gather and scatter, which are the reference's),
the layer before itself, the parameter arrays as launched, and the reciprocal-count column made by the first stretch. -/

section ThroughRun

open Cert.KernelIdeal.Body.Run

variable (m : (ℓ : Loc nD τ sig) → Buf (Elt Ideal) ℓ) (c : Dev nD)

/-- What no stretch and no region writes reaches every later valuation as launched. -/
theorem at1 (r : Ref sig .tc) (h0 : r ∉ hostOps0_W) : X1 m c r = X0 m c r := X1_of m c r h0
theorem at3 (r : Ref sig .tc) (h0 : r ∉ hostOps0_W) (h1 : r ∉ hostOps1_W) (n2 : r ≠ main_call0_v23) : X3 m c r = X0 m c r :=
  (X3_of m c r h1).trans ((X2_of m c r n2).trans (X1_of m c r h0))
theorem at5 (r : Ref sig .tc) (h0 : r ∉ hostOps0_W) (h1 : r ∉ hostOps1_W) (h2 : r ∉ hostOps2_W) (n2 : r ≠ main_call0_v23)
    (n4 : r ≠ main_call0_v34) : X5 m c r = X0 m c r :=
  (X5_of m c r h2).trans ((X4_of m c r n4).trans (at3 m c r h0 h1 n2))
theorem at6 (r : Ref sig .tc) (h0 : r ∉ hostOps0_W) (h1 : r ∉ hostOps1_W) (h2 : r ∉ hostOps2_W) (n2 : r ≠ main_call0_v23)
    (n4 : r ≠ main_call0_v34) (n6 : r ≠ main_call0_v45) : X6 m c r = X0 m c r :=
  (X6_of m c r n6).trans (at5 m c r h0 h1 h2 n2 n4)
theorem at7 (r : Ref sig .tc) (h0 : r ∉ hostOps0_W) (h1 : r ∉ hostOps1_W) (h2 : r ∉ hostOps2_W) (h3 : r ∉ hostOps3_W)
    (n2 : r ≠ main_call0_v23) (n4 : r ≠ main_call0_v34) (n6 : r ≠ main_call0_v45) : X7 m c r = X0 m c r :=
  (X7_of m c r h3).trans (at6 m c r h0 h1 h2 n2 n4 n6)

/-- The edges' source and destination words, and the reciprocal-count column, made by the first stretch and kept. -/
theorem src1 : (X1 m c main_call0_v1 : S1600000.Idx → BitVec 32) = val_main_v1 (F := Ideal) (X0 m c main_arg1) := host0_src (X0 m c)
theorem dst1 : (X1 m c main_call0_v3 : S1600000.Idx → BitVec 32) = val_main_v3 (F := Ideal) (X0 m c main_arg1) := host0_dst (X0 m c)
theorem inv1 : (X1 m c main_call0_v12 : S100000x1.Idx → EReal) = invCol (F := Ideal) (val_main_v17 (F := Ideal) (X0 m c main_arg1)) :=
  host0_inv (X0 m c)

/-- Region 0 leaves the reference's first layer. -/
theorem first : (o2 m c : S100000x128.Idx → EReal)
    = val_main_v29 (F := Ideal) (X0 m c main_arg0) (X0 m c main_arg1) (X0 m c main_arg3) (X0 m c main_arg4) (X0 m c main_arg5) :=
  layer0_eq (fun c b => X1 m c b) c _ _ _ _ _ (host0_sum (X0 m c)) (at1 m c main_arg0 (by decide)) (at1 m c main_arg3 (by decide))
    (at1 m c main_arg4 (by decide)) (at1 m c main_arg5 (by decide)) (inv1 m c)

/-- Region 1 leaves the reference's second layer. -/
theorem second : (o4 m c : S100000x128.Idx → EReal)
    = val_main_v55 (F := Ideal) (X0 m c main_arg0) (X0 m c main_arg1) (X0 m c main_arg3) (X0 m c main_arg4) (X0 m c main_arg5)
        (X0 m c main_arg6) (X0 m c main_arg7) (X0 m c main_arg8) := by
  have e1 : (X2 m c main_call0_v1 : S1600000.Idx → BitVec 32) = val_main_v1 (F := Ideal) (X0 m c main_arg1) :=
    (X2_of m c main_call0_v1 (by decide)).trans (src1 m c)
  have e3 : (X2 m c main_call0_v3 : S1600000.Idx → BitVec 32) = val_main_v3 (F := Ideal) (X0 m c main_arg1) :=
    (X2_of m c main_call0_v3 (by decide)).trans (dst1 m c)
  have e23 := (X2_self m c).trans (first m c)
  have hs : (X3 m c main_call0_v33 : S100000x128.Idx → EReal) = val_main_v39 (F := Ideal) (X0 m c main_arg0) (X0 m c main_arg1)
      (X0 m c main_arg3) (X0 m c main_arg4) (X0 m c main_arg5) := by
    refine (host1_sum (X2 m c)).trans ?_
    rw [e1, e3, e23, ← ref_sum1]
  exact layer1_eq (fun c b => X3 m c b) c _ _ _ _ _ _ _ _ hs ((X3_of m c main_call0_v23 (by decide)).trans e23)
    (at3 m c main_arg6 (by decide) (by decide) (by decide)) (at3 m c main_arg7 (by decide) (by decide) (by decide))
    (at3 m c main_arg8 (by decide) (by decide) (by decide))
    ((X3_of m c main_call0_v12 (by decide)).trans ((X2_of m c main_call0_v12 (by decide)).trans (inv1 m c)))

/-- Region 2 leaves the reference's third layer. -/
theorem third : (o6 m c : S100000x128.Idx → EReal)
    = val_main_v81 (F := Ideal) (X0 m c main_arg0) (X0 m c main_arg1) (X0 m c main_arg3) (X0 m c main_arg4) (X0 m c main_arg5)
        (X0 m c main_arg6) (X0 m c main_arg7) (X0 m c main_arg8) (X0 m c main_arg9) (X0 m c main_arg10) (X0 m c main_arg11) := by
  have e1 : (X4 m c main_call0_v1 : S1600000.Idx → BitVec 32) = val_main_v1 (F := Ideal) (X0 m c main_arg1) :=
    (X4_of m c main_call0_v1 (by decide)).trans ((X3_of m c main_call0_v1 (by decide)).trans
      ((X2_of m c main_call0_v1 (by decide)).trans (src1 m c)))
  have e3 : (X4 m c main_call0_v3 : S1600000.Idx → BitVec 32) = val_main_v3 (F := Ideal) (X0 m c main_arg1) :=
    (X4_of m c main_call0_v3 (by decide)).trans ((X3_of m c main_call0_v3 (by decide)).trans
      ((X2_of m c main_call0_v3 (by decide)).trans (dst1 m c)))
  have e34 := (X4_self m c).trans (second m c)
  have hs : (X5 m c main_call0_v44 : S100000x128.Idx → EReal) = val_main_v65 (F := Ideal) (X0 m c main_arg0) (X0 m c main_arg1)
      (X0 m c main_arg3) (X0 m c main_arg4) (X0 m c main_arg5) (X0 m c main_arg6) (X0 m c main_arg7) (X0 m c main_arg8) := by
    refine (host2_sum (X4 m c)).trans ?_
    rw [e1, e3, e34, ← ref_sum2]
  exact layer2_eq (fun c b => X5 m c b) c _ _ _ _ _ _ _ _ _ _ _ hs ((X5_of m c main_call0_v34 (by decide)).trans e34)
    (at5 m c main_arg9 (by decide) (by decide) (by decide) (by decide) (by decide))
    (at5 m c main_arg10 (by decide) (by decide) (by decide) (by decide) (by decide))
    (at5 m c main_arg11 (by decide) (by decide) (by decide) (by decide) (by decide))
    ((X5_of m c main_call0_v12 (by decide)).trans ((X4_of m c main_call0_v12 (by decide)).trans
      ((X3_of m c main_call0_v12 (by decide)).trans ((X2_of m c main_call0_v12 (by decide)).trans (inv1 m c)))))

/-- The kernel program's result is the reference's last stage of the arguments. -/
theorem result_eq : (o8 m c : S512x2.Idx → EReal)
    = val_main_v112 (F := Ideal) (X0 m c main_arg0) (X0 m c main_arg1) (X0 m c main_arg2) (X0 m c main_arg3) (X0 m c main_arg4)
        (X0 m c main_arg5) (X0 m c main_arg6) (X0 m c main_arg7) (X0 m c main_arg8) (X0 m c main_arg9) (X0 m c main_arg10)
        (X0 m c main_arg11) (X0 m c main_arg12) (X0 m c main_arg13) (X0 m c main_arg14) (X0 m c main_arg15) := by
  have hh := (X7_of m c main_call0_v45 (by decide)).trans ((X6_self m c).trans (third m c))
  have hw : (X7 m c main_call0_v46 : S100000x1.Idx → BitVec 32)
      = shapeCast S100000x1 (X0 m c main_arg2) shapeCasts_S100000_S100000x1 := by
    refine (host3_col (X6 m c)).trans ?_
    rw [at6 m c main_arg2 (by decide) (by decide) (by decide) (by decide) (by decide) (by decide)]
  exact out_eq (fun c b => X7 m c b) c _ _ _ _ _ _ _ _ _ _ _ _ _ _ _ _ hh hw
    (at7 m c main_arg14 (by decide) (by decide) (by decide) (by decide) (by decide) (by decide) (by decide))
    (at7 m c main_arg15 (by decide) (by decide) (by decide) (by decide) (by decide) (by decide) (by decide))
    (at7 m c main_arg12 (by decide) (by decide) (by decide) (by decide) (by decide) (by decide) (by decide))
    (at7 m c main_arg13 (by decide) (by decide) (by decide) (by decide) (by decide) (by decide) (by decide))

end ThroughRun

end Cert.Proof.Bridge

end
-- ==== Proof.lean ====
/-
  The certificate of `Cert.Claim`: a three-layer SAGE network over a graph of 100000 nodes and 1600000 edges, pooled by
  graph (512 graphs), layer-normalised and decoded by a linear map.

  The kernel program runs four kernel regions among its host operations: three dense steps relu((s · inv) · Wl + x · Wr + bl),
  each over 25 blocks of 4000 nodes (s the neighbour sums, inv the reciprocal of the neighbour count, at least one), and a
  last region that accumulates the pooled sums in a scratch buffer over the 25 blocks (a one-hot product per block) and,
  at the last block, normalises each pooled row and applies the linear map. The reference computes the same network with
  host operations only: mean aggregation by division, the bias added before the second product, pooling by an
  accumulating scatter.

  * The frames of the two kernel programs: every region's body runs at every grid point from what the pipeline hands it
    (the body obligations), and the run of @main chains the host stretches and the regions; no host stretch and no region
    writes an argument. The proof is written once for every float instance and read at the word-level instance for the
    kernel program and at the ideal instance for its idealization.
  * The reference's frame is its run with the result dropped.
  * The idealization rewrote no operation: nothing to preserve.
  * The value: at the ideal instance the run names the kernel program's result, the last region's result array. Entry
    by entry, each region's result is the specification's layer in the kernel's arrangement, which equals the reference's
    arrangement because max(count, 1) is never zero and extended-real sums may be regrouped; the scratch after the last
    block is the sum over each graph's nodes, which is what the reference's accumulating scatter adds; the decode is the
    same expression on both sides.
-/
import proofs.«426697_j79577154060299_2_alg».proof.Defs
import proofs.«426697_j79577154060299_2_alg».proof.Proof.Gen.Kernel
import proofs.«426697_j79577154060299_2_alg».proof.Proof.Gen.KernelIdeal
import proofs.«426697_j79577154060299_2_alg».proof.Proof.Gen.ReferenceIdeal
import proofs.«426697_j79577154060299_2_alg».proof.Proof.Gen.Pre_finite_inputs
import proofs.«426697_j79577154060299_2_alg».proof.Proof.K.Run
import proofs.«426697_j79577154060299_2_alg».proof.Proof.KI.Run
import proofs.«426697_j79577154060299_2_alg».proof.Proof.RefRun
import proofs.«426697_j79577154060299_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Body.frame m ρ

theorem frame_kernelIdeal : Cert.frame_KernelIdeal := fun m ρ _ => Cert.KernelIdeal.Body.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the same result: the kernel program's run names its result array, the reference's
    run its last stage, and the two are one function of the arguments. -/
theorem algebraic : Cert.algebraic_KernelIdeal_ReferenceIdeal := by
  intro m ρ m' ρ' _ hagree
  refine ⟨fun c => Cert.KernelIdeal.Body.o8 m c, Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v112_eq]
  obtain ⟨h0, h1, h2, h3, h4, h5, h6, h7, h8, h9, h10, h11, h12, h13, h14, h15⟩ := hagree c
  rw [h0, h1, h2, h3, h4, h5, h6, h7, h8, h9, h10, h11, h12, h13, h14, h15]
  exact (Cert.Proof.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
